-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x36 : Shape := ⟨2, ![800000, 36]⟩
abbrev S800000x16 : Shape := ⟨2, ![800000, 16]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S64x36 : Shape := ⟨2, ![64, 36]⟩
abbrev S128x64 : Shape := ⟨2, ![128, 64]⟩
abbrev S64x16 : Shape := ⟨2, ![64, 16]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x36 : S_.BroadcastsInDim S800000x36 (![] : Fin 0 → Fin S800000x36.rank)
  reducesTo_S800000x36_S_d0_1 : S800000x36.ReducesTo [0, 1] S_
  bcast_S_S800000x16 : S_.BroadcastsInDim S800000x16 (![] : Fin 0 → Fin S800000x16.rank)
  reducesTo_S800000x16_S_d0_1 : S800000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x36 : S_.BroadcastsInDim S64x36 (![] : Fin 0 → Fin S64x36.rank)
  reducesTo_S64x36_S_d0_1 : S64x36.ReducesTo [0, 1] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_
  bcast_S_S128x256 : S_.BroadcastsInDim S128x256 (![] : Fin 0 → Fin S128x256.rank)
  reducesTo_S128x256_S_d0_1 : S128x256.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part8 {F : FTy → Type} [FloatOps F] (main_arg3 : IVec S2x800000 32) (main_arg30 : FVec F S128 .f32) (main_v133 : IVec S_ 1) (main_v136 : IVec S128x128 1) : IVec S_ 1 :=
  let main_c_53 : IVec S_ 1 := constantI S_ 1 1#1
  let main_v137 : IVec S_ 1 := (fun x v => Host.reduce IntOp.andi x v reducesTo_S128x128_S_d0_1 h_S_) main_v136 main_c_53
  let main_v138 : IVec S_ 1 := andi main_v133 main_v137
  let main_v139 : FVec F S128 .f32 := Host.absf main_arg30
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_c_56 : IVec S_ 32 := constantI S_ 32 0#32
  let main_v144 : IVec S2x800000 32 := broadcastInDim S2x800000 ![] bcast_S_S2x800000 main_c_56
  let main_v145 : IVec S2x800000 1 := cmpi .sge main_arg3 main_v144
  let main_c_57 : IVec S_ 1 := constantI S_ 1 1#1
  let main_v146 : IVec S_ 1 := (fun x v => Host.reduce IntOp.andi x v reducesTo_S2x800000_S_d0_1 h_S_) main_v145 main_c_57
  let main_v147 : IVec S_ 1 := andi main_v143 main_v146
  let main_c_58 : IVec S_ 32 := constantI S_ 32 50000#32
  let main_v148 : IVec S2x800000 32 := broadcastInDim S2x800000 ![] bcast_S_S2x800000 main_c_58
  let main_v149 : IVec S2x800000 1 := cmpi .slt main_arg3 main_v148
  let main_c_59 : IVec S_ 1 := constantI S_ 1 1#1
  let main_v150 : IVec S_ 1 := (fun x v => Host.reduce IntOp.andi x v reducesTo_S2x800000_S_d0_1 h_S_) main_v149 main_c_59
  let main_v151 : IVec S_ 1 := andi main_v147 main_v150
  main_v151

def fn_part7 {F : FTy → Type} [FloatOps F] (main_arg3 : IVec S2x800000 32) (main_arg27 : FVec F S128x128 .f32) (main_arg28 : FVec F S128 .f32) (main_arg29 : FVec F S128x128 .f32) (main_arg30 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x128 .f32 := Host.absf main_arg27
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S128 .f32 := Host.absf main_arg28
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128x128 .f32 := Host.absf main_arg29
  let main_cst_52 : FVec F S_ .f32 := constant S_ .f32 0x7F800000#32
  let main_v135 : FVec F S128x128 .f32 := broadcastInDim S128x128 ![] bcast_S_S128x128 main_cst_52
  let main_v136 : IVec S128x128 1 := cmpf .olt main_v134 main_v135
  fn_part8 (F := F) main_arg3 main_arg30 main_v133 main_v136

def fn_part6 {F : FTy → Type} [FloatOps F] (main_arg3 : IVec S2x800000 32) (main_arg23 : FVec F S128x256 .f32) (main_arg24 : FVec F S128 .f32) (main_arg25 : FVec F S128x128 .f32) (main_arg26 : FVec F S128 .f32) (main_arg27 : FVec F S128x128 .f32) (main_arg28 : FVec F S128 .f32) (main_arg29 : FVec F S128x128 .f32) (main_arg30 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x256 .f32 := Host.absf main_arg23
  let main_cst_40 : FVec F S_ .f32 := constant S_ .f32 0x7F800000#32
  let main_v105 : FVec F S128x256 .f32 := broadcastInDim S128x256 ![] bcast_S_S128x256 main_cst_40
  let main_v106 : IVec S128x256 1 := cmpf .olt main_v104 main_v105
  let main_c_41 : IVec S_ 1 := constantI S_ 1 1#1
  let main_v107 : IVec S_ 1 := (fun x v => Host.reduce IntOp.andi x v reducesTo_S128x256_S_d0_1 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg25
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg26
  fn_part7 (F := F) main_arg3 main_arg27 main_arg28 main_arg29 main_arg30 main_v118 main_v119

def fn_part5 {F : FTy → Type} [FloatOps F] (main_arg3 : IVec S2x800000 32) (main_arg20 : FVec F S128 .f32) (main_arg21 : FVec F S128x128 .f32) (main_arg22 : FVec F S128 .f32) (main_arg23 : FVec F S128x256 .f32) (main_arg24 : FVec F S128 .f32) (main_arg25 : FVec F S128x128 .f32) (main_arg26 : FVec F S128 .f32) (main_arg27 : FVec F S128x128 .f32) (main_arg28 : FVec F S128 .f32) (main_arg29 : FVec F S128x128 .f32) (main_arg30 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg3 main_arg23 main_arg24 main_arg25 main_arg26 main_arg27 main_arg28 main_arg29 main_arg30 main_v98 main_v101 main_c_39

def fn_part4 {F : FTy → Type} [FloatOps F] (main_arg3 : IVec S2x800000 32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_arg22 : FVec F S128 .f32) (main_arg23 : FVec F S128x256 .f32) (main_arg24 : FVec F S128 .f32) (main_arg25 : FVec F S128x128 .f32) (main_arg26 : FVec F S128 .f32) (main_arg27 : FVec F S128x128 .f32) (main_arg28 : FVec F S128 .f32) (main_arg29 : FVec F S128x128 .f32) (main_arg30 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg3 main_arg20 main_arg21 main_arg22 main_arg23 main_arg24 main_arg25 main_arg26 main_arg27 main_arg28 main_arg29 main_arg30 main_v83 main_v84 main_cst_32

def fn_part3 {F : FTy → Type} [FloatOps F] (main_arg3 : IVec S2x800000 32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_arg22 : FVec F S128 .f32) (main_arg23 : FVec F S128x256 .f32) (main_arg24 : FVec F S128 .f32) (main_arg25 : FVec F S128x128 .f32) (main_arg26 : FVec F S128 .f32) (main_arg27 : FVec F S128x128 .f32) (main_arg28 : FVec F S128 .f32) (main_arg29 : FVec F S128x128 .f32) (main_arg30 : FVec F S128 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg3 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg3 : IVec S2x800000 32) (main_arg9 : FVec F S64x36 .f32) (main_arg10 : FVec F S128x64 .f32) (main_arg11 : FVec F S64x16 .f32) (main_arg12 : FVec F S128x64 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_arg22 : FVec F S128 .f32) (main_arg23 : FVec F S128x256 .f32) (main_arg24 : FVec F S128 .f32) (main_arg25 : FVec F S128x128 .f32) (main_arg26 : FVec F S128 .f32) (main_arg27 : FVec F S128x128 .f32) (main_arg28 : FVec F S128 .f32) (main_arg29 : FVec F S128x128 .f32) (main_arg30 : FVec F S128 .f32) (main_v33 : IVec S_ 1) : IVec S_ 1 :=
  let main_v34 : FVec F S64x36 .f32 := Host.absf main_arg9
  let main_cst_12 : FVec F S_ .f32 := constant S_ .f32 0x7F800000#32
  let main_v35 : FVec F S64x36 .f32 := broadcastInDim S64x36 ![] bcast_S_S64x36 main_cst_12
  let main_v36 : IVec S64x36 1 := cmpf .olt main_v34 main_v35
  let main_c_13 : IVec S_ 1 := constantI S_ 1 1#1
  let main_v37 : IVec S_ 1 := (fun x v => Host.reduce IntOp.andi x v reducesTo_S64x36_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64x16 .f32 := Host.absf main_arg11
  let main_cst_16 : FVec F S_ .f32 := constant S_ .f32 0x7F800000#32
  let main_v45 : FVec F S64x16 .f32 := broadcastInDim S64x16 ![] bcast_S_S64x16 main_cst_16
  let main_v46 : IVec S64x16 1 := cmpf .olt main_v44 main_v45
  let main_c_17 : IVec S_ 1 := constantI S_ 1 1#1
  let main_v47 : IVec S_ 1 := (fun x v => Host.reduce IntOp.andi x v reducesTo_S64x16_S_d0_1 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg3 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg3 : IVec S2x800000 32) (main_arg6 : FVec F S128 .f32) (main_arg7 : FVec F S128x128 .f32) (main_arg8 : FVec F S128 .f32) (main_arg9 : FVec F S64x36 .f32) (main_arg10 : FVec F S128x64 .f32) (main_arg11 : FVec F S64x16 .f32) (main_arg12 : FVec F S128x64 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_arg22 : FVec F S128 .f32) (main_arg23 : FVec F S128x256 .f32) (main_arg24 : FVec F S128 .f32) (main_arg25 : FVec F S128x128 .f32) (main_arg26 : FVec F S128 .f32) (main_arg27 : FVec F S128x128 .f32) (main_arg28 : FVec F S128 .f32) (main_arg29 : FVec F S128x128 .f32) (main_arg30 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S50000x128 .f32) (main_arg1 : FVec F S800000x36 .f32) (main_arg2 : FVec F S800000x16 .f32) (main_arg3 : IVec S2x800000 32) (main_arg4 : IVec S50000 32) (main_arg5 : FVec F S128x128 .f32) (main_arg6 : FVec F S128 .f32) (main_arg7 : FVec F S128x128 .f32) (main_arg8 : FVec F S128 .f32) (main_arg9 : FVec F S64x36 .f32) (main_arg10 : FVec F S128x64 .f32) (main_arg11 : FVec F S64x16 .f32) (main_arg12 : FVec F S128x64 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_arg22 : FVec F S128 .f32) (main_arg23 : FVec F S128x256 .f32) (main_arg24 : FVec F S128 .f32) (main_arg25 : FVec F S128x128 .f32) (main_arg26 : FVec F S128 .f32) (main_arg27 : FVec F S128x128 .f32) (main_arg28 : FVec F S128 .f32) (main_arg29 : FVec F S128x128 .f32) (main_arg30 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x36 .f32 := Host.absf main_arg1
  let main_cst_0 : FVec F S_ .f32 := constant S_ .f32 0x7F800000#32
  let main_v5 : FVec F S800000x36 .f32 := broadcastInDim S800000x36 ![] bcast_S_S800000x36 main_cst_0
  let main_v6 : IVec S800000x36 1 := cmpf .olt main_v4 main_v5
  let main_c_1 : IVec S_ 1 := constantI S_ 1 1#1
  let main_v7 : IVec S_ 1 := (fun x v => Host.reduce IntOp.andi x v reducesTo_S800000x36_S_d0_1 h_S_) main_v6 main_c_1
  let main_v8 : IVec S_ 1 := andi main_v3 main_v7
  let main_v9 : FVec F S800000x16 .f32 := Host.absf main_arg2
  let main_cst_2 : FVec F S_ .f32 := constant S_ .f32 0x7F800000#32
  let main_v10 : FVec F S800000x16 .f32 := broadcastInDim S800000x16 ![] bcast_S_S800000x16 main_cst_2
  let main_v11 : IVec S800000x16 1 := cmpf .olt main_v9 main_v10
  let main_c_3 : IVec S_ 1 := constantI S_ 1 1#1
  let main_v12 : IVec S_ 1 := (fun x v => Host.reduce IntOp.andi x v reducesTo_S800000x16_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S50000x128 : Shape := ⟨2, ![50000, 128]⟩
abbrev S800000x36 : Shape := ⟨2, ![800000, 36]⟩
abbrev S800000x16 : Shape := ⟨2, ![800000, 16]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S64x36 : Shape := ⟨2, ![64, 36]⟩
abbrev S128x64 : Shape := ⟨2, ![128, 64]⟩
abbrev S64x16 : Shape := ⟨2, ![64, 16]⟩
abbrev S128x256 : Shape := ⟨2, ![128, 256]⟩
abbrev S36x64 : Shape := ⟨2, ![36, 64]⟩
abbrev S64x128 : Shape := ⟨2, ![64, 128]⟩
abbrev S16x64 : Shape := ⟨2, ![16, 64]⟩
abbrev S256x128 : Shape := ⟨2, ![256, 128]⟩
abbrev S2000x128 : Shape := ⟨2, ![2000, 128]⟩
abbrev S1x128 : Shape := ⟨2, ![1, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S800000x256 : Shape := ⟨2, ![800000, 256]⟩
abbrev S4000x36 : Shape := ⟨2, ![4000, 36]⟩
abbrev S4000x16 : Shape := ⟨2, ![4000, 16]⟩
abbrev S4000x128 : Shape := ⟨2, ![4000, 128]⟩
abbrev S4000x256 : Shape := ⟨2, ![4000, 256]⟩
abbrev S4000x64 : Shape := ⟨2, ![4000, 64]⟩
abbrev S50000x256 : Shape := ⟨2, ![50000, 256]⟩
abbrev S2000x256 : Shape := ⟨2, ![2000, 256]⟩

abbrev nBuf : Space → Nat
  | .hbm => 100
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S800000x36, .f32⟩
  | .hbm, ⟨2, _⟩ => ⟨S800000x16, .f32⟩
  | .hbm, ⟨3, _⟩ => ⟨S2x800000, .i32⟩
  | .hbm, ⟨4, _⟩ => ⟨S50000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S64x36, .f32⟩
  | .hbm, ⟨10, _⟩ => ⟨S128x64, .f32⟩
  | .hbm, ⟨11, _⟩ => ⟨S64x16, .f32⟩
  | .hbm, ⟨12, _⟩ => ⟨S128x64, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128x128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128x256, .f32⟩
  | .hbm, ⟨24, _⟩ => ⟨S128, .f32⟩
  | .hbm, ⟨25, _⟩ => ⟨S128x128, .f32⟩
  | .hbm, ⟨26, _⟩ => ⟨S128, .f32⟩
  | .hbm, ⟨27, _⟩ => ⟨S128x128, .f32⟩
  | .hbm, ⟨28, _⟩ => ⟨S128, .f32⟩
  | .hbm, ⟨29, _⟩ => ⟨S128x128, .f32⟩
  | .hbm, ⟨30, _⟩ => ⟨S128, .f32⟩
  | .hbm, ⟨31, _⟩ => ⟨S128x128, .f32⟩
  | .hbm, ⟨32, _⟩ => ⟨S128x128, .f32⟩
  | .hbm, ⟨33, _⟩ => ⟨S36x64, .f32⟩
  | .hbm, ⟨34, _⟩ => ⟨S64x128, .f32⟩
  | .hbm, ⟨35, _⟩ => ⟨S16x64, .f32⟩
  | .hbm, ⟨36, _⟩ => ⟨S64x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S256x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S50000x128, .f32⟩
  | .hbm, ⟨48, _⟩ => ⟨S50000x128, .f32⟩
  | .hbm, ⟨49, _⟩ => ⟨S1x800000, .i32⟩
  | .hbm, ⟨50, _⟩ => ⟨S800000, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S1x800000, .i32⟩
  | .hbm, ⟨60, _⟩ => ⟨S800000, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S1, .i32⟩
  | .hbm, ⟨78, _⟩ => ⟨S_, .i32⟩
  | .hbm, ⟨79, _⟩ => ⟨S800000x1, .i32⟩
  | .hbm, ⟨80, _⟩ => ⟨S800000x1, .i1⟩
  | .hbm, ⟨81, _⟩ => ⟨S1x1, .i32⟩
  | .hbm, ⟨82, _⟩ => ⟨S800000x1, .i32⟩
  | .hbm, ⟨83, _⟩ => ⟨S800000x1, .i1⟩
  | .hbm, ⟨84, _⟩ => ⟨S800000x1, .i1⟩
  | .hbm, ⟨85, _⟩ => ⟨S_, .i1⟩
  | .hbm, ⟨86, _⟩ => ⟨S800000, .i1⟩
  | .hbm, ⟨87, _⟩ => ⟨S800000x128, .f32⟩
  | .hbm, ⟨88, _⟩ => ⟨S800000x128, .i1⟩
  | .hbm, ⟨89, _⟩ => ⟨S_, .f32⟩
  | .hbm, ⟨90, _⟩ => ⟨S800000x128, .f32⟩
  | .hbm, ⟨91, _⟩ => ⟨S800000x128, .f32⟩
  | .hbm, ⟨92, _⟩ => ⟨S800000x256, .f32⟩
  | .hbm, ⟨93, _⟩ => ⟨S_, .f32⟩
  | .hbm, ⟨94, _⟩ => ⟨S50000x256, .f32⟩
  | .hbm, ⟨95, _⟩ => ⟨S800000x1, .i32⟩
  | .hbm, ⟨96, _⟩ => ⟨S50000x256, .f32⟩
  | .hbm, ⟨97, _⟩ => ⟨S50000x128, .f32⟩
  | .hbm, ⟨98, _⟩ => ⟨S50000x128, .f32⟩
  | .hbm, ⟨99, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S4000x36, .f32⟩
  | .local _ .vmem, ⟨11, _⟩ => ⟨S4000x36, .f32⟩
  | .local _ .vmem, ⟨12, _⟩ => ⟨S4000x16, .f32⟩
  | .local _ .vmem, ⟨13, _⟩ => ⟨S4000x16, .f32⟩
  | .local _ .vmem, ⟨14, _⟩ => ⟨S4000x128, .f32⟩
  | .local _ .vmem, ⟨15, _⟩ => ⟨S4000x128, .f32⟩
  | .local _ .vmem, ⟨16, _⟩ => ⟨S36x64, .f32⟩
  | .local _ .vmem, ⟨17, _⟩ => ⟨S64x128, .f32⟩
  | .local _ .vmem, ⟨18, _⟩ => ⟨S16x64, .f32⟩
  | .local _ .vmem, ⟨19, _⟩ => ⟨S64x128, .f32⟩
  | .local _ .vmem, ⟨20, _⟩ => ⟨S4000x256, .f32⟩
  | .local _ .vmem, ⟨21, _⟩ => ⟨S4000x256, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S128, .f32⟩
  | .local _ .vmem, ⟨32, _⟩ => ⟨S128x128, .f32⟩
  | .local _ .vmem, ⟨33, _⟩ => ⟨S128x128, .f32⟩
  | .local _ .vmem, ⟨34, _⟩ => ⟨S128, .f32⟩
  | .local _ .vmem, ⟨35, _⟩ => ⟨S128x128, .f32⟩
  | .local _ .vmem, ⟨36, _⟩ => ⟨S128x128, .f32⟩
  | .local _ .vmem, ⟨37, _⟩ => ⟨S128, .f32⟩
  | .local _ .vmem, ⟨38, _⟩ => ⟨S128x128, .f32⟩
  | .local _ .vmem, ⟨39, _⟩ => ⟨S128, .f32⟩
  | .local _ .vmem, ⟨40, _⟩ => ⟨S256x128, .f32⟩
  | .local _ .vmem, ⟨41, _⟩ => ⟨S128, .f32⟩
  | .local _ .vmem, ⟨42, _⟩ => ⟨S128x128, .f32⟩
  | .local _ .vmem, ⟨43, _⟩ => ⟨S128, .f32⟩
  | .local _ .vmem, ⟨44, _⟩ => ⟨S128x128, .f32⟩
  | .local _ .vmem, ⟨45, _⟩ => ⟨S128, .f32⟩
  | .local _ .vmem, ⟨46, _⟩ => ⟨S128x128, .f32⟩
  | .local _ .vmem, ⟨47, _⟩ => ⟨S128, .f32⟩
  | .local _ .vmem, ⟨48, _⟩ => ⟨S2000x128, .f32⟩
  | .local _ .vmem, ⟨49, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16_0 : Ref sig .tc := ⟨.hbm, 47, rfl⟩
abbrev main_v16_1 : Ref sig .tc := ⟨.hbm, 48, rfl⟩
abbrev main_v17 : Ref sig .tc := ⟨.hbm, 49, rfl⟩
abbrev main_v18 : Ref sig .tc := ⟨.hbm, 50, rfl⟩
abbrev main_c : Ref sig .tc := ⟨.hbm, 51, rfl⟩
abbrev main_c_0 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_c_1 : Ref sig .tc := ⟨.hbm, 61, rfl⟩
abbrev main_c_2 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v22 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v23 : Ref sig .tc := ⟨.hbm, 91, rfl⟩
abbrev main_v24 : Ref sig .tc := ⟨.hbm, 92, rfl⟩
abbrev main_cst : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg12_0 : Ref sig .tc := ⟨.vmem, 38, rfl⟩
abbrev cc2_stg13_0 : Ref sig .tc := ⟨.vmem, 39, rfl⟩
abbrev cc2_stg14_0 : Ref sig .tc := ⟨.vmem, 40, rfl⟩
abbrev cc2_stg15_0 : Ref sig .tc := ⟨.vmem, 41, rfl⟩
abbrev cc2_stg16_0 : Ref sig .tc := ⟨.vmem, 42, rfl⟩
abbrev cc2_stg17_0 : Ref sig .tc := ⟨.vmem, 43, rfl⟩
abbrev cc2_stg18_0 : Ref sig .tc := ⟨.vmem, 44, rfl⟩
abbrev cc2_stg19_0 : Ref sig .tc := ⟨.vmem, 45, rfl⟩
abbrev cc2_stg20_0 : Ref sig .tc := ⟨.vmem, 46, rfl⟩
abbrev cc2_stg21_0 : Ref sig .tc := ⟨.vmem, 47, rfl⟩
abbrev cc2_stg22_0 : Ref sig .tc := ⟨.vmem, 48, rfl⟩
abbrev cc2_stg22_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem11_0 : DmaSem sig := 37
abbrev cc2_sem12_0 : DmaSem sig := 38
abbrev cc2_sem13_0 : DmaSem sig := 39
abbrev cc2_sem14_0 : DmaSem sig := 40
abbrev cc2_sem15_0 : DmaSem sig := 41
abbrev cc2_sem16_0 : DmaSem sig := 42
abbrev cc2_sem17_0 : DmaSem sig := 43
abbrev cc2_sem18_0 : DmaSem sig := 44
abbrev cc2_sem19_0 : DmaSem sig := 45
abbrev cc2_sem20_0 : DmaSem sig := 46
abbrev cc2_sem21_0 : DmaSem sig := 47
abbrev cc2_sem22_0 : DmaSem sig := 48
abbrev cc2_sem22_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x36 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S36x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_20 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_21 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_22 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S256x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S128x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S128 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S128x128 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S128 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]

abbrev stage2_20 : Fin 1 → Memref sig .tc .vmem S128x128 .f32 := fun | 0 => Memref.whole cc2_stg20_0 | ⟨_ + 1, h⟩ => absurd h (Nat.not_lt.2 (Nat.le_add_left _ _))
abbrev sem2_20 : Fin 1 → DmaSem sig := fun | 0 => cc2_sem20_0 | ⟨_ + 1, h⟩ => absurd h (Nat.not_lt.2 (Nat.le_add_left _ _))
abbrev reads2_20 : Fin grid2.rank → Bool := ![false]

abbrev stage2_21 : Fin 1 → Memref sig .tc .vmem S128 .f32 := fun | 0 => Memref.whole cc2_stg21_0 | ⟨_ + 1, h⟩ => absurd h (Nat.not_lt.2 (Nat.le_add_left _ _))
abbrev sem2_21 : Fin 1 → DmaSem sig := fun | 0 => cc2_sem21_0 | ⟨_ + 1, h⟩ => absurd h (Nat.not_lt.2 (Nat.le_add_left _ _))
abbrev reads2_21 : Fin grid2.rank → Bool := ![false]

abbrev stage2_22 : Fin 2 → Memref sig .tc .vmem S2000x128 .f32 := fun | 0 => Memref.whole cc2_stg22_0 | 1 => Memref.whole cc2_stg22_1 | ⟨_ + 2, h⟩ => absurd h (Nat.not_lt.2 (Nat.le_add_left _ _))
abbrev sem2_22 : Fin 2 → DmaSem sig := fun | 0 => cc2_sem22_0 | 1 => cc2_sem22_1 | ⟨_ + 2, h⟩ => absurd h (Nat.not_lt.2 (Nat.le_add_left _ _))
abbrev reads2_22 : Fin grid2.rank → Bool := ![true]

class Facts₀ : Prop where
  transposes_S128x128_S128x128_1_0 : S128x128.Transposes [1, 0] S128x128
  transposes_S64x36_S36x64_1_0 : S64x36.Transposes [1, 0] S36x64
  transposes_S128x64_S64x128_1_0 : S128x64.Transposes [1, 0] S64x128
  transposes_S64x16_S16x64_1_0 : S64x16.Transposes [1, 0] S16x64
  transposes_S128x256_S256x128_1_0 : S128x256.Transposes [1, 0] S256x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  slices_S2x800000_S1x800000_1_0 : S2x800000.Slices ![1, 0] S1x800000
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S4000x36_S4000x36_0_0 : ∀ a, (![0, 0] : Fin 2 → Nat) a + S4000x36.size a ≤ S4000x36.size a
  h_S4000x36 : 0 < S4000x36.numel
  inb_S4000x16_S4000x16_0_0 : ∀ a, (![0, 0] : Fin 2 → Nat) a + S4000x16.size a ≤ S4000x16.size a
  h_S4000x16 : 0 < S4000x16.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S36x64_S36x64_0_0 : ∀ a, (![0, 0] : Fin 2 → Nat) a + S36x64.size a ≤ S36x64.size a
  h_S36x64 : 0 < S36x64.numel
  shapeCasts_S36x64_S36x64 : S36x64.ShapeCasts S36x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S16x64_S16x64_0_0 : ∀ a, (![0, 0] : Fin 2 → Nat) a + S16x64.size a ≤ S16x64.size a
  h_S16x64 : 0 < S16x64.numel
  shapeCasts_S16x64_S16x64 : S16x64.ShapeCasts S16x64
  concatenates_S4000x128_S4000x128_S4000x256_d1 : Shape.Concatenates [S4000x128, S4000x128] S4000x256 1
  inb_S4000x256_S4000x256_0_0 : ∀ a, (![0, 0] : Fin 2 → Nat) a + S4000x256.size a ≤ S4000x256.size a
  h_S4000x256 : 0 < S4000x256.numel
  bcast_S_S50000x256 : S_.BroadcastsInDim S50000x256 (![] : Fin 0 → Fin S50000x256.rank)
  slices_S50000x256_S50000x128_0_0 : S50000x256.Slices ![0, 0] S50000x128
  slices_S50000x256_S50000x128_0_128 : S50000x256.Slices ![0, 128] S50000x128
  shapeCasts_S2000x128_S2000x128 : S2000x128.ShapeCasts S2000x128
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  dot_S4000x36_S36x64_S4000x64_1_0_0_1_n_n_wf : DotDims.WF S4000x36 S36x64 S4000x64 [1] [0] [0] [1] [] []
  dot_S4000x64_S64x128_S4000x128_1_0_0_1_n_n_wf : DotDims.WF S4000x64 S64x128 S4000x128 [1] [0] [0] [1] [] []
  dot_S4000x16_S16x64_S4000x64_1_0_0_1_n_n_wf : DotDims.WF S4000x16 S16x64 S4000x64 [1] [0] [0] [1] [] []
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x36.size a ≤ S800000x36.size a
  hwx1_0 : ∀ i : grid1.Coords, EltTy.bits .f32 = 32 ∨ (Rect.block (s := S800000x36) S4000x36.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x16.size a ≤ S800000x16.size a
  hwx1_1 : ∀ i : grid1.Coords, EltTy.bits .f32 = 32 ∨ (Rect.block (s := S800000x16) S4000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S800000x128.size a
  hwx1_2 : ∀ i : grid1.Coords, EltTy.bits .f32 = 32 ∨ (Rect.block (s := S800000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S36x64.size a ≤ S36x64.size a
  hwx1_3 : ∀ i : grid1.Coords, EltTy.bits .f32 = 32 ∨ (Rect.block (s := S36x64) S36x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x64.size a ≤ S16x64.size a
  hwx1_5 : ∀ i : grid1.Coords, EltTy.bits .f32 = 32 ∨ (Rect.block (s := S16x64) S16x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x128.size a ≤ S64x128.size a
  hwx1_6 : ∀ i : grid1.Coords, EltTy.bits .f32 = 32 ∨ (Rect.block (s := S64x128) S64x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x256.size a ≤ S800000x256.size a
  hwx1_7 : ∀ i : grid1.Coords, EltTy.bits .f32 = 32 ∨ (Rect.block (s := S800000x256) S4000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128.size a ≤ S128.size a
  hwx2_11 : ∀ i : grid2.Coords, EltTy.bits .f32 = 32 ∨ (Rect.block (s := S128) S128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128x128.size a ≤ S128x128.size a
  hwx2_12 : ∀ i : grid2.Coords, EltTy.bits .f32 = 32 ∨ (Rect.block (s := S128x128) S128x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128.size a ≤ S128.size a
  hwx2_13 : ∀ i : grid2.Coords, EltTy.bits .f32 = 32 ∨ (Rect.block (s := S128) S128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S256x128.size a ≤ S256x128.size a
  hwx2_14 : ∀ i : grid2.Coords, EltTy.bits .f32 = 32 ∨ (Rect.block (s := S256x128) S256x128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S128.size a ≤ S128.size a
  hwx2_15 : ∀ i : grid2.Coords, EltTy.bits .f32 = 32 ∨ (Rect.block (s := S128) S128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S128x128.size a ≤ S128x128.size a
  hwx2_16 : ∀ i : grid2.Coords, EltTy.bits .f32 = 32 ∨ (Rect.block (s := S128x128) S128x128.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S128.size a ≤ S128.size a
  hwx2_17 : ∀ i : grid2.Coords, EltTy.bits .f32 = 32 ∨ (Rect.block (s := S128) S128.size (cc2_transform_17 i) (hinb2_17 i)).WholeWords (EltTy.packing .f32)
  hstage2_18 : ∀ j, (stage2_18 j).IsWhole
  nbuf2_18 : grid2.bufCount reads2_18 true = 1
  hreads2_18 : ∀ i i' : grid2.Coords, (∀ a, reads2_18 a = true → i a = i' a) → cc2_transform_18 i = cc2_transform_18 i'
  hinb2_18 : ∀ (i : grid2.Coords) a, (cc2_transform_18 i a + 1) * S128x128.size a ≤ S128x128.size a
  hwx2_18 : ∀ i : grid2.Coords, EltTy.bits .f32 = 32 ∨ (Rect.block (s := S128x128) S128x128.size (cc2_transform_18 i) (hinb2_18 i)).WholeWords (EltTy.packing .f32)
  hstage2_19 : ∀ j, (stage2_19 j).IsWhole
  nbuf2_19 : grid2.bufCount reads2_19 true = 1
  hreads2_19 : ∀ i i' : grid2.Coords, (∀ a, reads2_19 a = true → i a = i' a) → cc2_transform_19 i = cc2_transform_19 i'
  hinb2_19 : ∀ (i : grid2.Coords) a, (cc2_transform_19 i a + 1) * S128.size a ≤ S128.size a
  hwx2_19 : ∀ i : grid2.Coords, EltTy.bits .f32 = 32 ∨ (Rect.block (s := S128) S128.size (cc2_transform_19 i) (hinb2_19 i)).WholeWords (EltTy.packing .f32)
  hstage2_20 : ∀ j, (stage2_20 j).IsWhole
  nbuf2_20 : grid2.bufCount reads2_20 true = 1
  hreads2_20 : ∀ i i' : grid2.Coords, (∀ a, reads2_20 a = true → i a = i' a) → cc2_transform_20 i = cc2_transform_20 i'
  hinb2_20 : ∀ (i : grid2.Coords) a, (cc2_transform_20 i a + 1) * S128x128.size a ≤ S128x128.size a
  hwx2_20 : ∀ i : grid2.Coords, EltTy.bits .f32 = 32 ∨ (Rect.block (s := S128x128) S128x128.size (cc2_transform_20 i) (hinb2_20 i)).WholeWords (EltTy.packing .f32)
  hstage2_21 : ∀ j, (stage2_21 j).IsWhole
  nbuf2_21 : grid2.bufCount reads2_21 true = 1
  hreads2_21 : ∀ i i' : grid2.Coords, (∀ a, reads2_21 a = true → i a = i' a) → cc2_transform_21 i = cc2_transform_21 i'
  hinb2_21 : ∀ (i : grid2.Coords) a, (cc2_transform_21 i a + 1) * S128.size a ≤ S128.size a
  hwx2_21 : ∀ i : grid2.Coords, EltTy.bits .f32 = 32 ∨ (Rect.block (s := S128) S128.size (cc2_transform_21 i) (hinb2_21 i)).WholeWords (EltTy.packing .f32)
  hstage2_22 : ∀ j, (stage2_22 j).IsWhole
  nbuf2_22 : grid2.bufCount reads2_22 false = 2
  hreads2_22 : ∀ i i' : grid2.Coords, (∀ a, reads2_22 a = true → i a = i' a) → cc2_transform_22 i = cc2_transform_22 i'
  hinb2_22 : ∀ (i : grid2.Coords) a, (cc2_transform_22 i a + 1) * S2000x128.size a ≤ S50000x128.size a
  hwx2_22 : ∀ i : grid2.Coords, EltTy.bits .f32 = 32 ∨ (Rect.block (s := S50000x128) S2000x128.size (cc2_transform_22 i) (hinb2_22 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x36_S36x64_S4000x64_1_0_0_1_n_n : DotDims S4000x36 S36x64 S4000x64 where
  lhsContracting := [1]
  rhsContracting := [0]
  lhsNonContracting := [0]
  rhsNonContracting := [1]
  lhsBatch := []
  rhsBatch := []
  wf := dot_S4000x36_S36x64_S4000x64_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x16_S16x64_S4000x64_1_0_0_1_n_n : DotDims S4000x16 S16x64 S4000x64 where
  lhsContracting := [1]
  rhsContracting := [0]
  lhsNonContracting := [0]
  rhsNonContracting := [1]
  lhsBatch := []
  rhsBatch := []
  wf := dot_S4000x16_S16x64_S4000x64_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S4000x36.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S36x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S16x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S64x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S4000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v16_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16_1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v6) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v8) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg17) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v9) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v10) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg20) S128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v11) S128x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg22) S128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v12) S256x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_arg24) S128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v13) S128x128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_arg26) S128.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v14) S128x128.size cc2_transform_18 reads2_18 false true 1 stage2_18 sem2_18
    hrank2 hreads2_18 hinb2_18 nbuf2_18 (Memref.isWhole_whole _) hwx2_18 hstage2_18

abbrev win2_19 : Pipeline.Window sig grid2 :=
  Pipeline.Window.ofSpec (Memref.whole main_arg28) S128.size cc2_transform_19 reads2_19 false true 1 stage2_19 sem2_19
    hrank2 hreads2_19 hinb2_19 nbuf2_19 (Memref.isWhole_whole _) hwx2_19 hstage2_19

abbrev win2_20 : Pipeline.Window sig grid2 :=
  Pipeline.Window.ofSpec (Memref.whole main_v15) S128x128.size cc2_transform_20 reads2_20 false true 1 stage2_20 sem2_20
    hrank2 hreads2_20 hinb2_20 nbuf2_20 (Memref.isWhole_whole _) hwx2_20 hstage2_20

abbrev win2_21 : Pipeline.Window sig grid2 :=
  Pipeline.Window.ofSpec (Memref.whole main_arg30) S128.size cc2_transform_21 reads2_21 false true 1 stage2_21 sem2_21
    hrank2 hreads2_21 hinb2_21 nbuf2_21 (Memref.isWhole_whole _) hwx2_21 hstage2_21

abbrev win2_22 : Pipeline.Window sig grid2 :=
  Pipeline.Window.ofSpec (Memref.whole main_v30) S2000x128.size cc2_transform_22 reads2_22 true false 2 stage2_22 sem2_22
    hrank2 hreads2_22 hinb2_22 nbuf2_22 (Memref.isWhole_whole _) hwx2_22 hstage2_22

abbrev win2 : Fin 23 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | 20 => win2_20 | 21 => win2_21 | 22 => win2_22 | ⟨_ + 23, h⟩ => absurd h (Nat.not_lt.2 (Nat.le_add_left _ _))
abbrev spec2 : Fin 23 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x36 : Shape := ⟨2, ![800000, 36]⟩
abbrev S800000x16 : Shape := ⟨2, ![800000, 16]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S64x36 : Shape := ⟨2, ![64, 36]⟩
abbrev S128x64 : Shape := ⟨2, ![128, 64]⟩
abbrev S64x16 : Shape := ⟨2, ![64, 16]⟩
abbrev S128x256 : Shape := ⟨2, ![128, 256]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S36x64 : Shape := ⟨2, ![36, 64]⟩
abbrev S800000x64 : Shape := ⟨2, ![800000, 64]⟩
abbrev S64x128 : Shape := ⟨2, ![64, 128]⟩
abbrev S800000x128 : Shape := ⟨2, ![800000, 128]⟩
abbrev S16x64 : Shape := ⟨2, ![16, 64]⟩
abbrev S800000x1 : Shape := ⟨2, ![800000, 1]⟩
abbrev S50000x256 : Shape := ⟨2, ![50000, 256]⟩
abbrev S256x128 : Shape := ⟨2, ![256, 128]⟩

abbrev nBuf : Space → Nat
  | .hbm => 192
  | .vmem => 0
  | .smem => 0
  | _ => 0

abbrev hbmTy0_0 (i : Nat) : BufTy := match i % 128 with
  | 0 => ⟨S50000x128, .f32⟩
  | 1 => ⟨S800000x36, .f32⟩
  | 2 => ⟨S800000x16, .f32⟩
  | 3 => ⟨S2x800000, .i32⟩
  | 4 => ⟨S50000, .i32⟩
  | 5 => ⟨S128x128, .f32⟩
  | 6 => ⟨S128, .f32⟩
  | 7 => ⟨S128x128, .f32⟩
  | 8 => ⟨S128, .f32⟩
  | 9 => ⟨S64x36, .f32⟩
  | 10 => ⟨S128x64, .f32⟩
  | 11 => ⟨S64x16, .f32⟩
  | 12 => ⟨S128x64, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S128x128, .f32⟩
  | 20 => ⟨S128, .f32⟩
  | 21 => ⟨S128x128, .f32⟩
  | 22 => ⟨S128, .f32⟩
  | 23 => ⟨S128x256, .f32⟩
  | 24 => ⟨S128, .f32⟩
  | 25 => ⟨S128x128, .f32⟩
  | 26 => ⟨S128, .f32⟩
  | 27 => ⟨S128x128, .f32⟩
  | 28 => ⟨S128, .f32⟩
  | 29 => ⟨S128x128, .f32⟩
  | 30 => ⟨S128, .f32⟩
  | 31 => ⟨S1x800000, .i32⟩
  | 32 => ⟨S800000, .i32⟩
  | 33 => ⟨S1x800000, .i32⟩
  | 34 => ⟨S800000, .i32⟩
  | 35 => ⟨S128x128, .f32⟩
  | 36 => ⟨S50000x128, .f32⟩
  | 37 => ⟨S1x128, .f32⟩
  | 38 => ⟨S50000x128, .f32⟩
  | 39 => ⟨S50000x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S50000x128, .f32⟩
  | 49 => ⟨S128x128, .f32⟩
  | 50 => ⟨S50000x128, .f32⟩
  | 51 => ⟨S1x128, .f32⟩
  | 52 => ⟨S50000x128, .f32⟩
  | 53 => ⟨S50000x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S50000x128, .f32⟩
  | 63 => ⟨S36x64, .f32⟩
  | 64 => ⟨S800000x64, .f32⟩
  | 65 => ⟨S64x128, .f32⟩
  | 66 => ⟨S800000x128, .f32⟩
  | 67 => ⟨S16x64, .f32⟩
  | 68 => ⟨S800000x64, .f32⟩
  | 69 => ⟨S64x128, .f32⟩
  | 70 => ⟨S800000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S128x128, .f32⟩
  | 86 => ⟨S50000x128, .f32⟩
  | 87 => ⟨S1x128, .f32⟩
  | 88 => ⟨S50000x128, .f32⟩
  | 89 => ⟨S50000x128, .f32⟩
  | 90 => ⟨S128x128, .f32⟩
  | 91 => ⟨S50000x128, .f32⟩
  | 92 => ⟨S50000x128, .f32⟩
  | 93 => ⟨S128x128, .f32⟩
  | 94 => ⟨S50000x128, .f32⟩
  | 95 => ⟨S1x128, .f32⟩
  | 96 => ⟨S50000x128, .f32⟩
  | 97 => ⟨S50000x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S128x128, .f32⟩
  | 122 => ⟨S50000x128, .f32⟩
  | 123 => ⟨S1x128, .f32⟩
  | 124 => ⟨S50000x128, .f32⟩
  | 125 => ⟨S50000x128, .f32⟩
  | 126 => ⟨S128x128, .f32⟩
  | 127 => ⟨S50000x128, .f32⟩
  | _ => ⟨S50000x128, .f32⟩

abbrev hbmTy0_1 (i : Nat) : BufTy := match i % 128 with
  | 0 => ⟨S50000x128, .f32⟩
  | 1 => ⟨S128x128, .f32⟩
  | 2 => ⟨S50000x128, .f32⟩
  | 3 => ⟨S1x128, .f32⟩
  | 4 => ⟨S50000x128, .f32⟩
  | 5 => ⟨S50000x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .f32⟩
  | 12 => ⟨S50000x128, .f32⟩
  | 13 => ⟨S50000x128, .f32⟩
  | 14 => ⟨S50000x128, .f32⟩
  | 15 => ⟨S50000x256, .f32⟩
  | 16 => ⟨S256x128, .f32⟩
  | 17 => ⟨S50000x128, .f32⟩
  | 18 => ⟨S1x128, .f32⟩
  | 19 => ⟨S50000x128, .f32⟩
  | 20 => ⟨S50000x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S50000x128, .f32⟩
  | 30 => ⟨S128x128, .f32⟩
  | 31 => ⟨S50000x128, .f32⟩
  | 32 => ⟨S1x128, .f32⟩
  | 33 => ⟨S50000x128, .f32⟩
  | 34 => ⟨S50000x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S50000x128, .f32⟩
  | 44 => ⟨S50000x128, .f32⟩
  | 45 => ⟨S128x128, .f32⟩
  | 46 => ⟨S50000x128, .f32⟩
  | 47 => ⟨S1x128, .f32⟩
  | 48 => ⟨S50000x128, .f32⟩
  | 49 => ⟨S50000x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S50000x128, .f32⟩
  | 59 => ⟨S128x128, .f32⟩
  | 60 => ⟨S50000x128, .f32⟩
  | 61 => ⟨S1x128, .f32⟩
  | 62 => ⟨S50000x128, .f32⟩
  | 63 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_cst_0 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_1 : Ref sig .tc := ⟨.hbm, 56, rfl⟩
abbrev main_v23 : Ref sig .tc := ⟨.hbm, 57, rfl⟩
abbrev main_v24 : Ref sig .tc := ⟨.hbm, 58, rfl⟩
abbrev main_cst_2 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_c : Ref sig .tc := ⟨.hbm, 71, rfl⟩
abbrev main_v36 : Ref sig .tc := ⟨.hbm, 72, rfl⟩
abbrev main_v37 : Ref sig .tc := ⟨.hbm, 73, rfl⟩
abbrev main_c_3 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_4 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_5 : Ref sig .tc := ⟨.hbm, 100, rfl⟩
abbrev main_v62 : Ref sig .tc := ⟨.hbm, 101, rfl⟩
abbrev main_v63 : Ref sig .tc := ⟨.hbm, 102, rfl⟩
abbrev main_cst_6 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_c_7 : Ref sig .tc := ⟨.hbm, 107, rfl⟩
abbrev main_v67 : Ref sig .tc := ⟨.hbm, 108, rfl⟩
abbrev main_v68 : Ref sig .tc := ⟨.hbm, 109, rfl⟩
abbrev main_c_8 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_9 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_10 : Ref sig .tc := ⟨.hbm, 136, rfl⟩
abbrev main_v93 : Ref sig .tc := ⟨.hbm, 137, rfl⟩
abbrev main_v94 : Ref sig .tc := ⟨.hbm, 138, rfl⟩
abbrev main_cst_11 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_12 : Ref sig .tc := ⟨.hbm, 151, rfl⟩
abbrev main_v106 : Ref sig .tc := ⟨.hbm, 152, rfl⟩
abbrev main_v107 : Ref sig .tc := ⟨.hbm, 153, rfl⟩
abbrev main_cst_13 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_14 : Ref sig .tc := ⟨.hbm, 165, rfl⟩
abbrev main_v118 : Ref sig .tc := ⟨.hbm, 166, rfl⟩
abbrev main_v119 : Ref sig .tc := ⟨.hbm, 167, rfl⟩
abbrev main_cst_15 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_16 : Ref sig .tc := ⟨.hbm, 180, rfl⟩
abbrev main_v131 : Ref sig .tc := ⟨.hbm, 181, rfl⟩
abbrev main_v132 : Ref sig .tc := ⟨.hbm, 182, rfl⟩
abbrev main_cst_17 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  transposes_S64x36_S36x64_1_0 : S64x36.Transposes [1, 0] S36x64
  transposes_S128x64_S64x128_1_0 : S128x64.Transposes [1, 0] S64x128
  transposes_S64x16_S16x64_1_0 : S64x16.Transposes [1, 0] S16x64
  bcast_S_S800000 : S_.BroadcastsInDim S800000 (![] : Fin 0 → Fin S800000.rank)
  bcast_S800000_S800000x1_0 : S800000.BroadcastsInDim S800000x1 (![0] : Fin 1 → Fin S800000x1.rank)
  concatenates_S50000x128_S50000x128_S50000x256_d1 : Shape.Concatenates [S50000x128, S50000x128] S50000x256 1
  transposes_S128x256_S256x128_1_0 : S128x256.Transposes [1, 0] S256x128
  dot_S50000x128_S128x128_S50000x128_1_0_0_1_n_n_wf : DotDims.WF S50000x128 S128x128 S50000x128 [1] [0] [0] [1] [] []
  dot_S800000x36_S36x64_S800000x64_1_0_0_1_n_n_wf : DotDims.WF S800000x36 S36x64 S800000x64 [1] [0] [0] [1] [] []
  dot_S800000x64_S64x128_S800000x128_1_0_0_1_n_n_wf : DotDims.WF S800000x64 S64x128 S800000x128 [1] [0] [0] [1] [] []
  dot_S800000x16_S16x64_S800000x64_1_0_0_1_n_n_wf : DotDims.WF S800000x16 S16x64 S800000x64 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x36_S36x64_S800000x64_1_0_0_1_n_n : DotDims S800000x36 S36x64 S800000x64 where
  lhsContracting := [1]
  rhsContracting := [0]
  lhsNonContracting := [0]
  rhsNonContracting := [1]
  lhsBatch := []
  rhsBatch := []
  wf := dot_S800000x36_S36x64_S800000x64_1_0_0_1_n_n_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def dot_S800000x16_S16x64_S800000x64_1_0_0_1_n_n : DotDims S800000x16 S16x64 S800000x64 where
  lhsContracting := [1]
  rhsContracting := [0]
  lhsNonContracting := [0]
  rhsNonContracting := [1]
  lhsBatch := []
  rhsBatch := []
  wf := dot_S800000x16_S16x64_S800000x64_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.RefFrame.lean ====
/- The reference's frame: its run terminates without a fault and leaves the argument arrays as they were (the generated run
   with the result dropped). -/
import proofs.«405302_j4922032521429_3_alg».proof.Defs
import proofs.«405302_j4922032521429_3_alg».proof.Proof.Gen.ReferenceIdeal
import proofs.«405302_j4922032521429_3_alg».proof.Proof.Gen.ReferenceIdeal.Run
import proofs.«405302_j4922032521429_3_alg».proof.Proof.Gen.Pre_finite_inputs

noncomputable section

open Idealize.ShloMosaic Idealize.ShloMosaic.TcCoe Idealize.SL.Sem

namespace Cert.Proof.RefClaims

theorem frame_ri : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.LibRowLayers.lean ====
/-
  Row-local layers at the ideal values: arrays of extended reals over literal two-axis shapes, each layer's result row a
  function of the operand's same row and of whole weight arrays. A dense layer is the sum over the contracted axis of the
  products (the host's dot_general and a matrix unit's product into a zero accumulator are both that sum), a bias is one
  vector laid along every row, the swish activation is v / (1 + e^(-v)) in its two spellings, and a run of rows of a
  layer's result is the layer applied to that run of rows of its operand.
-/
import Idealize.ShloMosaic.Lib.ValueIdx
import Idealize.ShloMosaic.Lib.Pipeline.Value
import Idealize.ShloMosaic.Lib.KernelVsHost
import Idealize.ShloMosaic.Lib.StackMember
import Idealize.ShloMosaic.Lib.IdealHost
import Idealize.ShloMosaic.PureOps.Ideal.Laws

noncomputable section

namespace RowLayers

open Idealize.ShloMosaic Idealize.ShloMosaic.ValueIdx

/-- An a-by-b matrix shape. -/
abbrev M2 (a b : Nat) : Shape := ⟨2, ![a, b]⟩
/-- A vector shape. -/
abbrev V1 (a : Nat) : Shape := ⟨1, ![a]⟩
/-- The scalar shape. -/
abbrev S0 : Shape := ⟨0, ![]⟩

variable {n K M : Nat}

/-- The plain product: entry (r, c) is the sum over k of x[r, k] · w[k, c]. -/
def mulP {φ₁ φ₂ : FTy} (x : FVec Ideal (M2 n K) φ₁) (w : FVec Ideal (M2 K M) φ₂) : FVec Ideal (M2 n M) .f32 :=
  fun i => ∑ k : Fin K, x (ix2 (i 0) k) * w (ix2 k (i 1))

/-- A vector laid along every row. -/
def rowB (n : Nat) (b : FVec Ideal (V1 M) .f32) : FVec Ideal (M2 n M) .f32 := fun i => b (ix1 (i 1))

/-- swish, entry by entry: v · (1 / (1 + e^(-v))). -/
def swish {s : Shape} (v : FVec Ideal s .f32) : FVec Ideal s .f32 := fun i => v i * Ideal.logistic (v i)

/-- Rows off, …, off + n - 1 of a taller matrix. -/
def rowsAt {N : Nat} {φ : FTy} (off : Nat) (h : off + n ≤ N) (X : FVec Ideal (M2 N K) φ) : FVec Ideal (M2 n K) φ :=
  fun y => X (ix2 ⟨off + (y 0).val, by have := (y 0).isLt; have e : (y 0).val < n := this; omega⟩ (y 1))

/-- Two matrices of equal height side by side. -/
def hcat {a b c : Nat} (hc : a + b = c) (x : FVec Ideal (M2 n a) .f32) (y : FVec Ideal (M2 n b) .f32) : FVec Ideal (M2 n c) .f32 :=
  fun i => if h : (i 1).val < a then x (ix2 (i 0) ⟨(i 1).val, h⟩)
    else y (ix2 (i 0) ⟨(i 1).val - a, by have := (i 1).isLt; have e : (i 1).val < c := this; omega⟩)

/-! ## The two spellings of each layer -/

/-- The host's dot_general of an n×K by a K×M matrix is the plain product. -/
theorem dotGeneral_eq_mulP {φ₁ φ₂ : FTy} (d : DotDims (M2 n K) (M2 K M) (M2 n M)) (hd : d = DotDims.plain n K M)
    (prec : Option ContractPrecision) (x : FVec Ideal (M2 n K) φ₁) (w : FVec Ideal (M2 K M) φ₂) :
    Host.dotGeneral d prec x w = mulP x w := by
  subst hd
  funext i
  obtain ⟨a, b, rfl⟩ : ∃ (a : Fin n) (b : Fin M), i = ix2 a b := ⟨i 0, i 1, eq_ix2 i⟩
  exact StackMember.dotGeneral_plain_apply prec x w a b

/-- A matrix unit's product into a zero accumulator is the plain product. -/
theorem matmul_eq_mulP {φ₁ φ₂ : FTy} (d : DotDims (M2 n K) (M2 K M) (M2 n M)) (hd : d = DotDims.plain n K M)
    (prec : Option ContractPrecision) (x : FVec Ideal (M2 n K) φ₁) (w : FVec Ideal (M2 K M) φ₂) :
    matmul d prec x w (constant (M2 n M) .f32 0x00000000#32) = mulP x w := by
  rw [matmul_zero_eq_dotGeneral, dotGeneral_eq_mulP d hd]

/-- The host lays a bias along the rows in two steps: a one-row matrix, then that row on every row. -/
theorem hostBias_eq_rowB (b : FVec Ideal (V1 M) .f32) (h1 : (V1 M).BroadcastsInDim (M2 1 M) ![1])
    (h2 : (M2 1 M).BroadcastsInDim (M2 n M) ![0, 1]) :
    broadcastInDim (M2 n M) ![0, 1] h2 (broadcastInDim (M2 1 M) ![1] h1 b) = rowB n b := by
  funext i
  obtain ⟨r, t, rfl⟩ : ∃ (r : Fin n) (t : Fin M), i = ix2 r t := ⟨i 0, i 1, eq_ix2 i⟩
  rw [broadcastInDim_oneRow_apply]
  refine broadcastInDim_apply ![1] h1 b (ix2 (0 : Fin 1) t) (ix1 t) ?_
  intro a
  match a with
  | ⟨0, _⟩ =>
    show t.val = if M = 1 then 0 else t.val
    split
    · have := t.isLt; omega
    · rfl

/-- A kernel lays a bias along the rows by broadcasting its one-row cast. -/
theorem kernelBias_eq_rowB (b : FVec Ideal (V1 M) .f32) (h1 : (V1 M).ShapeCasts (M2 1 M))
    (hb : (M2 1 M).Broadcasts (M2 n M)) :
    broadcastTo (M2 n M) (shapeCast (M2 1 M) b h1) hb = rowB n b := by
  funext i
  have e1 := broadcastTo_apply (shapeCast (M2 1 M) b h1) hb i (ix2 (0 : Fin 1) (i 1 : Fin M)) (by
    intro a
    match a with
    | ⟨0, _⟩ => rfl
    | ⟨1, _⟩ =>
      show (i 1).val = if M = 1 then 0 else (i 1).val
      split
      · have := (i 1).isLt; have e : (i 1).val < M := this; omega
      · rfl)
  have e2 := shapeCast_apply b h1 (ix2 (0 : Fin 1) (i 1 : Fin M)) (ix1 (i 1 : Fin M)) (by
    rw [Shape.rowMajor_val_two, Shape.rowMajor_val_one]; show (i 1).val = 0 * M + (i 1).val; omega)
  exact e1.trans e2

/-- jnp's expansion of the logistic function on the host, times the value: swish. -/
theorem hostSwish_eq {s : Shape} (v : FVec Ideal s .f32) (h : S0.BroadcastsInDim s ![]) :
    mulf v (Host.divf (broadcastInDim s ![] h (constant (F := Ideal) S0 .f32 0x3F800000#32))
      (addf (broadcastInDim s ![] h (constant (F := Ideal) S0 .f32 0x3F800000#32)) (Host.exp (Host.negf v)))) = swish v := by
  funext i
  show v i * Ideal.div (broadcastInDim s ![] h (constant (F := Ideal) S0 .f32 0x3F800000#32) i)
    (broadcastInDim s ![] h (constant (F := Ideal) S0 .f32 0x3F800000#32) i + Ideal.exp (-(v i))) = v i * Ideal.logistic (v i)
  rw [broadcastInDim_scalar_apply h _ i]
  show v i * Ideal.div (Ideal.ofBits .f32 0x3F800000#32) (Ideal.ofBits .f32 0x3F800000#32 + Ideal.exp (-(v i))) = _
  rw [Ideal.ofBits_one_f32]
  rfl

/-- A kernel's logistic, times the value: swish. -/
theorem kernelSwish_eq {s : Shape} (v : FVec Ideal s .f32) : mulf v (logistic v) = swish v := rfl

/-- A change of float format is the identity at the ideal values. -/
theorem truncf_eq {s : Shape} {φ ψ : FTy} (x : FVec Ideal s φ) (h : ψ.bits < φ.bits) :
    (truncf ψ x h : s.Idx → EReal) = x := rfl

/-! ## Runs of rows -/

theorem mulP_rowsAt {N : Nat} {φ₁ φ₂ : FTy} (off : Nat) (h : off + n ≤ N) (X : FVec Ideal (M2 N K) φ₁) (w : FVec Ideal (M2 K M) φ₂) :
    mulP (rowsAt off h X) w = rowsAt off h (mulP X w) := rfl

theorem rowB_rowsAt {N : Nat} (off : Nat) (h : off + n ≤ N) (b : FVec Ideal (V1 M) .f32) :
    rowB n b = rowsAt off h (rowB N b) := rfl

theorem swish_rowsAt {N : Nat} (off : Nat) (h : off + n ≤ N) (X : FVec Ideal (M2 N K) .f32) :
    swish (rowsAt off h X) = rowsAt off h (swish X) := rfl

theorem addf_rowsAt {N : Nat} (off : Nat) (h : off + n ≤ N) (X Y : FVec Ideal (M2 N K) .f32) :
    addf (rowsAt off h X) (rowsAt off h Y) = rowsAt off h (addf X Y) := rfl

theorem mulf_rowsAt {N : Nat} (off : Nat) (h : off + n ≤ N) (X Y : FVec Ideal (M2 N K) .f32) :
    mulf (rowsAt off h X) (rowsAt off h Y) = rowsAt off h (mulf X Y) := rfl

theorem hcat_rowsAt {N a b c : Nat} (hc : a + b = c) (off : Nat) (h : off + n ≤ N) (X : FVec Ideal (M2 N a) .f32) (Y : FVec Ideal (M2 N b) .f32) :
    hcat hc (rowsAt off h X) (rowsAt off h Y) = rowsAt off h (hcat hc X Y) := rfl

end RowLayers

end
-- ==== Proof.Spec.lean ====
/-
  The network's stages as row-local functions of whole arrays at the ideal values, each generic in the number of rows:
  a dense layer x · wT + b over a weight already transposed, the node projection swish(x · wT + b), an edge feature's two
  bias-free projections, the edge message (each projected feature times the gathered node row, the two products side by
  side), and the final combine of a node's two projections and two aggregated messages through the remaining layers.
-/
import proofs.«405302_j4922032521429_3_alg».proof.Proof.LibRowLayers

noncomputable section

namespace Cert.Spec

open Idealize.ShloMosaic RowLayers

variable {n : Nat}

/-- x · wT + b, the bias laid along every row. -/
def dense {K M : Nat} (x : FVec Ideal (M2 n K) .f32) (wT : FVec Ideal (M2 K M) .f32) (b : FVec Ideal (V1 M) .f32) :
    FVec Ideal (M2 n M) .f32 := addf (mulP x wT) (rowB n b)

/-- swish(x · wT + b). -/
def xlin (x : FVec Ideal (M2 n 128) .f32) (wT : FVec Ideal (M2 128 128) .f32) (b : FVec Ideal (V1 128) .f32) :
    FVec Ideal (M2 n 128) .f32 := swish (dense x wT b)

/-- (feat · w1T) · w2T. -/
def edgeF {K : Nat} (feat : FVec Ideal (M2 n K) .f32) (w1T : FVec Ideal (M2 K 64) .f32) (w2T : FVec Ideal (M2 64 128) .f32) :
    FVec Ideal (M2 n 128) .f32 := mulP (mulP feat w1T) w2T

/-- The edge messages: each projected edge feature times the gathered node row, the two side by side. -/
def msg (f1 : FVec Ideal (M2 n 36) .f32) (f2 : FVec Ideal (M2 n 16) .f32) (xs : FVec Ideal (M2 n 128) .f32)
    (f1w1T : FVec Ideal (M2 36 64) .f32) (f1w2T : FVec Ideal (M2 64 128) .f32)
    (f2w1T : FVec Ideal (M2 16 64) .f32) (f2w2T : FVec Ideal (M2 64 128) .f32) : FVec Ideal (M2 n 256) .f32 :=
  hcat (a := 128) (b := 128) rfl (mulf (edgeF f1 f1w1T f1w2T) xs) (mulf (edgeF f2 f2w1T f2w2T) xs)

/-- One branch of the combine: swish((a · llT + llb + x1 · lrT) · linT + linb). -/
def branch (x1 a : FVec Ideal (M2 n 128) .f32) (llT : FVec Ideal (M2 128 128) .f32) (llb : FVec Ideal (V1 128) .f32)
    (lrT : FVec Ideal (M2 128 128) .f32) (linT : FVec Ideal (M2 128 128) .f32) (linb : FVec Ideal (V1 128) .f32) :
    FVec Ideal (M2 n 128) .f32 :=
  swish (dense (addf (dense a llT llb) (mulP x1 lrT)) linT linb)

/-- The final combine. -/
def fin (x1 x2 a1 a2 : FVec Ideal (M2 n 128) .f32)
    (c1llT : FVec Ideal (M2 128 128) .f32) (c1llb : FVec Ideal (V1 128) .f32) (c1lrT : FVec Ideal (M2 128 128) .f32)
    (c2llT : FVec Ideal (M2 128 128) .f32) (c2llb : FVec Ideal (V1 128) .f32) (c2lrT : FVec Ideal (M2 128 128) .f32)
    (lin1T : FVec Ideal (M2 128 128) .f32) (lin1b : FVec Ideal (V1 128) .f32)
    (lin2T : FVec Ideal (M2 128 128) .f32) (lin2b : FVec Ideal (V1 128) .f32)
    (cat0T : FVec Ideal (M2 256 128) .f32) (cat0b : FVec Ideal (V1 128) .f32)
    (cat1T : FVec Ideal (M2 128 128) .f32) (cat1b : FVec Ideal (V1 128) .f32)
    (l0T : FVec Ideal (M2 128 128) .f32) (l0b : FVec Ideal (V1 128) .f32)
    (finT : FVec Ideal (M2 128 128) .f32) (finb : FVec Ideal (V1 128) .f32) : FVec Ideal (M2 n 128) .f32 :=
  dense (swish (dense (addf (swish (dense (swish (dense
    (hcat (a := 128) (b := 128) rfl (branch x1 a1 c1llT c1llb c1lrT lin1T lin1b) (branch x1 a2 c2llT c2llb c2lrT lin2T lin2b))
    cat0T cat0b)) cat1T cat1b)) x2) l0T l0b)) finT finb

/-! Each stage of a run of rows is that run of rows of the stage. -/

theorem xlin_rowsAt {N : Nat} (off : Nat) (h : off + n ≤ N) (X : FVec Ideal (M2 N 128) .f32) (wT) (b) :
    xlin (rowsAt off h X) wT b = rowsAt off h (xlin X wT b) := rfl

theorem msg_rowsAt {N : Nat} (off : Nat) (h : off + n ≤ N) (f1 : FVec Ideal (M2 N 36) .f32) (f2 : FVec Ideal (M2 N 16) .f32)
    (xs : FVec Ideal (M2 N 128) .f32) (a b c d) :
    msg (rowsAt off h f1) (rowsAt off h f2) (rowsAt off h xs) a b c d = rowsAt off h (msg f1 f2 xs a b c d) := rfl

theorem fin_rowsAt {N : Nat} (off : Nat) (h : off + n ≤ N) (x1 x2 a1 a2 : FVec Ideal (M2 N 128) .f32)
    (p1 p2 p3 p4 p5 p6 p7 p8 p9 p10 p11 p12 p13 p14 p15 p16 p17 p18) :
    fin (rowsAt off h x1) (rowsAt off h x2) (rowsAt off h a1) (rowsAt off h a2) p1 p2 p3 p4 p5 p6 p7 p8 p9 p10 p11 p12 p13 p14 p15 p16 p17 p18
      = rowsAt off h (fin x1 x2 a1 a2 p1 p2 p3 p4 p5 p6 p7 p8 p9 p10 p11 p12 p13 p14 p15 p16 p17 p18) := rfl

end Cert.Spec

end
-- ==== Proof.Net.lean ====
/-
  The whole network as one function of the argument arrays at the ideal values, over literal shapes: the two node
  projections, the gather of the first along the edges' source nodes, the two edge messages, their sums over the edges
  that share a destination node, and the final combine. The edge index array's two rows are read as source and
  destination; the gather reads an index signed and clamped into the node range, the sum drops an edge whose destination
  is outside it (the host operations' own semantics, used here as they stand).
-/
import proofs.«405302_j4922032521429_3_alg».proof.Proof.Spec

noncomputable section

namespace Cert.Spec

open Idealize.ShloMosaic RowLayers

/-- Transpose of an a-by-b weight. -/
def tr {a b : Nat} (h : (M2 a b).Transposes [1, 0] (M2 b a)) (w : FVec Ideal (M2 a b) .f32) : FVec Ideal (M2 b a) .f32 :=
  transpose (M2 b a) [1, 0] w h

/-- Row r of the 2-by-E edge index array, as a vector. -/
def idxRow (r : Nat) (hs : (M2 2 800000).Slices ![r, 0] (M2 1 800000)) (hc : (M2 1 800000).ShapeCasts (V1 800000))
    (ei : IVec (M2 2 800000) 32) : IVec (V1 800000) 32 :=
  shapeCast (V1 800000) (extractStridedSlice (M2 1 800000) ![r, 0] ei hs) hc

/-- A vector of indices as the one-column matrix a gather or scatter reads. -/
def idxCol (hb : (V1 800000).BroadcastsInDim (M2 800000 1) ![0]) (v : IVec (V1 800000) 32) : IVec (M2 800000 1) 32 :=
  broadcastInDim (M2 800000 1) ![0] hb v

/-- Gather of whole rows of a 50000-row matrix along 800000 indices. -/
def gatherDims : GatherDims (M2 50000 128) (M2 800000 1) (M2 800000 128) where
  offsetDims := [1]
  collapsedSliceDims := [0]
  operandBatchingDims := []
  startIndicesBatchingDims := []
  startIndexMap := [0]
  indexVectorDim := 1
  sliceSizes := ![1, 128]
  wf := by decide

/-- Scatter of whole rows (C columns) of an 800000-row matrix onto 50000 rows. -/
def scatterDims (C : Nat) (wf : ScatterDims.WF (M2 50000 C) (M2 800000 1) (M2 800000 C) [1] [0] [0] 1) :
    ScatterDims (M2 50000 C) (M2 800000 1) (M2 800000 C) where
  updateWindowDims := [1]
  insertedWindowDims := [0]
  scatterDimsToOperandDims := [0]
  indexVectorDim := 1
  wf := wf

/-- The zero matrix a sum over edges starts from. -/
def zeros (C : Nat) (h : S0.BroadcastsInDim (M2 50000 C) ![]) : FVec Ideal (M2 50000 C) .f32 :=
  broadcastInDim (M2 50000 C) ![] h (constant (F := Ideal) S0 .f32 0x00000000#32)

/-- The layout facts the network's statement needs, over its literal shapes. -/
structure LayoutFacts : Prop where
  t128 : (M2 128 128).Transposes [1, 0] (M2 128 128)
  t64x36 : (M2 64 36).Transposes [1, 0] (M2 36 64)
  t128x64 : (M2 128 64).Transposes [1, 0] (M2 64 128)
  t64x16 : (M2 64 16).Transposes [1, 0] (M2 16 64)
  t128x256 : (M2 128 256).Transposes [1, 0] (M2 256 128)
  s0 : (M2 2 800000).Slices ![0, 0] (M2 1 800000)
  s1 : (M2 2 800000).Slices ![1, 0] (M2 1 800000)
  sc : (M2 1 800000).ShapeCasts (V1 800000)
  bc : (V1 800000).BroadcastsInDim (M2 800000 1) ![0]
  z128 : S0.BroadcastsInDim (M2 50000 128) ![]
  w128 : ScatterDims.WF (M2 50000 128) (M2 800000 1) (M2 800000 128) [1] [0] [0] 1

/-- The network. -/
def net (L : LayoutFacts)
    (x : FVec Ideal (M2 50000 128) .f32) (feature1 : FVec Ideal (M2 800000 36) .f32) (pos_emb : FVec Ideal (M2 800000 16) .f32)
    (edge_index : IVec (M2 2 800000) 32)
    (lin_1_w : FVec Ideal (M2 128 128) .f32) (lin_1_b : FVec Ideal (V1 128) .f32)
    (lin_2_w : FVec Ideal (M2 128 128) .f32) (lin_2_b : FVec Ideal (V1 128) .f32)
    (f1_w1 : FVec Ideal (M2 64 36) .f32) (f1_w2 : FVec Ideal (M2 128 64) .f32)
    (f2_w1 : FVec Ideal (M2 64 16) .f32) (f2_w2 : FVec Ideal (M2 128 64) .f32)
    (c1_ll_w : FVec Ideal (M2 128 128) .f32) (c1_ll_b : FVec Ideal (V1 128) .f32) (c1_lr_w : FVec Ideal (M2 128 128) .f32)
    (c2_ll_w : FVec Ideal (M2 128 128) .f32) (c2_ll_b : FVec Ideal (V1 128) .f32) (c2_lr_w : FVec Ideal (M2 128 128) .f32)
    (lin1_w : FVec Ideal (M2 128 128) .f32) (lin1_b : FVec Ideal (V1 128) .f32)
    (lin2_w : FVec Ideal (M2 128 128) .f32) (lin2_b : FVec Ideal (V1 128) .f32)
    (cat0_w : FVec Ideal (M2 128 256) .f32) (cat0_b : FVec Ideal (V1 128) .f32)
    (cat1_w : FVec Ideal (M2 128 128) .f32) (cat1_b : FVec Ideal (V1 128) .f32)
    (l0_w : FVec Ideal (M2 128 128) .f32) (l0_b : FVec Ideal (V1 128) .f32)
    (final_w : FVec Ideal (M2 128 128) .f32) (final_b : FVec Ideal (V1 128) .f32) : FVec Ideal (M2 50000 128) .f32 :=
  let xl1 := xlin x (tr L.t128 lin_1_w) lin_1_b
  let xl2 := xlin x (tr L.t128 lin_2_w) lin_2_b
  let xs := Host.gather gatherDims xl1 (idxCol L.bc (idxRow 0 L.s0 L.sc edge_index))
  let dst := idxCol L.bc (idxRow 1 L.s1 L.sc edge_index)
  let agg1 := Host.scatterAdd (scatterDims 128 L.w128) (zeros 128 L.z128) dst
    (mulf (edgeF feature1 (tr L.t64x36 f1_w1) (tr L.t128x64 f1_w2)) xs)
  let agg2 := Host.scatterAdd (scatterDims 128 L.w128) (zeros 128 L.z128) dst
    (mulf (edgeF pos_emb (tr L.t64x16 f2_w1) (tr L.t128x64 f2_w2)) xs)
  fin xl1 xl2 agg1 agg2 (tr L.t128 c1_ll_w) c1_ll_b (tr L.t128 c1_lr_w) (tr L.t128 c2_ll_w) c2_ll_b (tr L.t128 c2_lr_w)
    (tr L.t128 lin1_w) lin1_b (tr L.t128 lin2_w) lin2_b (tr L.t128x256 cat0_w) cat0_b (tr L.t128 cat1_w) cat1_b
    (tr L.t128 l0_w) l0_b (tr L.t128 final_w) final_b

/-- The layout facts hold: each is decided on the literal shapes. -/
theorem layout : LayoutFacts :=
  ⟨by decide, by decide, by decide, by decide, by decide, by decide, by decide, by decide, by decide, by decide, by decide⟩

end Cert.Spec

end
-- ==== Proof.LibConcatCols.lean ====
/-
  Two matrices of equal height laid side by side. Concatenating an n-by-a and an n-by-b matrix along the column axis
  gives the n-by-(a + b) matrix whose entry (r, q) is the first matrix's entry (r, q) when q < a and the second
  matrix's entry (r, q - a) otherwise.
-/
import Idealize.ShloMosaic.Lib.ValueIdx
import Idealize.ShloMosaic.Lib.Pipeline.Value
import proofs.«405302_j4922032521429_3_alg».proof.Proof.LibRowLayers

noncomputable section

namespace RowLayers

open Idealize.ShloMosaic Idealize.ShloMosaic.ValueIdx

/-- The concatenation of two matrices of equal height along the column axis is the two side by side: entry (r, q)
    falls in the first piece when q is below its width a, and in the second piece at column q - a otherwise. -/
theorem concat_eq_hcat {n a b c : Nat} (hc : a + b = c) (x : FVec Ideal (M2 n a) .f32) (y : FVec Ideal (M2 n b) .f32)
    (h : Shape.Concatenates [M2 n a, M2 n b] (M2 n c) 1) :
    concatenate (M2 n c) 1 [⟨M2 n a, x⟩, ⟨M2 n b, y⟩] h = hcat hc x y := by
  funext j
  obtain ⟨r, q, rfl⟩ : ∃ (r : Fin n) (q : Fin c), j = ix2 r q := ⟨j 0, j 1, eq_ix2 j⟩
  have hqc : q.val < c := q.isLt
  by_cases hq : q.val < a
  · rw [concatenate_pair_apply_left 1 x y h (ix2 r q) rfl (ix2 r (⟨q.val, hq⟩ : Fin a)) (by
      intro d
      match d with
      | ⟨0, _⟩ => rfl
      | ⟨1, _⟩ => rfl)]
    unfold hcat
    rw [dif_pos (show ((ix2 r q) 1).val < a from hq)]
    rfl
  · have hqa : q.val - a < b := by omega
    rw [concatenate_pair_apply_right 1 x y h (ix2 r q) rfl rfl (ix2 r (⟨q.val - a, hqa⟩ : Fin b)) (by
      intro d hd
      match d with
      | ⟨0, _⟩ => rfl
      | ⟨1, _⟩ => exact absurd rfl hd) (by
      show q.val - a + a = q.val
      omega)]
    unfold hcat
    rw [dif_neg (show ¬ ((ix2 r q) 1).val < a from hq)]
    rfl

end RowLayers

end
-- ==== Proof.RefValue.lean ====
/-
  The reference's run, read: its result array is the network of its argument arrays. Each dense layer of the reference
  is a dot_general with a transposed weight plus a bias laid along the rows, each activation jnp's expansion of the
  logistic function times the value, the two branches of the combine are concatenated along the column axis; where every
  edge index is a node number, the reference's wrap of negative source indices leaves them as they are. The reference's
  named intermediate terms are read one after another, each as a stage function of the terms before it, and the last
  is the network.
-/
import proofs.«405302_j4922032521429_3_alg».proof.Proof.Gen.ReferenceIdeal.Run
import proofs.«405302_j4922032521429_3_alg».proof.Proof.Net
import proofs.«405302_j4922032521429_3_alg».proof.Proof.LibConcatCols

noncomputable section

open Idealize.ShloMosaic Idealize.ShloMosaic.TcCoe Idealize.SL.Sem Idealize.ShloMosaic.ValueIdx
open Idealize.ShloMosaic.StableHlo (launchContents)

namespace Cert.ReferenceIdeal.RefValue

open Cert.ReferenceIdeal Cert.ReferenceIdeal.Gen Cert.ReferenceIdeal.Value RowLayers

/-! General facts: a wrap of indices already in range, and a row of a two-row array read at an index. -/

/-- Where every index is in [0, N), the wrap of negative indices by N leaves the vector as it is: the signed
    comparison with zero is false at every entry, so the selection keeps the entry. -/
theorem wrap_eq_self {s : Shape} (N : Nat) (v : IVec s 32) (h : S0.BroadcastsInDim s ![])
    (hv : ∀ i, 0 ≤ (v i).toInt ∧ (v i).toInt < N) :
    select (cmpi .slt v (broadcastInDim s ![] h (constantI S0 32 0#32)))
      (addi v (broadcastInDim s ![] h (constantI S0 32 (BitVec.ofNat 32 N)))) v = v := by
  funext i
  show Scalar.select (IntOp.cmpi .slt (v i) (broadcastInDim s ![] h (constantI S0 32 0#32) i)) _ _ = v i
  rw [broadcastInDim_scalar_apply h _ i]
  show Scalar.select (BitVec.ofBool ((v i).slt 0#32)) _ _ = v i
  have h0 : (v i).slt 0#32 = false := by
    have := (hv i).1
    simp only [BitVec.slt, BitVec.toInt_zero, decide_eq_false_iff_not, not_lt]
    exact this
  rw [h0]
  exact select_zero _ _

/-- Row r of a two-row array, cut out and cast to a vector, reads the array's row r. -/
theorem rowVec_apply {E : Nat} {w : Nat} (r : Nat) (hr : r < 2) (ei : IVec (M2 2 E) w) (hs : (M2 2 E).Slices ![r, 0] (M2 1 E))
    (hc : (M2 1 E).ShapeCasts (V1 E)) (i : (V1 E).Idx) :
    shapeCast (V1 E) (extractStridedSlice (M2 1 E) ![r, 0] ei hs) hc i = ei (ix2 ⟨r, hr⟩ (i 0)) := by
  have e1 := shapeCast_apply (extractStridedSlice (M2 1 E) ![r, 0] ei hs) hc i (ix2 (0 : Fin 1) (i 0 : Fin E)) (by
    rw [Shape.rowMajor_val_two, Shape.rowMajor_val_one]
    show 0 * E + (i 0).val = (i 0).val
    omega)
  have e2 := extractStridedSlice_apply ![r, 0] ei hs (ix2 (0 : Fin 1) (i 0 : Fin E)) (ix2 ⟨r, hr⟩ (i 0)) (by
    intro a
    match a with
    | ⟨0, _⟩ => rfl
    | ⟨1, _⟩ =>
      show (i 0).val = 0 + (i 0).val
      omega)
  exact e1.trans e2

/-! The reference's five products, each a plain product. -/

theorem dotN128 (x : FVec Ideal (M2 50000 128) .f32) (w : FVec Ideal (M2 128 128) .f32) :
    Host.dotGeneral dot_S50000x128_S128x128_S50000x128_1_0_0_1_n_n none x w = mulP x w :=
  dotGeneral_eq_mulP _ rfl none x w

theorem dotN256 (x : FVec Ideal (M2 50000 256) .f32) (w : FVec Ideal (M2 256 128) .f32) :
    Host.dotGeneral dot_S50000x256_S256x128_S50000x128_1_0_0_1_n_n none x w = mulP x w :=
  dotGeneral_eq_mulP _ rfl none x w

theorem dotE36 (x : FVec Ideal (M2 800000 36) .f32) (w : FVec Ideal (M2 36 64) .f32) :
    Host.dotGeneral dot_S800000x36_S36x64_S800000x64_1_0_0_1_n_n none x w = mulP x w :=
  dotGeneral_eq_mulP _ rfl none x w

theorem dotE16 (x : FVec Ideal (M2 800000 16) .f32) (w : FVec Ideal (M2 16 64) .f32) :
    Host.dotGeneral dot_S800000x16_S16x64_S800000x64_1_0_0_1_n_n none x w = mulP x w :=
  dotGeneral_eq_mulP _ rfl none x w

theorem dotE64 (x : FVec Ideal (M2 800000 64) .f32) (w : FVec Ideal (M2 64 128) .f32) :
    Host.dotGeneral dot_S800000x64_S64x128_S800000x128_1_0_0_1_n_n none x w = mulP x w :=
  dotGeneral_eq_mulP _ rfl none x w

/-! The host's spellings of an activation and of a dense layer over the reference's literal shapes, each equal to the
    stage function it spells. -/

/-- jnp's expansion of swish on a 50000-by-128 array. -/
def hswish (v : FVec Ideal (M2 50000 128) .f32) : FVec Ideal (M2 50000 128) .f32 :=
  mulf v (Host.divf (broadcastInDim S50000x128 ![] bcast_S_S50000x128 (constant (F := Ideal) S_ .f32 0x3F800000#32))
    (addf (broadcastInDim S50000x128 ![] bcast_S_S50000x128 (constant (F := Ideal) S_ .f32 0x3F800000#32)) (Host.exp (Host.negf v))))

theorem hswish_eq (v : FVec Ideal (M2 50000 128) .f32) : hswish v = swish v := hostSwish_eq v _

/-- The bias of a 128-wide layer, laid along 50000 rows the host's way. -/
def hbias (b : FVec Ideal (V1 128) .f32) : FVec Ideal (M2 50000 128) .f32 :=
  broadcastInDim S50000x128 ![0, 1] bcast_S1x128_S50000x128_0_1 (broadcastInDim S1x128 ![1] bcast_S128_S1x128_1 b)

theorem hbias_eq (b : FVec Ideal (V1 128) .f32) : hbias b = rowB 50000 b := hostBias_eq_rowB b _ _

/-- A 128-to-128 dense layer the host's way: the product with the transposed weight, plus the bias. -/
def hdense (x : FVec Ideal (M2 50000 128) .f32) (w : FVec Ideal (M2 128 128) .f32) (b : FVec Ideal (V1 128) .f32) :
    FVec Ideal (M2 50000 128) .f32 :=
  addf (Host.dotGeneral (φ₂ := .f32) dot_S50000x128_S128x128_S50000x128_1_0_0_1_n_n none x
    (transpose S128x128 [1, 0] w transposes_S128x128_S128x128_1_0)) (hbias b)

theorem hdense_eq (x : FVec Ideal (M2 50000 128) .f32) (w : FVec Ideal (M2 128 128) .f32) (b : FVec Ideal (V1 128) .f32) :
    hdense x w b = Cert.Spec.dense x (Cert.Spec.tr Cert.Spec.layout.t128 w) b := by
  unfold hdense
  rw [dotN128, hbias_eq]
  rfl

/-- The 256-to-128 dense layer the host's way. -/
def hdense256 (x : FVec Ideal (M2 50000 256) .f32) (w : FVec Ideal (M2 128 256) .f32) (b : FVec Ideal (V1 128) .f32) :
    FVec Ideal (M2 50000 128) .f32 :=
  addf (Host.dotGeneral (φ₂ := .f32) dot_S50000x256_S256x128_S50000x128_1_0_0_1_n_n none x
    (transpose S256x128 [1, 0] w transposes_S128x256_S256x128_1_0)) (hbias b)

theorem hdense256_eq (x : FVec Ideal (M2 50000 256) .f32) (w : FVec Ideal (M2 128 256) .f32) (b : FVec Ideal (V1 128) .f32) :
    hdense256 x w b = Cert.Spec.dense x (Cert.Spec.tr Cert.Spec.layout.t128x256 w) b := by
  unfold hdense256
  rw [dotN256, hbias_eq]
  rfl

/-! The reference's named terms, stage by stage, as the network's stage functions of the argument arrays. -/

section Stages

variable (V : Valuation τ sig (Elt Ideal))

/-- The first node projection before its activation. -/
theorem v8_eq : res_main_v8 V = Cert.Spec.dense (n := 50000) (V (Proc.devRef .tc main_arg0)) (Cert.Spec.tr Cert.Spec.layout.t128 (V (Proc.devRef .tc main_arg5))) (V (Proc.devRef .tc main_arg6)) := by
  unfold res_main_v8
  rw [dotN128, hostBias_eq_rowB]
  rfl

/-- The first node projection. -/
def xl1 : FVec Ideal (M2 50000 128) .f32 := Cert.Spec.xlin (n := 50000) (V (Proc.devRef .tc main_arg0)) (Cert.Spec.tr Cert.Spec.layout.t128 (V (Proc.devRef .tc main_arg5))) (V (Proc.devRef .tc main_arg6))

theorem v15_eq : res_main_v15 V = xl1 V := by
  unfold res_main_v15
  rw [v8_eq]
  exact hostSwish_eq _ _

/-- The second node projection before its activation. -/
def d20 : FVec Ideal (M2 50000 128) .f32 := Cert.Spec.dense (n := 50000) (V (Proc.devRef .tc main_arg0)) (Cert.Spec.tr Cert.Spec.layout.t128 (V (Proc.devRef .tc main_arg7))) (V (Proc.devRef .tc main_arg8))

theorem v20_eq : res_main_v20 V = d20 V := by
  unfold res_main_v20
  rw [dotN128, hostBias_eq_rowB]
  rfl

/-- The first node projection's rows gathered along the edges' source nodes. -/
def xs : FVec Ideal (M2 800000 128) .f32 := Host.gather Cert.Spec.gatherDims (xl1 V)
  (Cert.Spec.idxCol Cert.Spec.layout.bc (Cert.Spec.idxRow 0 Cert.Spec.layout.s0 Cert.Spec.layout.sc (V (Proc.devRef .tc main_arg3))))

/-- The sum over the edges sharing a destination node of an edge message. -/
def agg (msg : FVec Ideal (M2 800000 128) .f32) : FVec Ideal (M2 50000 128) .f32 :=
  Host.scatterAdd (Cert.Spec.scatterDims 128 Cert.Spec.layout.w128) (Cert.Spec.zeros 128 Cert.Spec.layout.z128)
    (Cert.Spec.idxCol Cert.Spec.layout.bc (Cert.Spec.idxRow 1 Cert.Spec.layout.s1 Cert.Spec.layout.sc (V (Proc.devRef .tc main_arg3)))) msg

/-- The first branch of the combine before its activation. -/
def d59 : FVec Ideal (M2 50000 128) .f32 := Cert.Spec.dense (n := 50000)
  (addf (Cert.Spec.dense (agg V (mulf (Cert.Spec.edgeF (V (Proc.devRef .tc main_arg1)) (Cert.Spec.tr Cert.Spec.layout.t64x36 (V (Proc.devRef .tc main_arg9))) (Cert.Spec.tr Cert.Spec.layout.t128x64 (V (Proc.devRef .tc main_arg10)))) (xs V))) (Cert.Spec.tr Cert.Spec.layout.t128 (V (Proc.devRef .tc main_arg13))) (V (Proc.devRef .tc main_arg14)))
    (mulP (xl1 V) (Cert.Spec.tr Cert.Spec.layout.t128 (V (Proc.devRef .tc main_arg15)))))
  (Cert.Spec.tr Cert.Spec.layout.t128 (V (Proc.devRef .tc main_arg19))) (V (Proc.devRef .tc main_arg20))

/-- The second branch of the combine before its activation. -/
def d90 : FVec Ideal (M2 50000 128) .f32 := Cert.Spec.dense (n := 50000)
  (addf (Cert.Spec.dense (agg V (mulf (Cert.Spec.edgeF (V (Proc.devRef .tc main_arg2)) (Cert.Spec.tr Cert.Spec.layout.t64x16 (V (Proc.devRef .tc main_arg11))) (Cert.Spec.tr Cert.Spec.layout.t128x64 (V (Proc.devRef .tc main_arg12)))) (xs V))) (Cert.Spec.tr Cert.Spec.layout.t128 (V (Proc.devRef .tc main_arg16))) (V (Proc.devRef .tc main_arg17)))
    (mulP (xl1 V) (Cert.Spec.tr Cert.Spec.layout.t128 (V (Proc.devRef .tc main_arg18)))))
  (Cert.Spec.tr Cert.Spec.layout.t128 (V (Proc.devRef .tc main_arg21))) (V (Proc.devRef .tc main_arg22))

/-- The layer over the two branches side by side, before its activation. -/
def d103 : FVec Ideal (M2 50000 128) .f32 := Cert.Spec.dense (n := 50000)
  (hcat (a := 128) (b := 128) rfl (swish (d59 V)) (swish (d90 V))) (Cert.Spec.tr Cert.Spec.layout.t128x256 (V (Proc.devRef .tc main_arg23))) (V (Proc.devRef .tc main_arg24))

/-- The next layer before its activation. -/
def d115 : FVec Ideal (M2 50000 128) .f32 := Cert.Spec.dense (n := 50000) (swish (d103 V)) (Cert.Spec.tr Cert.Spec.layout.t128 (V (Proc.devRef .tc main_arg25))) (V (Proc.devRef .tc main_arg26))

/-- The layer over the sum with the second node projection, before its activation. -/
def d128 : FVec Ideal (M2 50000 128) .f32 := Cert.Spec.dense (n := 50000) (addf (swish (d115 V)) (swish (d20 V))) (Cert.Spec.tr Cert.Spec.layout.t128 (V (Proc.devRef .tc main_arg27))) (V (Proc.devRef .tc main_arg28))

/-- Where every edge index is a node number, the wrapped source row is the source row. -/
theorem wrap_v1 (hv : ∀ i : (M2 2 800000).Idx, 0 ≤ (((V (Proc.devRef .tc main_arg3)) : IVec (M2 2 800000) 32) i).toInt
      ∧ (((V (Proc.devRef .tc main_arg3)) : IVec (M2 2 800000) 32) i).toInt < 50000) :
    select (cmpi .slt (res_main_v1 (F := Ideal) V) (broadcastInDim S800000 ![] bcast_S_S800000 (constantI S_ 32 0#32)))
      (addi (res_main_v1 (F := Ideal) V) (broadcastInDim S800000 ![] bcast_S_S800000 (constantI S_ 32 50000#32)))
      (res_main_v1 (F := Ideal) V) = res_main_v1 (F := Ideal) V :=
  wrap_eq_self 50000 (res_main_v1 (F := Ideal) V) bcast_S_S800000 fun i => by
    have e : res_main_v1 (F := Ideal) V i = ((V (Proc.devRef .tc main_arg3)) : IVec (M2 2 800000) 32) (ix2 ⟨0, by omega⟩ (i 0)) :=
      rowVec_apply 0 (by omega) _ slices_S2x800000_S1x800000_0_0 shapeCasts_S1x800000_S800000 i
    rw [e]
    exact hv _

variable (hv : ∀ i : (M2 2 800000).Idx, 0 ≤ (((V (Proc.devRef .tc main_arg3)) : IVec (M2 2 800000) 32) i).toInt
      ∧ (((V (Proc.devRef .tc main_arg3)) : IVec (M2 2 800000) 32) i).toInt < 50000)

include hv in
theorem v59_eq : res_main_v59 V = d59 V := by
  unfold res_main_v59
  erw [wrap_v1 V hv]
  rw [v15_eq, dotE36, dotE64, dotN128, dotN128, dotN128, hostBias_eq_rowB, hostBias_eq_rowB]
  rfl

include hv in
theorem v90_eq : res_main_v90 V = d90 V := by
  unfold res_main_v90
  erw [wrap_v1 V hv]
  rw [v15_eq, dotE16, dotE64, dotN128, dotN128, dotN128, hostBias_eq_rowB, hostBias_eq_rowB]
  rfl

include hv in
theorem v103_eq : res_main_v103 V = d103 V := by
  show hdense256 (concatenate S50000x256 1 [⟨S50000x128, hswish (res_main_v59 V)⟩, ⟨S50000x128, hswish (res_main_v90 V)⟩]
    concatenates_S50000x128_S50000x128_S50000x256_d1) (V (Proc.devRef .tc main_arg23)) (V (Proc.devRef .tc main_arg24)) = d103 V
  rw [v59_eq V hv, v90_eq V hv, hswish_eq, hswish_eq, concat_eq_hcat (a := 128) (b := 128) (c := 256) rfl, hdense256_eq]
  rfl

include hv in
theorem v115_eq : res_main_v115 V = d115 V := by
  show hdense (hswish (res_main_v103 V)) (V (Proc.devRef .tc main_arg25)) (V (Proc.devRef .tc main_arg26)) = d115 V
  rw [v103_eq V hv, hswish_eq, hdense_eq]
  rfl

include hv in
theorem v128_eq : res_main_v128 V = d128 V := by
  show hdense (addf (hswish (res_main_v115 V)) (hswish (res_main_v20 V))) (V (Proc.devRef .tc main_arg27)) (V (Proc.devRef .tc main_arg28)) = d128 V
  rw [v115_eq V hv, v20_eq, hswish_eq, hswish_eq, hdense_eq]
  rfl

/-- The network, folded into its stages. -/
theorem net_eq : Cert.Spec.net Cert.Spec.layout (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29)) (V (Proc.devRef .tc main_arg30))
    = Cert.Spec.dense (n := 50000) (swish (d128 V)) (Cert.Spec.tr Cert.Spec.layout.t128 (V (Proc.devRef .tc main_arg29))) (V (Proc.devRef .tc main_arg30)) := rfl

/-- The reference's result term over any contents of the buffers whose edge indices are node numbers. -/
theorem result_of (V : Valuation τ sig (Elt Ideal)) (hv : ∀ i : (M2 2 800000).Idx, 0 ≤ (((V (Proc.devRef .tc main_arg3)) : IVec (M2 2 800000) 32) i).toInt
      ∧ (((V (Proc.devRef .tc main_arg3)) : IVec (M2 2 800000) 32) i).toInt < 50000) :
    addf (Host.dotGeneral (φ₂ := .f32) dot_S50000x128_S128x128_S50000x128_1_0_0_1_n_n none (mulf (res_main_v128 V) (Host.divf (broadcastInDim S50000x128 ![] bcast_S_S50000x128 (constant S_ .f32 0x3F800000#32)) (addf (broadcastInDim S50000x128 ![] bcast_S_S50000x128 (constant S_ .f32 0x3F800000#32)) (Host.exp (Host.negf (res_main_v128 V)))))) (transpose S128x128 [1, 0] (V (Proc.devRef .tc main_arg29)) transposes_S128x128_S128x128_1_0)) (broadcastInDim S50000x128 ![0, 1] bcast_S1x128_S50000x128_0_1 (broadcastInDim S1x128 ![1] bcast_S128_S1x128_1 (V (Proc.devRef .tc main_arg30))))
      = Cert.Spec.net Cert.Spec.layout (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29)) (V (Proc.devRef .tc main_arg30)) := by
  rw [net_eq]
  show hdense (hswish (res_main_v128 V)) (V (Proc.devRef .tc main_arg29)) (V (Proc.devRef .tc main_arg30)) = _
  rw [v128_eq V hv, hswish_eq, hdense_eq]

end Stages

/-- The result term of the reference's run is the network of the launch contents of its arguments, where every edge
    index is a node number. -/
theorem result_eq (m : (ℓ : Loc nD τ sig) → Buf (Elt Ideal) ℓ) (hidx : ∀ (c : Dev Cert.ReferenceIdeal.nD) (i : (RowLayers.M2 2 800000).Idx), 0 ≤ ((m ((c.tc : Thread Cert.ReferenceIdeal.nD Cert.ReferenceIdeal.τ).loc Cert.ReferenceIdeal.main_arg3) : IVec (RowLayers.M2 2 800000) 32) i).toInt ∧ ((m ((c.tc : Thread Cert.ReferenceIdeal.nD Cert.ReferenceIdeal.τ).loc Cert.ReferenceIdeal.main_arg3) : IVec (RowLayers.M2 2 800000) 32) i).toInt < 50000) (c : Dev nD) :
    addf (Host.dotGeneral (φ₂ := .f32) dot_S50000x128_S128x128_S50000x128_1_0_0_1_n_n none (mulf (res_main_v128 (launchContents m c)) (Host.divf (broadcastInDim S50000x128 ![] bcast_S_S50000x128 (constant S_ .f32 0x3F800000#32)) (addf (broadcastInDim S50000x128 ![] bcast_S_S50000x128 (constant S_ .f32 0x3F800000#32)) (Host.exp (Host.negf (res_main_v128 (launchContents m c))))))) (transpose S128x128 [1, 0] ((launchContents m c) (Proc.devRef .tc main_arg29)) transposes_S128x128_S128x128_1_0)) (broadcastInDim S50000x128 ![0, 1] bcast_S1x128_S50000x128_0_1 (broadcastInDim S1x128 ![1] bcast_S128_S1x128_1 ((launchContents m c) (Proc.devRef .tc main_arg30))))
      = Cert.Spec.net Cert.Spec.layout (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) :=
  result_of (launchContents m c) (hidx c)

/-- The reference's run with its result array named as the network of the arguments. -/
theorem run_net (m : (ℓ : Loc nD τ sig) → Buf (Elt Ideal) ℓ) (ρ : Dev nD → PrngReg) (hidx : ∀ (c : Dev Cert.ReferenceIdeal.nD) (i : (RowLayers.M2 2 800000).Idx), 0 ≤ ((m ((c.tc : Thread Cert.ReferenceIdeal.nD Cert.ReferenceIdeal.τ).loc Cert.ReferenceIdeal.main_arg3) : IVec (RowLayers.M2 2 800000) 32) i).toInt ∧ ((m ((c.tc : Thread Cert.ReferenceIdeal.nD Cert.ReferenceIdeal.τ).loc Cert.ReferenceIdeal.main_arg3) : IVec (RowLayers.M2 2 800000) 32) i).toInt < 50000) :
    θ_run defs (onTc (τ := τ) (main (F := Ideal))) ⟨m, fun _ => 0, ρ⟩ fun r => ∀ c : Dev nD,
      r.2.mem ((c.tc : Thread nD τ).loc main_v140) = Cert.Spec.net Cert.Spec.layout (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30) :=
  (θ_run defs _ _).mono (fun _ h c => ⟨(h c).1.trans (result_eq m hidx c), (h c).2⟩) (Cert.ReferenceIdeal.Value.run (F := Ideal) m ρ)

end Cert.ReferenceIdeal.RefValue

end
-- ==== Proof.K0.lean ====
/-
  The first kernel (25 grid points, 2000 node rows each): what its two output arrays hold after the run, as functions of
  the arrays the region finds. Each point's output block is swish(x · wT + b) of the point's 2000 input rows, the
  weights and biases whole at every point; the blocks tile the 50000 rows, so each output array is that layer of the
  whole input array.
-/
import proofs.«405302_j4922032521429_3_alg».proof.Proof.Gen.KernelIdeal.Frame
import proofs.«405302_j4922032521429_3_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen RowLayers Cert.Spec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-blocked windows sit at block row t, everything else at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 25 := Nat.lt_of_lt_of_eq t.isLt N_0

/-- Window 0's block at point t is rows 2000 t … 2000 t + 1999 of the input array. -/
theorem blk0 (c : Dev nD) (t : Fin cfg0.N) :
    (iblk0 V c 0 t : FVec Ideal (M2 2000 128) .f32)
      = rowsAt (φ := .f32) (2000 * t.val) (by have := t_lt t; omega) (V c main_arg0 : FVec Ideal (M2 50000 128) .f32) := by
  obtain ⟨e0, e1, -⟩ := idx_facts t
  funext y
  unfold iblk0 rowsAt
  rw [View.read_apply]
  refine congrArg (V c main_arg0) (funext fun a => Fin.ext ?_)
  match a with
  | ⟨0, _⟩ => show win0_0.index t (0 : Fin 2) * 2000 + 1 * (y 0).val = 2000 * t.val + (y 0).val; rw [e0]; omega
  | ⟨1, _⟩ => show win0_0.index t (1 : Fin 2) * 128 + 1 * (y 1).val = (y 1).val; rw [e1]; omega

/-- The first weight's block at every point is the whole transposed weight. -/
theorem whole1 (c : Dev nD) (t : Fin cfg0.N) : (iblk0 V c 1 t : FVec Ideal (M2 128 128) .f32) = V c main_v0 := by
  obtain ⟨-, -, e2, e3, -⟩ := idx_facts t
  funext y
  unfold iblk0
  rw [View.read_apply]
  refine congrArg (V c main_v0) (funext fun a => Fin.ext ?_)
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- The first bias's block at every point is the whole bias. -/
theorem whole2 (c : Dev nD) (t : Fin cfg0.N) : (iblk0 V c 2 t : FVec Ideal (V1 128) .f32) = V c main_arg6 := by
  obtain ⟨-, -, -, -, e4, -⟩ := idx_facts t
  funext y
  unfold iblk0
  rw [View.read_apply]
  refine congrArg (V c main_arg6) (funext fun a => Fin.ext ?_)
  match a with
  | ⟨0, _⟩ => show win0_2.index t (0 : Fin 1) * 128 + 1 * (y 0).val = (y 0).val; rw [e4]; omega

/-- The second weight's block at every point is the whole transposed weight. -/
theorem whole3 (c : Dev nD) (t : Fin cfg0.N) : (iblk0 V c 3 t : FVec Ideal (M2 128 128) .f32) = V c main_v1 := by
  obtain ⟨-, -, -, -, -, e5, e6, -⟩ := idx_facts t
  funext y
  unfold iblk0
  rw [View.read_apply]
  refine congrArg (V c main_v1) (funext fun a => Fin.ext ?_)
  match a with
  | ⟨0, _⟩ => show win0_3.index t (0 : Fin 2) * 128 + 1 * (y 0).val = (y 0).val; rw [e5]; omega
  | ⟨1, _⟩ => show win0_3.index t (1 : Fin 2) * 128 + 1 * (y 1).val = (y 1).val; rw [e6]; omega

/-- The second bias's block at every point is the whole bias. -/
theorem whole4 (c : Dev nD) (t : Fin cfg0.N) : (iblk0 V c 4 t : FVec Ideal (V1 128) .f32) = V c main_arg8 := by
  obtain ⟨-, -, -, -, -, -, -, e7, -⟩ := idx_facts t
  funext y
  unfold iblk0
  rw [View.read_apply]
  refine congrArg (V c main_arg8) (funext fun a => Fin.ext ?_)
  match a with
  | ⟨0, _⟩ => show win0_4.index t (0 : Fin 1) * 128 + 1 * (y 0).val = (y 0).val; rw [e7]; omega

/-- Output window 5's block of any array is rows 2000 t … of it. -/
theorem oblk5 (t : Fin cfg0.N) (G : FVec Ideal (M2 50000 128) .f32) :
    ((cfg0.win 5).blk t).view.read (Elt Ideal) G = rowsAt (φ := .f32) (2000 * t.val) (by have := t_lt t; omega) G := by
  obtain ⟨-, -, -, -, -, -, -, -, e8, e9, -⟩ := idx_facts t
  funext y
  unfold rowsAt
  rw [View.read_apply]
  refine congrArg G (funext fun a => Fin.ext ?_)
  match a with
  | ⟨0, _⟩ => show win0_5.index t (0 : Fin 2) * 2000 + 1 * (y 0).val = 2000 * t.val + (y 0).val; rw [e8]; omega
  | ⟨1, _⟩ => show win0_5.index t (1 : Fin 2) * 128 + 1 * (y 1).val = (y 1).val; rw [e9]; omega

/-- Output window 6's block of any array is rows 2000 t … of it. -/
theorem oblk6 (t : Fin cfg0.N) (G : FVec Ideal (M2 50000 128) .f32) :
    ((cfg0.win 6).blk t).view.read (Elt Ideal) G = rowsAt (φ := .f32) (2000 * t.val) (by have := t_lt t; omega) G := by
  obtain ⟨-, -, -, -, -, -, -, -, -, -, e10, e11⟩ := idx_facts t
  funext y
  unfold rowsAt
  rw [View.read_apply]
  refine congrArg G (funext fun a => Fin.ext ?_)
  match a with
  | ⟨0, _⟩ => show win0_6.index t (0 : Fin 2) * 2000 + 1 * (y 0).val = 2000 * t.val + (y 0).val; rw [e10]; omega
  | ⟨1, _⟩ => show win0_6.index t (1 : Fin 2) * 128 + 1 * (y 1).val = (y 1).val; rw [e11]; omega

/-- The body's first payload is the projection layer of its loaded blocks: the matrix product into a zero accumulator
    is the plain product, the bias is laid along the rows, the logistic times the value is swish. -/
theorem pay2_eq (x0 : Vec Ideal S2000x128 .f32) (x1 : Vec Ideal S128x128 .f32) (x2 : Vec Ideal S128 .f32) :
    k0_pay2 x0 x1 x2 = xlin x0 x1 x2 := by
  unfold k0_pay2 k0_pay1 xlin dense
  simp only [shapeCast_self]
  rw [matmul_eq_mulP dot_S2000x128_S128x128_S2000x128_1_0_0_1_n_n rfl, kernelBias_eq_rowB, kernelSwish_eq]
  rfl

/-- The second payload likewise, over the second weight and bias. -/
theorem pay3_eq (x0 : Vec Ideal S2000x128 .f32) (x3 : Vec Ideal S128x128 .f32) (x4 : Vec Ideal S128 .f32) :
    k0_pay3 x0 x3 x4 = xlin x0 x3 x4 := by
  unfold k0_pay3 k0_pay1 xlin dense
  simp only [shapeCast_self]
  rw [matmul_eq_mulP dot_S2000x128_S128x128_S2000x128_1_0_0_1_n_n rfl, kernelBias_eq_rowB, kernelSwish_eq]
  rfl

/-- What point t writes back through window 5 is block t of the projection of the whole input array. -/
theorem flushed5 (c : Dev nD) (t : Fin cfg0.N) :
    (dat0 V c).flushed 5 t = ((cfg0.win 5).blk t).view.read (Elt Ideal) (xlin (V c main_arg0) (V c main_v0) (V c main_arg6)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x128) hz2, View.ld_unit_zero (S := S128) hz1]
  rw [pay2_eq, blk0, whole1, whole2, xlin_rowsAt, oblk5]
  rfl

theorem flushed6 (c : Dev nD) (t : Fin cfg0.N) :
    (dat0 V c).flushed 6 t = ((cfg0.win 6).blk t).view.read (Elt Ideal) (xlin (V c main_arg0) (V c main_v1) (V c main_arg8)) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S128x128) hz2, View.ld_unit_zero (S := S128) hz1]
  rw [pay3_eq, blk0, whole3, whole4, xlin_rowsAt, oblk6]
  rfl

/-- An index of the array is in point t's block iff each coordinate is in the block's range on its axis. -/
theorem mem_blk5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v16_0).slice (win0_5.rect t)).set ↔ _
  rw [View.set_slice_whole, Rect.mem_set_unit]
  exact Iff.rfl

theorem mem_blk6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v16_1).slice (win0_6.rect t)).set ↔ _
  rw [View.set_slice_whole, Rect.mem_set_unit]
  exact Iff.rfl

/-- Row r of the array is in the block of point r / 2000: the blocks tile the rows. -/
theorem cover5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  refine ⟨⟨(i 0).val / 2000, Nat.lt_of_lt_of_eq (by omega) N_0.symm⟩, flush0_5 _, ?_⟩
  rw [mem_blk5]
  obtain ⟨-, -, -, -, -, -, -, -, e8, e9, -⟩ := idx_facts ⟨(i 0).val / 2000, Nat.lt_of_lt_of_eq (by omega) N_0.symm⟩
  intro a
  match a with
  | ⟨0, _⟩ =>
    show win0_5.index ⟨(i 0).val / 2000, _⟩ (0 : Fin 2) * 2000 ≤ (i 0).val ∧ (i 0).val < win0_5.index ⟨(i 0).val / 2000, _⟩ (0 : Fin 2) * 2000 + 2000
    rw [e8]; show (i 0).val / 2000 * 2000 ≤ (i 0).val ∧ (i 0).val < (i 0).val / 2000 * 2000 + 2000; omega
  | ⟨1, _⟩ =>
    show win0_5.index ⟨(i 0).val / 2000, _⟩ (1 : Fin 2) * 128 ≤ (i 1).val ∧ (i 1).val < win0_5.index ⟨(i 0).val / 2000, _⟩ (1 : Fin 2) * 128 + 128
    rw [e9]; omega

theorem cover6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  refine ⟨⟨(i 0).val / 2000, Nat.lt_of_lt_of_eq (by omega) N_0.symm⟩, flush0_6 _, ?_⟩
  rw [mem_blk6]
  obtain ⟨-, -, -, -, -, -, -, -, -, -, e10, e11⟩ := idx_facts ⟨(i 0).val / 2000, Nat.lt_of_lt_of_eq (by omega) N_0.symm⟩
  intro a
  match a with
  | ⟨0, _⟩ =>
    show win0_6.index ⟨(i 0).val / 2000, _⟩ (0 : Fin 2) * 2000 ≤ (i 0).val ∧ (i 0).val < win0_6.index ⟨(i 0).val / 2000, _⟩ (0 : Fin 2) * 2000 + 2000
    rw [e10]; show (i 0).val / 2000 * 2000 ≤ (i 0).val ∧ (i 0).val < (i 0).val / 2000 * 2000 + 2000; omega
  | ⟨1, _⟩ =>
    show win0_6.index ⟨(i 0).val / 2000, _⟩ (1 : Fin 2) * 128 ≤ (i 1).val ∧ (i 1).val < win0_6.index ⟨(i 0).val / 2000, _⟩ (1 : Fin 2) * 128 + 128
    rw [e11]; omega

/-- The first output array after the run: the first projection of the whole input array. -/
theorem arr5 (c : Dev nD) : (dat0 V c).arrAt 5 cfg0.N = xlin (V c main_arg0) (V c main_v0) (V c main_arg6) :=
  (dat0 V c).arrAt_eq_of_cover 5 _ (fun t _ => flushed5 V c t) cover5

/-- The second output array after the run: the second projection. -/
theorem arr6 (c : Dev nD) : (dat0 V c).arrAt 6 cfg0.N = xlin (V c main_arg0) (V c main_v1) (V c main_arg8) :=
  (dat0 V c).arrAt_eq_of_cover 6 _ (fun t _ => flushed6 V c t) cover6

end Cert.KernelIdeal.Region0

end
-- ==== Proof.K1.lean ====
/-
  The second kernel (200 grid points, 4000 edge rows each): what its output array holds after the run, as a function of
  the arrays the region finds. Each point's output block is the edge message of the point's 4000 rows of the two edge
  features and of the gathered node rows, the four transposed weights whole at every point: each feature goes through
  its two bias-free products, is multiplied entry by entry with the gathered rows, and the two results stand side by
  side. The blocks tile the 800000 rows, so the output array is the edge message of the whole input arrays.
-/
import proofs.«405302_j4922032521429_3_alg».proof.Proof.Gen.KernelIdeal.Frame
import proofs.«405302_j4922032521429_3_alg».proof.Proof.Spec
import proofs.«405302_j4922032521429_3_alg».proof.Proof.LibConcatCols
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen RowLayers Cert.Spec

variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: the row-blocked windows sit at block row t, the weights at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem t_lt (t : Fin cfg1.N) : t.val < 200 := Nat.lt_of_lt_of_eq t.isLt N_1

/-- Window 0's block at point t is rows 4000 t … 4000 t + 3999 of the first edge feature. -/
theorem blk0 (c : Dev nD) (t : Fin cfg1.N) :
    (iblk1 V c 0 t : FVec Ideal (M2 4000 36) .f32)
      = rowsAt (φ := .f32) (4000 * t.val) (by have := t_lt t; omega) (V c main_arg1 : FVec Ideal (M2 800000 36) .f32) := by
  obtain ⟨e0, e1, -⟩ := idx_facts t
  funext y
  unfold iblk1 rowsAt
  rw [View.read_apply]
  refine congrArg (V c main_arg1) (funext fun a => Fin.ext ?_)
  match a with
  | ⟨0, _⟩ => show win1_0.index t (0 : Fin 2) * 4000 + 1 * (y 0).val = 4000 * t.val + (y 0).val; rw [e0]; omega
  | ⟨1, _⟩ => show win1_0.index t (1 : Fin 2) * 36 + 1 * (y 1).val = (y 1).val; rw [e1]; omega

/-- Window 1's block at point t is the same rows of the second edge feature. -/
theorem blk1 (c : Dev nD) (t : Fin cfg1.N) :
    (iblk1 V c 1 t : FVec Ideal (M2 4000 16) .f32)
      = rowsAt (φ := .f32) (4000 * t.val) (by have := t_lt t; omega) (V c main_arg2 : FVec Ideal (M2 800000 16) .f32) := by
  obtain ⟨-, -, e2, e3, -⟩ := idx_facts t
  funext y
  unfold iblk1 rowsAt
  rw [View.read_apply]
  refine congrArg (V c main_arg2) (funext fun a => Fin.ext ?_)
  match a with
  | ⟨0, _⟩ => show win1_1.index t (0 : Fin 2) * 4000 + 1 * (y 0).val = 4000 * t.val + (y 0).val; rw [e2]; omega
  | ⟨1, _⟩ => show win1_1.index t (1 : Fin 2) * 16 + 1 * (y 1).val = (y 1).val; rw [e3]; omega

/-- Window 2's block at point t is the same rows of the gathered node rows. -/
theorem blk2 (c : Dev nD) (t : Fin cfg1.N) :
    (iblk1 V c 2 t : FVec Ideal (M2 4000 128) .f32)
      = rowsAt (φ := .f32) (4000 * t.val) (by have := t_lt t; omega) (V c main_v23 : FVec Ideal (M2 800000 128) .f32) := by
  obtain ⟨-, -, -, -, e4, e5, -⟩ := idx_facts t
  funext y
  unfold iblk1 rowsAt
  rw [View.read_apply]
  refine congrArg (V c main_v23) (funext fun a => Fin.ext ?_)
  match a with
  | ⟨0, _⟩ => show win1_2.index t (0 : Fin 2) * 4000 + 1 * (y 0).val = 4000 * t.val + (y 0).val; rw [e4]; omega
  | ⟨1, _⟩ => show win1_2.index t (1 : Fin 2) * 128 + 1 * (y 1).val = (y 1).val; rw [e5]; omega

/-- The first feature's first weight: its block at every point is the whole transposed weight. -/
theorem whole3 (c : Dev nD) (t : Fin cfg1.N) : (iblk1 V c 3 t : FVec Ideal (M2 36 64) .f32) = V c main_v2 := by
  obtain ⟨-, -, -, -, -, -, e6, e7, -⟩ := idx_facts t
  funext y
  unfold iblk1
  rw [View.read_apply]
  refine congrArg (V c main_v2) (funext fun a => Fin.ext ?_)
  match a with
  | ⟨0, _⟩ => show win1_3.index t (0 : Fin 2) * 36 + 1 * (y 0).val = (y 0).val; rw [e6]; omega
  | ⟨1, _⟩ => show win1_3.index t (1 : Fin 2) * 64 + 1 * (y 1).val = (y 1).val; rw [e7]; omega

/-- The first feature's second weight, whole at every point. -/
theorem whole4 (c : Dev nD) (t : Fin cfg1.N) : (iblk1 V c 4 t : FVec Ideal (M2 64 128) .f32) = V c main_v3 := by
  obtain ⟨-, -, -, -, -, -, -, -, e8, e9, -⟩ := idx_facts t
  funext y
  unfold iblk1
  rw [View.read_apply]
  refine congrArg (V c main_v3) (funext fun a => Fin.ext ?_)
  match a with
  | ⟨0, _⟩ => show win1_4.index t (0 : Fin 2) * 64 + 1 * (y 0).val = (y 0).val; rw [e8]; omega
  | ⟨1, _⟩ => show win1_4.index t (1 : Fin 2) * 128 + 1 * (y 1).val = (y 1).val; rw [e9]; omega

/-- The second feature's first weight, whole at every point. -/
theorem whole5 (c : Dev nD) (t : Fin cfg1.N) : (iblk1 V c 5 t : FVec Ideal (M2 16 64) .f32) = V c main_v4 := by
  obtain ⟨-, -, -, -, -, -, -, -, -, -, e10, e11, -⟩ := idx_facts t
  funext y
  unfold iblk1
  rw [View.read_apply]
  refine congrArg (V c main_v4) (funext fun a => Fin.ext ?_)
  match a with
  | ⟨0, _⟩ => show win1_5.index t (0 : Fin 2) * 16 + 1 * (y 0).val = (y 0).val; rw [e10]; omega
  | ⟨1, _⟩ => show win1_5.index t (1 : Fin 2) * 64 + 1 * (y 1).val = (y 1).val; rw [e11]; omega

/-- The second feature's second weight, whole at every point. -/
theorem whole6 (c : Dev nD) (t : Fin cfg1.N) : (iblk1 V c 6 t : FVec Ideal (M2 64 128) .f32) = V c main_v5 := by
  obtain ⟨-, -, -, -, -, -, -, -, -, -, -, -, e12, e13, -⟩ := idx_facts t
  funext y
  unfold iblk1
  rw [View.read_apply]
  refine congrArg (V c main_v5) (funext fun a => Fin.ext ?_)
  match a with
  | ⟨0, _⟩ => show win1_6.index t (0 : Fin 2) * 64 + 1 * (y 0).val = (y 0).val; rw [e12]; omega
  | ⟨1, _⟩ => show win1_6.index t (1 : Fin 2) * 128 + 1 * (y 1).val = (y 1).val; rw [e13]; omega

/-- The output window's block of any array is rows 4000 t … of it. -/
theorem oblk7 (t : Fin cfg1.N) (G : FVec Ideal (M2 800000 256) .f32) :
    ((cfg1.win 7).blk t).view.read (Elt Ideal) G = rowsAt (φ := .f32) (4000 * t.val) (by have := t_lt t; omega) G := by
  obtain ⟨-, -, -, -, -, -, -, -, -, -, -, -, -, -, e14, e15⟩ := idx_facts t
  funext y
  unfold rowsAt
  rw [View.read_apply]
  refine congrArg G (funext fun a => Fin.ext ?_)
  match a with
  | ⟨0, _⟩ => show win1_7.index t (0 : Fin 2) * 4000 + 1 * (y 0).val = 4000 * t.val + (y 0).val; rw [e14]; omega
  | ⟨1, _⟩ => show win1_7.index t (1 : Fin 2) * 256 + 1 * (y 1).val = (y 1).val; rw [e15]; omega

/-- The body's payload is the edge message of its loaded blocks: a cast to the same shape is the identity, each matrix
    product into a zero accumulator is the plain product, a change of float format is the identity at the ideal
    values, and the concatenation along the columns is the two factors side by side. -/
theorem pay1_eq (x0 : Vec Ideal S4000x36 .f32) (x1 : Vec Ideal S4000x16 .f32) (x2 : Vec Ideal S4000x128 .f32)
    (x3 : Vec Ideal S36x64 .f32) (x4 : Vec Ideal S64x128 .f32) (x5 : Vec Ideal S16x64 .f32) (x6 : Vec Ideal S64x128 .f32) :
    k1_pay1 x0 x1 x2 x3 x4 x5 x6 = msg x0 x1 x2 x3 x4 x5 x6 := by
  unfold k1_pay1 msg edgeF
  simp only []
  rw [shapeCast_self x2, shapeCast_self x3, shapeCast_self x4, shapeCast_self x5, shapeCast_self x6]
  rw [matmul_eq_mulP dot_S4000x36_S36x64_S4000x64_1_0_0_1_n_n rfl, matmul_eq_mulP dot_S4000x16_S16x64_S4000x64_1_0_0_1_n_n rfl,
    matmul_eq_mulP dot_S4000x64_S64x128_S4000x128_1_0_0_1_n_n rfl, matmul_eq_mulP dot_S4000x64_S64x128_S4000x128_1_0_0_1_n_n rfl]
  exact concat_eq_hcat (n := 4000) (a := 128) (b := 128) (c := 256) rfl _ _ _

/-- What point t writes back through window 7 is block t of the edge message of the whole input arrays. -/
theorem flushed7 (c : Dev nD) (t : Fin cfg1.N) :
    (dat1 V c).flushed 7 t = ((cfg1.win 7).blk t).view.read (Elt Ideal)
      (msg (V c main_arg1) (V c main_arg2) (V c main_v23) (V c main_v2) (V c main_v3) (V c main_v4) (V c main_v5)) := by
  show (cfg1.win 7).cut (grid1.coords t) ((dat1 V c).after 7 t) = _
  rw [after1_7]
  unfold out1_7
  rw [View.canon_unit_zero hz2]
  simp only [View.ld_unit_zero (S := S4000x36) hz2, View.ld_unit_zero (S := S4000x16) hz2, View.ld_unit_zero (S := S4000x128) hz2,
    View.ld_unit_zero (S := S36x64) hz2, View.ld_unit_zero (S := S64x128) hz2, View.ld_unit_zero (S := S16x64) hz2]
  rw [pay1_eq, blk0, blk1, blk2, whole3, whole4, whole5, whole6, msg_rowsAt, oblk7]
  rfl

/-- An index of the array is in point t's block iff each coordinate is in the block's range on its axis. -/
theorem mem_blk7 (t : Fin cfg1.N) (i : S800000x256.Idx) :
    i ∈ ((cfg1.win 7).blk t).view.set ↔ ∀ a : Fin 2, win1_7.index t a * S4000x256.size a ≤ (i a).val ∧ (i a).val < win1_7.index t a * S4000x256.size a + S4000x256.size a := by
  show i ∈ ((View.whole main_v24).slice (win1_7.rect t)).set ↔ _
  rw [View.set_slice_whole, Rect.mem_set_unit]
  exact Iff.rfl

/-- Row r of the array is in the block of point r / 4000: the blocks tile the rows. -/
theorem cover7 (i : S800000x256.Idx) : ∃ t : Fin cfg1.N, (cfg1.win 7).flush t = true ∧ i ∈ ((cfg1.win 7).blk t).view.set := by
  have hi0 : (i 0).val < 800000 := (i 0).isLt
  have hi1 : (i 1).val < 256 := (i 1).isLt
  refine ⟨⟨(i 0).val / 4000, Nat.lt_of_lt_of_eq (by omega) N_1.symm⟩, flush1_7 _, ?_⟩
  rw [mem_blk7]
  obtain ⟨-, -, -, -, -, -, -, -, -, -, -, -, -, -, e14, e15⟩ := idx_facts ⟨(i 0).val / 4000, Nat.lt_of_lt_of_eq (by omega) N_1.symm⟩
  intro a
  match a with
  | ⟨0, _⟩ =>
    show win1_7.index ⟨(i 0).val / 4000, _⟩ (0 : Fin 2) * 4000 ≤ (i 0).val ∧ (i 0).val < win1_7.index ⟨(i 0).val / 4000, _⟩ (0 : Fin 2) * 4000 + 4000
    rw [e14]; show (i 0).val / 4000 * 4000 ≤ (i 0).val ∧ (i 0).val < (i 0).val / 4000 * 4000 + 4000; omega
  | ⟨1, _⟩ =>
    show win1_7.index ⟨(i 0).val / 4000, _⟩ (1 : Fin 2) * 256 ≤ (i 1).val ∧ (i 1).val < win1_7.index ⟨(i 0).val / 4000, _⟩ (1 : Fin 2) * 256 + 256
    rw [e15]; omega

/-- The output array after the run: the edge message of the whole input arrays. -/
theorem arr7 (c : Dev nD) : (dat1 V c).arrAt 7 cfg1.N = Cert.Spec.msg (V c main_arg1) (V c main_arg2) (V c main_v23) (V c main_v2) (V c main_v3) (V c main_v4) (V c main_v5) :=
  (dat1 V c).arrAt_eq_of_cover 7 _ (fun t _ => flushed7 V c t) cover7

end Cert.KernelIdeal.Region1

end
-- ==== Proof.K2.lean ====
/-
  The third kernel (25 grid points, 2000 node rows each): what its output array holds after the run, as a function of
  the arrays the region finds. Each point's output block is the final combine of the point's 2000 rows of the two node
  projections and the two aggregated messages, the eighteen weights and biases whole at every point; the blocks tile
  the 50000 rows, so the output array is the final combine of the whole input arrays.
-/
import proofs.«405302_j4922032521429_3_alg».proof.Proof.Gen.KernelIdeal.Frame
import proofs.«405302_j4922032521429_3_alg».proof.Proof.Spec
import proofs.«405302_j4922032521429_3_alg».proof.Proof.LibConcatCols
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen RowLayers Cert.Spec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The windows over the grid -/

/-- The index maps over the grid: the four row-blocked inputs and the output sit at block row t, every weight and
    bias at block 0. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ win2_5.index t (0 : Fin 1) = 0
    ∧ (win2_6.index t (0 : Fin 2) = 0 ∧ win2_6.index t (1 : Fin 2) = 0)
    ∧ (win2_7.index t (0 : Fin 2) = 0 ∧ win2_7.index t (1 : Fin 2) = 0)
    ∧ win2_8.index t (0 : Fin 1) = 0
    ∧ (win2_9.index t (0 : Fin 2) = 0 ∧ win2_9.index t (1 : Fin 2) = 0)
    ∧ (win2_10.index t (0 : Fin 2) = 0 ∧ win2_10.index t (1 : Fin 2) = 0)
    ∧ win2_11.index t (0 : Fin 1) = 0
    ∧ (win2_12.index t (0 : Fin 2) = 0 ∧ win2_12.index t (1 : Fin 2) = 0)
    ∧ win2_13.index t (0 : Fin 1) = 0
    ∧ (win2_14.index t (0 : Fin 2) = 0 ∧ win2_14.index t (1 : Fin 2) = 0)
    ∧ win2_15.index t (0 : Fin 1) = 0
    ∧ (win2_16.index t (0 : Fin 2) = 0 ∧ win2_16.index t (1 : Fin 2) = 0)
    ∧ win2_17.index t (0 : Fin 1) = 0
    ∧ (win2_18.index t (0 : Fin 2) = 0 ∧ win2_18.index t (1 : Fin 2) = 0)
    ∧ win2_19.index t (0 : Fin 1) = 0
    ∧ (win2_20.index t (0 : Fin 2) = 0 ∧ win2_20.index t (1 : Fin 2) = 0)
    ∧ win2_21.index t (0 : Fin 1) = 0
    ∧ (win2_22.index t (0 : Fin 2) = t.val ∧ win2_22.index t (1 : Fin 2) = 0) :=
  (by decide +kernel : ∀ t : Fin grid2.N, _)

theorem t_lt (t : Fin cfg2.N) : t.val < 25 := Nat.lt_of_lt_of_eq t.isLt N_2

/-- Window 0's block at point t is rows 2000 t … 2000 t + 1999 of the first node projection. -/
theorem blk0 (c : Dev nD) (t : Fin cfg2.N) :
    (iblk2 V c 0 t : FVec Ideal (M2 2000 128) .f32)
      = rowsAt (φ := .f32) (2000 * t.val) (by have := t_lt t; omega) (V c main_v16_0 : FVec Ideal (M2 50000 128) .f32) := by
  obtain ⟨⟨e0, e1⟩, -⟩ := idx_facts t
  funext y
  unfold iblk2 rowsAt
  rw [View.read_apply]
  refine congrArg (V c main_v16_0) (funext fun a => Fin.ext ?_)
  match a with
  | ⟨0, _⟩ => show win2_0.index t (0 : Fin 2) * 2000 + 1 * (y 0).val = 2000 * t.val + (y 0).val; rw [e0]; omega
  | ⟨1, _⟩ => show win2_0.index t (1 : Fin 2) * 128 + 1 * (y 1).val = (y 1).val; rw [e1]; omega

/-- Window 1's block at point t is the same rows of the second node projection. -/
theorem blk1 (c : Dev nD) (t : Fin cfg2.N) :
    (iblk2 V c 1 t : FVec Ideal (M2 2000 128) .f32)
      = rowsAt (φ := .f32) (2000 * t.val) (by have := t_lt t; omega) (V c main_v16_1 : FVec Ideal (M2 50000 128) .f32) := by
  obtain ⟨-, ⟨e0, e1⟩, -⟩ := idx_facts t
  funext y
  unfold iblk2 rowsAt
  rw [View.read_apply]
  refine congrArg (V c main_v16_1) (funext fun a => Fin.ext ?_)
  match a with
  | ⟨0, _⟩ => show win2_1.index t (0 : Fin 2) * 2000 + 1 * (y 0).val = 2000 * t.val + (y 0).val; rw [e0]; omega
  | ⟨1, _⟩ => show win2_1.index t (1 : Fin 2) * 128 + 1 * (y 1).val = (y 1).val; rw [e1]; omega

/-- Window 2's block at point t is the same rows of the first aggregated message. -/
theorem blk2 (c : Dev nD) (t : Fin cfg2.N) :
    (iblk2 V c 2 t : FVec Ideal (M2 2000 128) .f32)
      = rowsAt (φ := .f32) (2000 * t.val) (by have := t_lt t; omega) (V c main_v28 : FVec Ideal (M2 50000 128) .f32) := by
  obtain ⟨-, -, ⟨e0, e1⟩, -⟩ := idx_facts t
  funext y
  unfold iblk2 rowsAt
  rw [View.read_apply]
  refine congrArg (V c main_v28) (funext fun a => Fin.ext ?_)
  match a with
  | ⟨0, _⟩ => show win2_2.index t (0 : Fin 2) * 2000 + 1 * (y 0).val = 2000 * t.val + (y 0).val; rw [e0]; omega
  | ⟨1, _⟩ => show win2_2.index t (1 : Fin 2) * 128 + 1 * (y 1).val = (y 1).val; rw [e1]; omega

/-- Window 3's block at point t is the same rows of the second aggregated message. -/
theorem blk3 (c : Dev nD) (t : Fin cfg2.N) :
    (iblk2 V c 3 t : FVec Ideal (M2 2000 128) .f32)
      = rowsAt (φ := .f32) (2000 * t.val) (by have := t_lt t; omega) (V c main_v29 : FVec Ideal (M2 50000 128) .f32) := by
  obtain ⟨-, -, -, ⟨e0, e1⟩, -⟩ := idx_facts t
  funext y
  unfold iblk2 rowsAt
  rw [View.read_apply]
  refine congrArg (V c main_v29) (funext fun a => Fin.ext ?_)
  match a with
  | ⟨0, _⟩ => show win2_3.index t (0 : Fin 2) * 2000 + 1 * (y 0).val = 2000 * t.val + (y 0).val; rw [e0]; omega
  | ⟨1, _⟩ => show win2_3.index t (1 : Fin 2) * 128 + 1 * (y 1).val = (y 1).val; rw [e1]; omega

/-- The first branch's left weight: its block at every point is the whole transposed weight. -/
theorem whole4 (c : Dev nD) (t : Fin cfg2.N) : (iblk2 V c 4 t : FVec Ideal (M2 128 128) .f32) = V c main_v6 := by
  obtain ⟨-, -, -, -, ⟨e0, e1⟩, -⟩ := idx_facts t
  funext y
  unfold iblk2
  rw [View.read_apply]
  refine congrArg (V c main_v6) (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- The first branch's left bias, whole at every point. -/
theorem whole5 (c : Dev nD) (t : Fin cfg2.N) : (iblk2 V c 5 t : FVec Ideal (V1 128) .f32) = V c main_arg14 := by
  obtain ⟨-, -, -, -, -, e0, -⟩ := idx_facts t
  funext y
  unfold iblk2
  rw [View.read_apply]
  refine congrArg (V c main_arg14) (funext fun a => Fin.ext ?_)
  match a with
  | ⟨0, _⟩ => show win2_5.index t (0 : Fin 1) * 128 + 1 * (y 0).val = (y 0).val; rw [e0]; omega

/-- The first branch's right weight, whole at every point. -/
theorem whole6 (c : Dev nD) (t : Fin cfg2.N) : (iblk2 V c 6 t : FVec Ideal (M2 128 128) .f32) = V c main_v7 := by
  obtain ⟨-, -, -, -, -, -, ⟨e0, e1⟩, -⟩ := idx_facts t
  funext y
  unfold iblk2
  rw [View.read_apply]
  refine congrArg (V c main_v7) (funext fun a => Fin.ext ?_)
  match a with
  | ⟨0, _⟩ => show win2_6.index t (0 : Fin 2) * 128 + 1 * (y 0).val = (y 0).val; rw [e0]; omega
  | ⟨1, _⟩ => show win2_6.index t (1 : Fin 2) * 128 + 1 * (y 1).val = (y 1).val; rw [e1]; omega

/-- The second branch's left weight, whole at every point. -/
theorem whole7 (c : Dev nD) (t : Fin cfg2.N) : (iblk2 V c 7 t : FVec Ideal (M2 128 128) .f32) = V c main_v8 := by
  obtain ⟨-, -, -, -, -, -, -, ⟨e0, e1⟩, -⟩ := idx_facts t
  funext y
  unfold iblk2
  rw [View.read_apply]
  refine congrArg (V c main_v8) (funext fun a => Fin.ext ?_)
  match a with
  | ⟨0, _⟩ => show win2_7.index t (0 : Fin 2) * 128 + 1 * (y 0).val = (y 0).val; rw [e0]; omega
  | ⟨1, _⟩ => show win2_7.index t (1 : Fin 2) * 128 + 1 * (y 1).val = (y 1).val; rw [e1]; omega

/-- The second branch's left bias, whole at every point. -/
theorem whole8 (c : Dev nD) (t : Fin cfg2.N) : (iblk2 V c 8 t : FVec Ideal (V1 128) .f32) = V c main_arg17 := by
  obtain ⟨-, -, -, -, -, -, -, -, e0, -⟩ := idx_facts t
  funext y
  unfold iblk2
  rw [View.read_apply]
  refine congrArg (V c main_arg17) (funext fun a => Fin.ext ?_)
  match a with
  | ⟨0, _⟩ => show win2_8.index t (0 : Fin 1) * 128 + 1 * (y 0).val = (y 0).val; rw [e0]; omega

/-- The second branch's right weight, whole at every point. -/
theorem whole9 (c : Dev nD) (t : Fin cfg2.N) : (iblk2 V c 9 t : FVec Ideal (M2 128 128) .f32) = V c main_v9 := by
  obtain ⟨-, -, -, -, -, -, -, -, -, ⟨e0, e1⟩, -⟩ := idx_facts t
  funext y
  unfold iblk2
  rw [View.read_apply]
  refine congrArg (V c main_v9) (funext fun a => Fin.ext ?_)
  match a with
  | ⟨0, _⟩ => show win2_9.index t (0 : Fin 2) * 128 + 1 * (y 0).val = (y 0).val; rw [e0]; omega
  | ⟨1, _⟩ => show win2_9.index t (1 : Fin 2) * 128 + 1 * (y 1).val = (y 1).val; rw [e1]; omega

/-- The first branch's outer weight, whole at every point. -/
theorem whole10 (c : Dev nD) (t : Fin cfg2.N) : (iblk2 V c 10 t : FVec Ideal (M2 128 128) .f32) = V c main_v10 := by
  obtain ⟨-, -, -, -, -, -, -, -, -, -, ⟨e0, e1⟩, -⟩ := idx_facts t
  funext y
  unfold iblk2
  rw [View.read_apply]
  refine congrArg (V c main_v10) (funext fun a => Fin.ext ?_)
  match a with
  | ⟨0, _⟩ => show win2_10.index t (0 : Fin 2) * 128 + 1 * (y 0).val = (y 0).val; rw [e0]; omega
  | ⟨1, _⟩ => show win2_10.index t (1 : Fin 2) * 128 + 1 * (y 1).val = (y 1).val; rw [e1]; omega

/-- The first branch's outer bias, whole at every point. -/
theorem whole11 (c : Dev nD) (t : Fin cfg2.N) : (iblk2 V c 11 t : FVec Ideal (V1 128) .f32) = V c main_arg20 := by
  obtain ⟨-, -, -, -, -, -, -, -, -, -, -, e0, -⟩ := idx_facts t
  funext y
  unfold iblk2
  rw [View.read_apply]
  refine congrArg (V c main_arg20) (funext fun a => Fin.ext ?_)
  match a with
  | ⟨0, _⟩ => show win2_11.index t (0 : Fin 1) * 128 + 1 * (y 0).val = (y 0).val; rw [e0]; omega

/-- The second branch's outer weight, whole at every point. -/
theorem whole12 (c : Dev nD) (t : Fin cfg2.N) : (iblk2 V c 12 t : FVec Ideal (M2 128 128) .f32) = V c main_v11 := by
  obtain ⟨-, -, -, -, -, -, -, -, -, -, -, -, ⟨e0, e1⟩, -⟩ := idx_facts t
  funext y
  unfold iblk2
  rw [View.read_apply]
  refine congrArg (V c main_v11) (funext fun a => Fin.ext ?_)
  match a with
  | ⟨0, _⟩ => show win2_12.index t (0 : Fin 2) * 128 + 1 * (y 0).val = (y 0).val; rw [e0]; omega
  | ⟨1, _⟩ => show win2_12.index t (1 : Fin 2) * 128 + 1 * (y 1).val = (y 1).val; rw [e1]; omega

/-- The second branch's outer bias, whole at every point. -/
theorem whole13 (c : Dev nD) (t : Fin cfg2.N) : (iblk2 V c 13 t : FVec Ideal (V1 128) .f32) = V c main_arg22 := by
  obtain ⟨-, -, -, -, -, -, -, -, -, -, -, -, -, e0, -⟩ := idx_facts t
  funext y
  unfold iblk2
  rw [View.read_apply]
  refine congrArg (V c main_arg22) (funext fun a => Fin.ext ?_)
  match a with
  | ⟨0, _⟩ => show win2_13.index t (0 : Fin 1) * 128 + 1 * (y 0).val = (y 0).val; rw [e0]; omega

/-- The joined layer's 256-row weight, whole at every point. -/
theorem whole14 (c : Dev nD) (t : Fin cfg2.N) : (iblk2 V c 14 t : FVec Ideal (M2 256 128) .f32) = V c main_v12 := by
  obtain ⟨-, -, -, -, -, -, -, -, -, -, -, -, -, -, ⟨e0, e1⟩, -⟩ := idx_facts t
  funext y
  unfold iblk2
  rw [View.read_apply]
  refine congrArg (V c main_v12) (funext fun a => Fin.ext ?_)
  match a with
  | ⟨0, _⟩ => show win2_14.index t (0 : Fin 2) * 256 + 1 * (y 0).val = (y 0).val; rw [e0]; omega
  | ⟨1, _⟩ => show win2_14.index t (1 : Fin 2) * 128 + 1 * (y 1).val = (y 1).val; rw [e1]; omega

/-- The joined layer's bias, whole at every point. -/
theorem whole15 (c : Dev nD) (t : Fin cfg2.N) : (iblk2 V c 15 t : FVec Ideal (V1 128) .f32) = V c main_arg24 := by
  obtain ⟨-, -, -, -, -, -, -, -, -, -, -, -, -, -, -, e0, -⟩ := idx_facts t
  funext y
  unfold iblk2
  rw [View.read_apply]
  refine congrArg (V c main_arg24) (funext fun a => Fin.ext ?_)
  match a with
  | ⟨0, _⟩ => show win2_15.index t (0 : Fin 1) * 128 + 1 * (y 0).val = (y 0).val; rw [e0]; omega

/-- The second joined layer's weight, whole at every point. -/
theorem whole16 (c : Dev nD) (t : Fin cfg2.N) : (iblk2 V c 16 t : FVec Ideal (M2 128 128) .f32) = V c main_v13 := by
  obtain ⟨-, -, -, -, -, -, -, -, -, -, -, -, -, -, -, -, ⟨e0, e1⟩, -⟩ := idx_facts t
  funext y
  unfold iblk2
  rw [View.read_apply]
  refine congrArg (V c main_v13) (funext fun a => Fin.ext ?_)
  match a with
  | ⟨0, _⟩ => show win2_16.index t (0 : Fin 2) * 128 + 1 * (y 0).val = (y 0).val; rw [e0]; omega
  | ⟨1, _⟩ => show win2_16.index t (1 : Fin 2) * 128 + 1 * (y 1).val = (y 1).val; rw [e1]; omega

/-- The second joined layer's bias, whole at every point. -/
theorem whole17 (c : Dev nD) (t : Fin cfg2.N) : (iblk2 V c 17 t : FVec Ideal (V1 128) .f32) = V c main_arg26 := by
  obtain ⟨-, -, -, -, -, -, -, -, -, -, -, -, -, -, -, -, -, e0, -⟩ := idx_facts t
  funext y
  unfold iblk2
  rw [View.read_apply]
  refine congrArg (V c main_arg26) (funext fun a => Fin.ext ?_)
  match a with
  | ⟨0, _⟩ => show win2_17.index t (0 : Fin 1) * 128 + 1 * (y 0).val = (y 0).val; rw [e0]; omega

/-- The next-to-last layer's weight, whole at every point. -/
theorem whole18 (c : Dev nD) (t : Fin cfg2.N) : (iblk2 V c 18 t : FVec Ideal (M2 128 128) .f32) = V c main_v14 := by
  obtain ⟨-, -, -, -, -, -, -, -, -, -, -, -, -, -, -, -, -, -, ⟨e0, e1⟩, -⟩ := idx_facts t
  funext y
  unfold iblk2
  rw [View.read_apply]
  refine congrArg (V c main_v14) (funext fun a => Fin.ext ?_)
  match a with
  | ⟨0, _⟩ => show win2_18.index t (0 : Fin 2) * 128 + 1 * (y 0).val = (y 0).val; rw [e0]; omega
  | ⟨1, _⟩ => show win2_18.index t (1 : Fin 2) * 128 + 1 * (y 1).val = (y 1).val; rw [e1]; omega

/-- The next-to-last layer's bias, whole at every point. -/
theorem whole19 (c : Dev nD) (t : Fin cfg2.N) : (iblk2 V c 19 t : FVec Ideal (V1 128) .f32) = V c main_arg28 := by
  obtain ⟨-, -, -, -, -, -, -, -, -, -, -, -, -, -, -, -, -, -, -, e0, -⟩ := idx_facts t
  funext y
  unfold iblk2
  rw [View.read_apply]
  refine congrArg (V c main_arg28) (funext fun a => Fin.ext ?_)
  match a with
  | ⟨0, _⟩ => show win2_19.index t (0 : Fin 1) * 128 + 1 * (y 0).val = (y 0).val; rw [e0]; omega

/-- The last layer's weight, whole at every point. -/
theorem whole20 (c : Dev nD) (t : Fin cfg2.N) : (iblk2 V c 20 t : FVec Ideal (M2 128 128) .f32) = V c main_v15 := by
  obtain ⟨-, -, -, -, -, -, -, -, -, -, -, -, -, -, -, -, -, -, -, -, ⟨e0, e1⟩, -⟩ := idx_facts t
  funext y
  unfold iblk2
  rw [View.read_apply]
  refine congrArg (V c main_v15) (funext fun a => Fin.ext ?_)
  match a with
  | ⟨0, _⟩ => show win2_20.index t (0 : Fin 2) * 128 + 1 * (y 0).val = (y 0).val; rw [e0]; omega
  | ⟨1, _⟩ => show win2_20.index t (1 : Fin 2) * 128 + 1 * (y 1).val = (y 1).val; rw [e1]; omega

/-- The last layer's bias, whole at every point. -/
theorem whole21 (c : Dev nD) (t : Fin cfg2.N) : (iblk2 V c 21 t : FVec Ideal (V1 128) .f32) = V c main_arg30 := by
  obtain ⟨-, -, -, -, -, -, -, -, -, -, -, -, -, -, -, -, -, -, -, -, -, e0, -⟩ := idx_facts t
  funext y
  unfold iblk2
  rw [View.read_apply]
  refine congrArg (V c main_arg30) (funext fun a => Fin.ext ?_)
  match a with
  | ⟨0, _⟩ => show win2_21.index t (0 : Fin 1) * 128 + 1 * (y 0).val = (y 0).val; rw [e0]; omega

/-- The output window's block of any array is rows 2000 t … of it. -/
theorem oblk22 (t : Fin cfg2.N) (G : FVec Ideal (M2 50000 128) .f32) :
    ((cfg2.win 22).blk t).view.read (Elt Ideal) G = rowsAt (φ := .f32) (2000 * t.val) (by have := t_lt t; omega) G := by
  obtain ⟨-, -, -, -, -, -, -, -, -, -, -, -, -, -, -, -, -, -, -, -, -, -, e0, e1⟩ := idx_facts t
  funext y
  unfold rowsAt
  rw [View.read_apply]
  refine congrArg G (funext fun a => Fin.ext ?_)
  match a with
  | ⟨0, _⟩ => show win2_22.index t (0 : Fin 2) * 2000 + 1 * (y 0).val = 2000 * t.val + (y 0).val; rw [e0]; omega
  | ⟨1, _⟩ => show win2_22.index t (1 : Fin 2) * 128 + 1 * (y 1).val = (y 1).val; rw [e1]; omega

/-! ## The body's arithmetic -/

/-- A matrix unit's product of two operands cast to the narrow format, into a zero accumulator, is the plain product of
    the operands: the change of float format is the identity at the ideal values. -/
theorem matmulT_eq_mulP {n K M : Nat} (d : DotDims (M2 n K) (M2 K M) (M2 n M)) (hd : d = DotDims.plain n K M)
    (prec : Option ContractPrecision) (x : FVec Ideal (M2 n K) .f32) (w : FVec Ideal (M2 K M) .f32)
    (hx : FTy.bits .bf16 < FTy.bits .f32) (hw : FTy.bits .bf16 < FTy.bits .f32) :
    matmul d prec (truncf .bf16 x hx) (truncf .bf16 w hw) (constant (M2 n M) .f32 0x00000000#32) = mulP x w := by
  rw [matmul_eq_mulP d hd]
  rfl

/-- One branch of the combine, as the body computes it from its loaded blocks: each matrix product is the plain
    product, each bias is laid along the rows, and the logistic times the value is swish. -/
theorem pay4_eq (x0 a : Vec Ideal S2000x128 .f32) (llT : Vec Ideal S128x128 .f32) (llb : Vec Ideal S128 .f32)
    (lrT linT : Vec Ideal S128x128 .f32) (linb : Vec Ideal S128 .f32) :
    k2_pay4 x0 a llT llb lrT linT linb = branch x0 a llT llb lrT linT linb := by
  unfold k2_pay4 k2_pay2 branch dense
  simp only [shapeCast_self]
  rw [matmulT_eq_mulP dot_S2000x128_S128x128_S2000x128_1_0_0_1_n_n rfl,
    matmulT_eq_mulP dot_S2000x128_S128x128_S2000x128_1_0_0_1_n_n rfl,
    matmulT_eq_mulP dot_S2000x128_S128x128_S2000x128_1_0_0_1_n_n rfl,
    kernelBias_eq_rowB, kernelBias_eq_rowB, kernelSwish_eq]

/-- The middle of the body: the second branch from its loaded blocks, the two branches side by side (the
    concatenation along the columns), then the two layers over the joined rows. -/
theorem pay7_eq (x0 br1 a2 : Vec Ideal S2000x128 .f32) (c2llT : Vec Ideal S128x128 .f32) (c2llb : Vec Ideal S128 .f32)
    (c2lrT lin2T : Vec Ideal S128x128 .f32) (lin2b : Vec Ideal S128 .f32) (cat0T : Vec Ideal S256x128 .f32)
    (cat0b : Vec Ideal S128 .f32) (cat1T : Vec Ideal S128x128 .f32) (cat1b : Vec Ideal S128 .f32) :
    k2_pay7 (k2_pay2 x0) br1 (k2_pay5 a2) (k2_pay6 c2llT) c2llb c2lrT lin2T lin2b cat0T cat0b cat1T cat1b
      = dense (swish (dense (hcat (a := 128) (b := 128) rfl br1 (branch x0 a2 c2llT c2llb c2lrT lin2T lin2b)) cat0T cat0b))
          cat1T cat1b := by
  unfold k2_pay7 k2_pay2 k2_pay5 k2_pay6 branch dense
  simp only [shapeCast_self]
  rw [matmulT_eq_mulP dot_S2000x128_S128x128_S2000x128_1_0_0_1_n_n rfl,
    matmulT_eq_mulP dot_S2000x128_S128x128_S2000x128_1_0_0_1_n_n rfl,
    matmulT_eq_mulP dot_S2000x128_S128x128_S2000x128_1_0_0_1_n_n rfl,
    kernelBias_eq_rowB, kernelBias_eq_rowB, kernelSwish_eq,
    concat_eq_hcat (n := 2000) (a := 128) (b := 128) (c := 256) rfl,
    matmulT_eq_mulP dot_S2000x256_S256x128_S2000x128_1_0_0_1_n_n rfl, kernelBias_eq_rowB, kernelSwish_eq,
    matmulT_eq_mulP dot_S2000x128_S128x128_S2000x128_1_0_0_1_n_n rfl, kernelBias_eq_rowB]
  simp only [shapeCast_self]

/-- The end of the body: swish of the joined layers' result plus the second node projection, then the last two layers. -/
theorem pay1_eq (x2 v : Vec Ideal S2000x128 .f32) (l0T : Vec Ideal S128x128 .f32) (l0b : Vec Ideal S128 .f32)
    (finT : Vec Ideal S128x128 .f32) (finb : Vec Ideal S128 .f32) :
    k2_pay1 (k2_pay3 x2) v l0T l0b finT finb = dense (swish (dense (addf (swish v) x2) l0T l0b)) finT finb := by
  unfold k2_pay1 k2_pay3 dense
  simp only [shapeCast_self]
  rw [kernelSwish_eq, matmulT_eq_mulP dot_S2000x128_S128x128_S2000x128_1_0_0_1_n_n rfl, kernelBias_eq_rowB, kernelSwish_eq,
    matmulT_eq_mulP dot_S2000x128_S128x128_S2000x128_1_0_0_1_n_n rfl, kernelBias_eq_rowB]

/-- The body's whole payload is the final combine of its loaded blocks, in the windows' order. -/
theorem out_eq (x0 x1 x2 x3 : Vec Ideal S2000x128 .f32) (x4 : Vec Ideal S128x128 .f32) (x5 : Vec Ideal S128 .f32)
    (x6 x7 : Vec Ideal S128x128 .f32) (x8 : Vec Ideal S128 .f32) (x9 x10 : Vec Ideal S128x128 .f32) (x11 : Vec Ideal S128 .f32)
    (x12 : Vec Ideal S128x128 .f32) (x13 : Vec Ideal S128 .f32) (x14 : Vec Ideal S256x128 .f32) (x15 : Vec Ideal S128 .f32)
    (x16 : Vec Ideal S128x128 .f32) (x17 : Vec Ideal S128 .f32) (x18 : Vec Ideal S128x128 .f32) (x19 : Vec Ideal S128 .f32)
    (x20 : Vec Ideal S128x128 .f32) (x21 : Vec Ideal S128 .f32) :
    k2_pay1 (k2_pay3 x1) (k2_pay7 (k2_pay2 x0) (k2_pay4 x0 x2 x4 x5 x6 x10 x11) (k2_pay5 x3) (k2_pay6 x7) x8 x9 x12 x13 x14 x15 x16 x17)
        x18 x19 x20 x21
      = fin x0 x1 x2 x3 x4 x5 x6 x7 x8 x9 x10 x11 x12 x13 x14 x15 x16 x17 x18 x19 x20 x21 := by
  rw [pay4_eq, pay7_eq, pay1_eq]
  rfl

/-- What the body leaves in the output window's buffer, from the input windows' blocks: its one store covers the
    buffer, and each load reads a whole block. -/
theorem out22_eq (x0 x1 x2 x3 : Vec Ideal S2000x128 .f32) (x4 : Vec Ideal S128x128 .f32) (x5 : Vec Ideal S128 .f32)
    (x6 x7 : Vec Ideal S128x128 .f32) (x8 : Vec Ideal S128 .f32) (x9 x10 : Vec Ideal S128x128 .f32) (x11 : Vec Ideal S128 .f32)
    (x12 : Vec Ideal S128x128 .f32) (x13 : Vec Ideal S128 .f32) (x14 : Vec Ideal S256x128 .f32) (x15 : Vec Ideal S128 .f32)
    (x16 : Vec Ideal S128x128 .f32) (x17 : Vec Ideal S128 .f32) (x18 : Vec Ideal S128x128 .f32) (x19 : Vec Ideal S128 .f32)
    (x20 : Vec Ideal S128x128 .f32) (x21 : Vec Ideal S128 .f32) :
    out2_22 x0 x1 x2 x3 x4 x5 x6 x7 x8 x9 x10 x11 x12 x13 x14 x15 x16 x17 x18 x19 x20 x21
      = fin x0 x1 x2 x3 x4 x5 x6 x7 x8 x9 x10 x11 x12 x13 x14 x15 x16 x17 x18 x19 x20 x21 := by
  unfold out2_22
  rw [View.canon_unit_zero hz2]
  simp only [View.ld_unit_zero (S := S2000x128) hz2, View.ld_unit_zero (S := S128x128) hz2, View.ld_unit_zero (S := S128) hz1,
    View.ld_unit_zero (S := S256x128) hz2]
  exact out_eq x0 x1 x2 x3 x4 x5 x6 x7 x8 x9 x10 x11 x12 x13 x14 x15 x16 x17 x18 x19 x20 x21

/-- The final combine of equal arguments. -/
theorem fin_congr {n : Nat} {x0 y0 x1 y1 x2 y2 x3 y3 : FVec Ideal (M2 n 128) .f32}
    {x4 y4 : FVec Ideal (M2 128 128) .f32} {x5 y5 : FVec Ideal (V1 128) .f32} {x6 y6 x7 y7 : FVec Ideal (M2 128 128) .f32}
    {x8 y8 : FVec Ideal (V1 128) .f32} {x9 y9 x10 y10 : FVec Ideal (M2 128 128) .f32} {x11 y11 : FVec Ideal (V1 128) .f32}
    {x12 y12 : FVec Ideal (M2 128 128) .f32} {x13 y13 : FVec Ideal (V1 128) .f32} {x14 y14 : FVec Ideal (M2 256 128) .f32}
    {x15 y15 : FVec Ideal (V1 128) .f32} {x16 y16 : FVec Ideal (M2 128 128) .f32} {x17 y17 : FVec Ideal (V1 128) .f32}
    {x18 y18 : FVec Ideal (M2 128 128) .f32} {x19 y19 : FVec Ideal (V1 128) .f32} {x20 y20 : FVec Ideal (M2 128 128) .f32}
    {x21 y21 : FVec Ideal (V1 128) .f32}
    (h0 : x0 = y0) (h1 : x1 = y1) (h2 : x2 = y2) (h3 : x3 = y3) (h4 : x4 = y4) (h5 : x5 = y5) (h6 : x6 = y6) (h7 : x7 = y7)
    (h8 : x8 = y8) (h9 : x9 = y9) (h10 : x10 = y10) (h11 : x11 = y11) (h12 : x12 = y12) (h13 : x13 = y13) (h14 : x14 = y14)
    (h15 : x15 = y15) (h16 : x16 = y16) (h17 : x17 = y17) (h18 : x18 = y18) (h19 : x19 = y19) (h20 : x20 = y20)
    (h21 : x21 = y21) :
    fin x0 x1 x2 x3 x4 x5 x6 x7 x8 x9 x10 x11 x12 x13 x14 x15 x16 x17 x18 x19 x20 x21
      = fin y0 y1 y2 y3 y4 y5 y6 y7 y8 y9 y10 y11 y12 y13 y14 y15 y16 y17 y18 y19 y20 y21 := by
  subst h0 h1 h2 h3 h4 h5 h6 h7 h8 h9 h10 h11 h12 h13 h14 h15 h16 h17 h18 h19 h20 h21
  rfl

/-! ## The output array after the run -/

/-- What point t writes back through the output window is block t of the final combine of the whole arrays. -/
theorem flushed22 (c : Dev nD) (t : Fin cfg2.N) :
    (dat2 V c).flushed 22 t = ((cfg2.win 22).blk t).view.read (Elt Ideal)
      (fin (V c main_v16_0) (V c main_v16_1) (V c main_v28) (V c main_v29) (V c main_v6) (V c main_arg14) (V c main_v7)
        (V c main_v8) (V c main_arg17) (V c main_v9) (V c main_v10) (V c main_arg20) (V c main_v11) (V c main_arg22)
        (V c main_v12) (V c main_arg24) (V c main_v13) (V c main_arg26) (V c main_v14) (V c main_arg28) (V c main_v15)
        (V c main_arg30)) := by
  show (cfg2.win 22).cut (grid2.coords t) ((dat2 V c).after 22 t) = _
  rw [after2_22, out22_eq, oblk22, ← fin_rowsAt]
  exact fin_congr (blk0 V c t) (blk1 V c t) (blk2 V c t) (blk3 V c t) (whole4 V c t) (whole5 V c t) (whole6 V c t)
    (whole7 V c t) (whole8 V c t) (whole9 V c t) (whole10 V c t) (whole11 V c t) (whole12 V c t) (whole13 V c t)
    (whole14 V c t) (whole15 V c t) (whole16 V c t) (whole17 V c t) (whole18 V c t) (whole19 V c t) (whole20 V c t)
    (whole21 V c t)

/-- An index of the array is in point t's block iff each coordinate is in the block's range on its axis. -/
theorem mem_blk22 (t : Fin cfg2.N) (i : S50000x128.Idx) :
    i ∈ ((cfg2.win 22).blk t).view.set ↔ ∀ a : Fin 2, win2_22.index t a * S2000x128.size a ≤ (i a).val ∧ (i a).val < win2_22.index t a * S2000x128.size a + S2000x128.size a := by
  show i ∈ ((View.whole main_v30).slice (win2_22.rect t)).set ↔ _
  rw [View.set_slice_whole, Rect.mem_set_unit]
  exact Iff.rfl

/-- Row r of the array is in the block of point r / 2000: the blocks tile the rows. -/
theorem cover22 (i : S50000x128.Idx) : ∃ t : Fin cfg2.N, (cfg2.win 22).flush t = true ∧ i ∈ ((cfg2.win 22).blk t).view.set := by
  have hi0 : (i 0).val < 50000 := (i 0).isLt
  have hi1 : (i 1).val < 128 := (i 1).isLt
  refine ⟨⟨(i 0).val / 2000, Nat.lt_of_lt_of_eq (by omega) N_2.symm⟩, flush2_22 _, ?_⟩
  rw [mem_blk22]
  obtain ⟨-, -, -, -, -, -, -, -, -, -, -, -, -, -, -, -, -, -, -, -, -, -, e0, e1⟩ :=
    idx_facts ⟨(i 0).val / 2000, Nat.lt_of_lt_of_eq (by omega) N_2.symm⟩
  intro a
  match a with
  | ⟨0, _⟩ =>
    show win2_22.index ⟨(i 0).val / 2000, _⟩ (0 : Fin 2) * 2000 ≤ (i 0).val ∧ (i 0).val < win2_22.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win2_22.index ⟨(i 0).val / 2000, _⟩ (1 : Fin 2) * 128 ≤ (i 1).val ∧ (i 1).val < win2_22.index ⟨(i 0).val / 2000, _⟩ (1 : Fin 2) * 128 + 128
    rw [e1]; omega

/-- The output array after the run: the final combine of the whole arrays the region finds. -/
theorem arr22 (c : Dev nD) : (dat2 V c).arrAt 22 cfg2.N = Cert.Spec.fin (V c main_v16_0) (V c main_v16_1) (V c main_v28) (V c main_v29) (V c main_v6) (V c main_arg14) (V c main_v7) (V c main_v8) (V c main_arg17) (V c main_v9) (V c main_v10) (V c main_arg20) (V c main_v11) (V c main_arg22) (V c main_v12) (V c main_arg24) (V c main_v13) (V c main_arg26) (V c main_v14) (V c main_arg28) (V c main_v15) (V c main_arg30) :=
  (dat2 V c).arrAt_eq_of_cover 22 _ (fun t _ => flushed22 V c t) cover22

end Cert.KernelIdeal.Region2

end
-- ==== Proof.KHostPlain.lean ====
/-
  The buffers each kernel region finds, where no index arithmetic is involved: an argument array nobody wrote is as
  launched; a weight the host transposed before the first kernel is that transpose of the argument, and stays so through
  the later regions and host stretches (none writes it); the first kernel's two output arrays reach the third as the first
  kernel left them.
-/
import proofs.«405302_j4922032521429_3_alg».proof.Proof.Gen.KernelIdeal.Frame
import proofs.«405302_j4922032521429_3_alg».proof.Proof.Net
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KHost

open Cert.KernelIdeal Cert.KernelIdeal.Gen RowLayers

variable (m : (ℓ : Loc nD τ sig) → Buf (Elt Ideal) ℓ) (ρ : Dev nD → PrngReg)

/-! ## A buffer a stretch of host operations does not write passes through it

Each stretch writes the result references of its operations and nothing else; a reference outside that list holds after
the stretch what it held before. -/

/-- The references the host writes before the first kernel: the sixteen transposed weights. -/
abbrev wr0 : List (Ref sig .tc) :=
  [main_v0, main_v1, main_v2, main_v3, main_v4, main_v5, main_v6, main_v7, main_v8, main_v9, main_v10, main_v11,
    main_v12, main_v13, main_v14, main_v15]

/-- The references the host writes between the first and the second kernel: the two rows of the edge index array,
    their clamps, and the gather's index arithmetic, mask and result. -/
abbrev wr1 : List (Ref sig .tc) :=
  [main_v17, main_v18, main_c, main_c_0,
    main_call0_v0, main_call0_v1, main_call0_v2, main_call0_v3, main_call0_v4, main_v19,
    main_v20, main_v21, main_c_1, main_c_2,
    main_call1_v0, main_call1_v1, main_call1_v2, main_call1_v3, main_call1_v4, main_v22,
    main_call2_c, main_call2_v0, main_call2_v1, main_call2_c_0, main_call2_v2, main_call2_v3, main_call2_v4,
    main_call2_v5, main_call2_c_1, main_call2_c_2, main_call2_v6, main_call2_v7, main_call2_v8, main_call2_v9,
    main_call2_v10, main_call2_v11, main_call2_c_3, main_call2_v12, main_call2_v13, main_call2_v14, main_call2_cst,
    main_call2_v15, main_v23]

/-- The references the host writes between the second and the third kernel: the zero matrix, the destination column,
    the sum over the edges and its two halves. -/
abbrev wr2 : List (Ref sig .tc) := [main_cst, main_v25, main_v26, main_v27, main_v28, main_v29]

/-- The stretch before the first kernel. -/
theorem keep0 (V : Valuation τ sig (Elt Ideal)) (r : Ref sig .tc) (hr : r ∉ wr0) :
    StableHlo.after (hostOps0 (F := Ideal)) V (Proc.devRef .tc r) = V (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hr (by subst e; decide))))

/-- The five stretches between the first and the second kernel, one by one. -/
theorem keep1 (V : Valuation τ sig (Elt Ideal)) (r : Ref sig .tc) (hr : r ∉ wr1) :
    StableHlo.after (hostOps1 (F := Ideal)) V (Proc.devRef .tc r) = V (Proc.devRef .tc r) :=
  StableHlo.after_of_forall_not_mem (b := Proc.devRef .tc r) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hr (by subst e; decide))))
theorem keep1_1 (V : Valuation τ sig (Elt Ideal)) (r : Ref sig .tc) (hr : r ∉ wr1) :
    StableHlo.after (hostOps1_1 (F := Ideal)) V (Proc.devRef .tc r) = V (Proc.devRef .tc r) :=
  StableHlo.after_of_forall_not_mem (b := Proc.devRef .tc r) _ _ (List.forall_iff_forall_mem.mp (by
    simp only [hostOps1_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hr (by subst e; decide))))
theorem keep1_2 (V : Valuation τ sig (Elt Ideal)) (r : Ref sig .tc) (hr : r ∉ wr1) :
    StableHlo.after (hostOps1_2 (F := Ideal)) V (Proc.devRef .tc r) = V (Proc.devRef .tc r) :=
  StableHlo.after_of_forall_not_mem (b := Proc.devRef .tc r) _ _ (List.forall_iff_forall_mem.mp (by
    simp only [hostOps1_2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hr (by subst e; decide))))
theorem keep1_3 (V : Valuation τ sig (Elt Ideal)) (r : Ref sig .tc) (hr : r ∉ wr1) :
    StableHlo.after (hostOps1_3 (F := Ideal)) V (Proc.devRef .tc r) = V (Proc.devRef .tc r) :=
  StableHlo.after_of_forall_not_mem (b := Proc.devRef .tc r) _ _ (List.forall_iff_forall_mem.mp (by
    simp only [hostOps1_3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hr (by subst e; decide))))
theorem keep1_4 (V : Valuation τ sig (Elt Ideal)) (r : Ref sig .tc) (hr : r ∉ wr1) :
    StableHlo.after (hostOps1_4 (F := Ideal)) V (Proc.devRef .tc r) = V (Proc.devRef .tc r) :=
  StableHlo.after_of_forall_not_mem (b := Proc.devRef .tc r) _ _ (List.forall_iff_forall_mem.mp (by
    simp only [hostOps1_4, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hr (by subst e; decide))))

/-- The stretch between the second and the third kernel. -/
theorem keep2 (V : Valuation τ sig (Elt Ideal)) (r : Ref sig .tc) (hr : r ∉ wr2) :
    StableHlo.after (hostOps2 (F := Ideal)) V (Proc.devRef .tc r) = V (Proc.devRef .tc r) :=
  StableHlo.after_of_forall_not_mem (b := Proc.devRef .tc r) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hr (by subst e; decide))))

/-! ## The fold, walked back

A reference that is no array of the first kernel and that the host does not write between the kernels holds at the
second kernel's entry what it held at the first's; one that moreover is no array of the second kernel and is not written
before the third holds the same at the third kernel's entry. -/

theorem W7_eq_W2 (c : Dev nD) (r : Ref sig .tc) (h1 : r ∉ wr1) :
    W7 m ρ c (Proc.devRef .tc r) = W2 m ρ c (Proc.devRef .tc r) :=
  (keep1_4 _ r h1).trans ((keep1_3 _ r h1).trans ((keep1_2 _ r h1).trans ((keep1_1 _ r h1).trans (keep1 _ r h1))))

theorem W7_eq_W1 (c : Dev nD) (r : Ref sig .tc) (h1 : r ∉ wr1) (h0 : ∀ w, Pipeline.arrRef spec0 w ≠ r) :
    W7 m ρ c (Proc.devRef .tc r) = W1 m ρ c (Proc.devRef .tc r) :=
  (W7_eq_W2 m ρ c r h1).trans (W2_of_ne m ρ c r h0)

theorem W9_eq_W7 (c : Dev nD) (r : Ref sig .tc) (h2 : r ∉ wr2) (h8 : ∀ w, Pipeline.arrRef spec1 w ≠ r) :
    W9 m ρ c (Proc.devRef .tc r) = W7 m ρ c (Proc.devRef .tc r) :=
  (keep2 _ r h2).trans (W8_of_ne m ρ c r h8)

theorem W9_eq_W1 (c : Dev nD) (r : Ref sig .tc) (h2 : r ∉ wr2) (h8 : ∀ w, Pipeline.arrRef spec1 w ≠ r) (h1 : r ∉ wr1)
    (h0 : ∀ w, Pipeline.arrRef spec0 w ≠ r) :
    W9 m ρ c (Proc.devRef .tc r) = W1 m ρ c (Proc.devRef .tc r) :=
  (W9_eq_W7 m ρ c r h2 h8).trans (W7_eq_W1 m ρ c r h1 h0)

/-! ## Before the first kernel: an argument is as launched, a transposed weight is the transpose of its argument -/

/-- An argument array at the first kernel's entry. -/
theorem W1_arg (c : Dev nD) (r : Ref sig .tc) (h : r ∉ wr0) :
    W1 m ρ c (Proc.devRef .tc r) = m ((c.tc : Thread nD τ).loc r) :=
  keep0 _ r h

theorem W1_v0 (c : Dev nD) :
    W1 m ρ c (Proc.devRef .tc main_v0) = Cert.Spec.tr Cert.Spec.layout.t128 (m ((c.tc : Thread nD τ).loc main_arg5)) := by
  show StableHlo.after hostOps0 _ (Proc.devRef .tc main_v0) = _
  after_results
  rfl

theorem W1_v1 (c : Dev nD) :
    W1 m ρ c (Proc.devRef .tc main_v1) = Cert.Spec.tr Cert.Spec.layout.t128 (m ((c.tc : Thread nD τ).loc main_arg7)) := by
  show StableHlo.after hostOps0 _ (Proc.devRef .tc main_v1) = _
  after_results
  rfl

theorem W1_v2 (c : Dev nD) :
    W1 m ρ c (Proc.devRef .tc main_v2) = Cert.Spec.tr Cert.Spec.layout.t64x36 (m ((c.tc : Thread nD τ).loc main_arg9)) := by
  show StableHlo.after hostOps0 _ (Proc.devRef .tc main_v2) = _
  after_results
  rfl

theorem W1_v3 (c : Dev nD) :
    W1 m ρ c (Proc.devRef .tc main_v3) = Cert.Spec.tr Cert.Spec.layout.t128x64 (m ((c.tc : Thread nD τ).loc main_arg10)) := by
  show StableHlo.after hostOps0 _ (Proc.devRef .tc main_v3) = _
  after_results
  rfl

theorem W1_v4 (c : Dev nD) :
    W1 m ρ c (Proc.devRef .tc main_v4) = Cert.Spec.tr Cert.Spec.layout.t64x16 (m ((c.tc : Thread nD τ).loc main_arg11)) := by
  show StableHlo.after hostOps0 _ (Proc.devRef .tc main_v4) = _
  after_results
  rfl

theorem W1_v5 (c : Dev nD) :
    W1 m ρ c (Proc.devRef .tc main_v5) = Cert.Spec.tr Cert.Spec.layout.t128x64 (m ((c.tc : Thread nD τ).loc main_arg12)) := by
  show StableHlo.after hostOps0 _ (Proc.devRef .tc main_v5) = _
  after_results
  rfl

theorem W1_v6 (c : Dev nD) :
    W1 m ρ c (Proc.devRef .tc main_v6) = Cert.Spec.tr Cert.Spec.layout.t128 (m ((c.tc : Thread nD τ).loc main_arg13)) := by
  show StableHlo.after hostOps0 _ (Proc.devRef .tc main_v6) = _
  after_results
  rfl

theorem W1_v7 (c : Dev nD) :
    W1 m ρ c (Proc.devRef .tc main_v7) = Cert.Spec.tr Cert.Spec.layout.t128 (m ((c.tc : Thread nD τ).loc main_arg15)) := by
  show StableHlo.after hostOps0 _ (Proc.devRef .tc main_v7) = _
  after_results
  rfl

theorem W1_v8 (c : Dev nD) :
    W1 m ρ c (Proc.devRef .tc main_v8) = Cert.Spec.tr Cert.Spec.layout.t128 (m ((c.tc : Thread nD τ).loc main_arg16)) := by
  show StableHlo.after hostOps0 _ (Proc.devRef .tc main_v8) = _
  after_results
  rfl

theorem W1_v9 (c : Dev nD) :
    W1 m ρ c (Proc.devRef .tc main_v9) = Cert.Spec.tr Cert.Spec.layout.t128 (m ((c.tc : Thread nD τ).loc main_arg18)) := by
  show StableHlo.after hostOps0 _ (Proc.devRef .tc main_v9) = _
  after_results
  rfl

theorem W1_v10 (c : Dev nD) :
    W1 m ρ c (Proc.devRef .tc main_v10) = Cert.Spec.tr Cert.Spec.layout.t128 (m ((c.tc : Thread nD τ).loc main_arg19)) := by
  show StableHlo.after hostOps0 _ (Proc.devRef .tc main_v10) = _
  after_results
  rfl

theorem W1_v11 (c : Dev nD) :
    W1 m ρ c (Proc.devRef .tc main_v11) = Cert.Spec.tr Cert.Spec.layout.t128 (m ((c.tc : Thread nD τ).loc main_arg21)) := by
  show StableHlo.after hostOps0 _ (Proc.devRef .tc main_v11) = _
  after_results
  rfl

theorem W1_v12 (c : Dev nD) :
    W1 m ρ c (Proc.devRef .tc main_v12) = Cert.Spec.tr Cert.Spec.layout.t128x256 (m ((c.tc : Thread nD τ).loc main_arg23)) := by
  show StableHlo.after hostOps0 _ (Proc.devRef .tc main_v12) = _
  after_results
  rfl

theorem W1_v13 (c : Dev nD) :
    W1 m ρ c (Proc.devRef .tc main_v13) = Cert.Spec.tr Cert.Spec.layout.t128 (m ((c.tc : Thread nD τ).loc main_arg25)) := by
  show StableHlo.after hostOps0 _ (Proc.devRef .tc main_v13) = _
  after_results
  rfl

theorem W1_v14 (c : Dev nD) :
    W1 m ρ c (Proc.devRef .tc main_v14) = Cert.Spec.tr Cert.Spec.layout.t128 (m ((c.tc : Thread nD τ).loc main_arg27)) := by
  show StableHlo.after hostOps0 _ (Proc.devRef .tc main_v14) = _
  after_results
  rfl

theorem W1_v15 (c : Dev nD) :
    W1 m ρ c (Proc.devRef .tc main_v15) = Cert.Spec.tr Cert.Spec.layout.t128 (m ((c.tc : Thread nD τ).loc main_arg29)) := by
  show StableHlo.after hostOps0 _ (Proc.devRef .tc main_v15) = _
  after_results
  rfl

/-! ## What the first kernel finds -/

theorem V1_arg0 (c : Dev nD) : V1 m ρ c main_arg0 = m ((c.tc : Thread nD τ).loc main_arg0) :=
  W1_arg m ρ c main_arg0 (by decide)

theorem V1_v0 (c : Dev nD) : V1 m ρ c main_v0 = Cert.Spec.tr Cert.Spec.layout.t128 (m ((c.tc : Thread nD τ).loc main_arg5)) :=
  W1_v0 m ρ c

theorem V1_arg6 (c : Dev nD) : V1 m ρ c main_arg6 = m ((c.tc : Thread nD τ).loc main_arg6) :=
  W1_arg m ρ c main_arg6 (by decide)

theorem V1_v1 (c : Dev nD) : V1 m ρ c main_v1 = Cert.Spec.tr Cert.Spec.layout.t128 (m ((c.tc : Thread nD τ).loc main_arg7)) :=
  W1_v1 m ρ c

theorem V1_arg8 (c : Dev nD) : V1 m ρ c main_arg8 = m ((c.tc : Thread nD τ).loc main_arg8) :=
  W1_arg m ρ c main_arg8 (by decide)

/-! ## What the second kernel finds (but for the gathered rows) -/

theorem V7_arg1 (c : Dev nD) : V7 m ρ c main_arg1 = m ((c.tc : Thread nD τ).loc main_arg1) :=
  (W7_eq_W1 m ρ c main_arg1 (by decide) (by decide)).trans (W1_arg m ρ c main_arg1 (by decide))

theorem V7_arg2 (c : Dev nD) : V7 m ρ c main_arg2 = m ((c.tc : Thread nD τ).loc main_arg2) :=
  (W7_eq_W1 m ρ c main_arg2 (by decide) (by decide)).trans (W1_arg m ρ c main_arg2 (by decide))

theorem V7_v2 (c : Dev nD) : V7 m ρ c main_v2 = Cert.Spec.tr Cert.Spec.layout.t64x36 (m ((c.tc : Thread nD τ).loc main_arg9)) :=
  (W7_eq_W1 m ρ c main_v2 (by decide) (by decide)).trans (W1_v2 m ρ c)

theorem V7_v3 (c : Dev nD) : V7 m ρ c main_v3 = Cert.Spec.tr Cert.Spec.layout.t128x64 (m ((c.tc : Thread nD τ).loc main_arg10)) :=
  (W7_eq_W1 m ρ c main_v3 (by decide) (by decide)).trans (W1_v3 m ρ c)

theorem V7_v4 (c : Dev nD) : V7 m ρ c main_v4 = Cert.Spec.tr Cert.Spec.layout.t64x16 (m ((c.tc : Thread nD τ).loc main_arg11)) :=
  (W7_eq_W1 m ρ c main_v4 (by decide) (by decide)).trans (W1_v4 m ρ c)

theorem V7_v5 (c : Dev nD) : V7 m ρ c main_v5 = Cert.Spec.tr Cert.Spec.layout.t128x64 (m ((c.tc : Thread nD τ).loc main_arg12)) :=
  (W7_eq_W1 m ρ c main_v5 (by decide) (by decide)).trans (W1_v5 m ρ c)

/-! ## What the third kernel finds (but for the two aggregated messages) -/

theorem V9_v16_0 (c : Dev nD) : V9 m ρ c main_v16_0 = (dat0 (V1 m ρ) c).arrAt 5 cfg0.N :=
  (W9_eq_W7 m ρ c main_v16_0 (by decide) (by decide)).trans ((W7_eq_W2 m ρ c main_v16_0 (by decide)).trans (W2_arr m ρ c 5))

theorem V9_v16_1 (c : Dev nD) : V9 m ρ c main_v16_1 = (dat0 (V1 m ρ) c).arrAt 6 cfg0.N :=
  (W9_eq_W7 m ρ c main_v16_1 (by decide) (by decide)).trans ((W7_eq_W2 m ρ c main_v16_1 (by decide)).trans (W2_arr m ρ c 6))

theorem V9_v6 (c : Dev nD) : V9 m ρ c main_v6 = Cert.Spec.tr Cert.Spec.layout.t128 (m ((c.tc : Thread nD τ).loc main_arg13)) :=
  (W9_eq_W1 m ρ c main_v6 (by decide) (by decide) (by decide) (by decide)).trans (W1_v6 m ρ c)

theorem V9_arg14 (c : Dev nD) : V9 m ρ c main_arg14 = m ((c.tc : Thread nD τ).loc main_arg14) :=
  (W9_eq_W1 m ρ c main_arg14 (by decide) (by decide) (by decide) (by decide)).trans (W1_arg m ρ c main_arg14 (by decide))

theorem V9_v7 (c : Dev nD) : V9 m ρ c main_v7 = Cert.Spec.tr Cert.Spec.layout.t128 (m ((c.tc : Thread nD τ).loc main_arg15)) :=
  (W9_eq_W1 m ρ c main_v7 (by decide) (by decide) (by decide) (by decide)).trans (W1_v7 m ρ c)

theorem V9_v8 (c : Dev nD) : V9 m ρ c main_v8 = Cert.Spec.tr Cert.Spec.layout.t128 (m ((c.tc : Thread nD τ).loc main_arg16)) :=
  (W9_eq_W1 m ρ c main_v8 (by decide) (by decide) (by decide) (by decide)).trans (W1_v8 m ρ c)

theorem V9_arg17 (c : Dev nD) : V9 m ρ c main_arg17 = m ((c.tc : Thread nD τ).loc main_arg17) :=
  (W9_eq_W1 m ρ c main_arg17 (by decide) (by decide) (by decide) (by decide)).trans (W1_arg m ρ c main_arg17 (by decide))

theorem V9_v9 (c : Dev nD) : V9 m ρ c main_v9 = Cert.Spec.tr Cert.Spec.layout.t128 (m ((c.tc : Thread nD τ).loc main_arg18)) :=
  (W9_eq_W1 m ρ c main_v9 (by decide) (by decide) (by decide) (by decide)).trans (W1_v9 m ρ c)

theorem V9_v10 (c : Dev nD) : V9 m ρ c main_v10 = Cert.Spec.tr Cert.Spec.layout.t128 (m ((c.tc : Thread nD τ).loc main_arg19)) :=
  (W9_eq_W1 m ρ c main_v10 (by decide) (by decide) (by decide) (by decide)).trans (W1_v10 m ρ c)

theorem V9_arg20 (c : Dev nD) : V9 m ρ c main_arg20 = m ((c.tc : Thread nD τ).loc main_arg20) :=
  (W9_eq_W1 m ρ c main_arg20 (by decide) (by decide) (by decide) (by decide)).trans (W1_arg m ρ c main_arg20 (by decide))

theorem V9_v11 (c : Dev nD) : V9 m ρ c main_v11 = Cert.Spec.tr Cert.Spec.layout.t128 (m ((c.tc : Thread nD τ).loc main_arg21)) :=
  (W9_eq_W1 m ρ c main_v11 (by decide) (by decide) (by decide) (by decide)).trans (W1_v11 m ρ c)

theorem V9_arg22 (c : Dev nD) : V9 m ρ c main_arg22 = m ((c.tc : Thread nD τ).loc main_arg22) :=
  (W9_eq_W1 m ρ c main_arg22 (by decide) (by decide) (by decide) (by decide)).trans (W1_arg m ρ c main_arg22 (by decide))

theorem V9_v12 (c : Dev nD) : V9 m ρ c main_v12 = Cert.Spec.tr Cert.Spec.layout.t128x256 (m ((c.tc : Thread nD τ).loc main_arg23)) :=
  (W9_eq_W1 m ρ c main_v12 (by decide) (by decide) (by decide) (by decide)).trans (W1_v12 m ρ c)

theorem V9_arg24 (c : Dev nD) : V9 m ρ c main_arg24 = m ((c.tc : Thread nD τ).loc main_arg24) :=
  (W9_eq_W1 m ρ c main_arg24 (by decide) (by decide) (by decide) (by decide)).trans (W1_arg m ρ c main_arg24 (by decide))

theorem V9_v13 (c : Dev nD) : V9 m ρ c main_v13 = Cert.Spec.tr Cert.Spec.layout.t128 (m ((c.tc : Thread nD τ).loc main_arg25)) :=
  (W9_eq_W1 m ρ c main_v13 (by decide) (by decide) (by decide) (by decide)).trans (W1_v13 m ρ c)

theorem V9_arg26 (c : Dev nD) : V9 m ρ c main_arg26 = m ((c.tc : Thread nD τ).loc main_arg26) :=
  (W9_eq_W1 m ρ c main_arg26 (by decide) (by decide) (by decide) (by decide)).trans (W1_arg m ρ c main_arg26 (by decide))

theorem V9_v14 (c : Dev nD) : V9 m ρ c main_v14 = Cert.Spec.tr Cert.Spec.layout.t128 (m ((c.tc : Thread nD τ).loc main_arg27)) :=
  (W9_eq_W1 m ρ c main_v14 (by decide) (by decide) (by decide) (by decide)).trans (W1_v14 m ρ c)

theorem V9_arg28 (c : Dev nD) : V9 m ρ c main_arg28 = m ((c.tc : Thread nD τ).loc main_arg28) :=
  (W9_eq_W1 m ρ c main_arg28 (by decide) (by decide) (by decide) (by decide)).trans (W1_arg m ρ c main_arg28 (by decide))

theorem V9_v15 (c : Dev nD) : V9 m ρ c main_v15 = Cert.Spec.tr Cert.Spec.layout.t128 (m ((c.tc : Thread nD τ).loc main_arg29)) :=
  (W9_eq_W1 m ρ c main_v15 (by decide) (by decide) (by decide) (by decide)).trans (W1_v15 m ρ c)

theorem V9_arg30 (c : Dev nD) : V9 m ρ c main_arg30 = m ((c.tc : Thread nD τ).loc main_arg30) :=
  (W9_eq_W1 m ρ c main_arg30 (by decide) (by decide) (by decide) (by decide)).trans (W1_arg m ρ c main_arg30 (by decide))

end Cert.KernelIdeal.KHost

end
-- ==== Proof.KHostIdx.lean ====
/-
  The buffers the second and third kernel regions find that the host computes from the edge index array: the gathered
  node rows and the two halves of the aggregated messages. The host clamps each index row into the node range, wraps
  negative indices, gathers, and masks reads outside the range; where every edge index is a node number the clamp, the
  wrap and the mask change nothing, and the gather and the accumulating scatter read the index rows as they are.
-/
import proofs.«405302_j4922032521429_3_alg».proof.Proof.Gen.KernelIdeal.Frame
import proofs.«405302_j4922032521429_3_alg».proof.Proof.Net
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KHost

open Cert.KernelIdeal Cert.KernelIdeal.Gen RowLayers

set_option Elab.async false

/-! ## One index word

A 32-bit word whose signed value is a node number, 0 ≤ w < 50000: clamping it into [0, 49999] returns it, it is not
negative so the wrap (add 50000 to a negative index) leaves it, and both range tests of the mask hold. -/

theorem clip_word (w : BitVec 32) (h0 : 0 ≤ w.toInt) (h1 : w.toInt < 50000) :
    IntOp.minsi 49999#32 (IntOp.maxsi 0#32 w) = w := by
  have e0 : (0#32 : BitVec 32).toInt = 0 := by decide
  have e1 : (49999#32 : BitVec 32).toInt = 49999 := by decide
  have hmax : IntOp.maxsi 0#32 w = w := by
    unfold IntOp.maxsi
    rw [if_neg]
    simp only [BitVec.slt, e0, decide_eq_true_eq]; omega
  rw [hmax]
  unfold IntOp.minsi
  rw [if_neg]
  simp only [BitVec.slt, e1, decide_eq_true_eq]; omega

theorem wrap_word (w : BitVec 32) (h0 : 0 ≤ w.toInt) :
    Scalar.select (IntOp.cmpi .slt w 0#32) (IntOp.addi w 50000#32) w = w := by
  have e0 : (0#32 : BitVec 32).toInt = 0 := by decide
  have hc : IntOp.cmpi .slt w 0#32 = 0#1 := by
    unfold IntOp.cmpi
    have : w.slt 0#32 = false := by
      simp only [BitVec.slt, e0, decide_eq_false_iff_not]; omega
    simp only [this]; rfl
  rw [hc, select_zero]

theorem mask_word (w : BitVec 32) (h0 : 0 ≤ w.toInt) (h1 : w.toInt < 50000) :
    IntOp.andi (IntOp.cmpi .sge w 0#32) (IntOp.cmpi .sle w 49999#32) = 1#1 := by
  have e0 : (0#32 : BitVec 32).toInt = 0 := by decide
  have e1 : (49999#32 : BitVec 32).toInt = 49999 := by decide
  have ha : IntOp.cmpi .sge w 0#32 = 1#1 := by
    unfold IntOp.cmpi
    have : (0#32 : BitVec 32).sle w = true := by
      simp only [BitVec.sle, e0, decide_eq_true_eq]; omega
    simp only [this]; rfl
  have hb : IntOp.cmpi .sle w 49999#32 = 1#1 := by
    unfold IntOp.cmpi
    have : w.sle 49999#32 = true := by
      simp only [BitVec.sle, e1, decide_eq_true_eq]; omega
    simp only [this]; rfl
  rw [ha, hb]; rfl

/-! ## A vector of index words

The same three facts for a vector of 800000 such words, each read at an index; the mask is a reduction by "and" from 1
over a unit axis, which is 1 wherever every word it meets is 1. -/

theorem foldl_andi_ones {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self]
    have e : IntOp.andi (1#1 : BitVec 1) 1#1 = 1#1 := by decide
    rw [e]
    exact ih fun n hn => h n (List.mem_cons_of_mem _ hn)

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x _ fun n _ => hx n

section Vec
variable (v : IVec S800000 32) (hr : ∀ i, 0 ≤ (v i).toInt ∧ (v i).toInt < 50000)
include hr

theorem clip_vec (hb : S_.BroadcastsInDim S800000 ![]) :
    minsi (broadcastInDim S800000 ![] hb (constantI S_ 32 49999#32))
      (maxsi (broadcastInDim S800000 ![] hb (constantI S_ 32 0#32)) v) = v :=
  funext fun i => clip_word (v i) (hr i).1 (hr i).2

theorem wrap_vec (hb : S_.BroadcastsInDim S800000 ![]) :
    select (cmpi .slt v (broadcastInDim S800000 ![] hb (constantI S_ 32 0#32)))
      (addi v (broadcastInDim S800000 ![] hb (constantI S_ 32 50000#32))) v = v :=
  funext fun i => wrap_word (v i) (hr i).1

theorem mask_vec (hc : S800000.BroadcastsInDim S800000x1 ![0]) (hb0 : S_.BroadcastsInDim S800000x1 ![])
    (hb1 : S1.BroadcastsInDim S1x1 ![1]) (hb2 : S1x1.BroadcastsInDim S800000x1 ![0, 1])
    (hred : S800000x1.ReducesTo [1] S800000) (hu : 0 < S_.numel) :
    Host.reduce IntOp.andi
      (andi (cmpi .sge (broadcastInDim S800000x1 ![0] hc v) (broadcastInDim S800000x1 ![] hb0 (constantI S_ 32 0#32)))
        (cmpi .sle (broadcastInDim S800000x1 ![0] hc v)
          (broadcastInDim S800000x1 ![0, 1] hb2 (broadcastInDim S1x1 ![1] hb1 (constantI S1 32 49999#32)))))
      (constantI S_ 1 1#1) hred hu = constantI S800000 1 1#1 :=
  funext fun j => reduce_andi_ones _ _ hred hu (fun n => mask_word _ (hr _).1 (hr _).2) (fun _ => rfl) j

end Vec

/-- A select on a mask that is 1 everywhere is its first operand. -/
theorem select_ones {α : Type} (hb : S800000.BroadcastsInDim S800000x128 ![0]) (a b : S800000x128.Idx → α) :
    select (broadcastInDim S800000x128 ![0] hb (constantI S800000 1 1#1)) a b = a :=
  funext fun i => select_one _ _

/-! ## The host stretches, over any contents at their entry

Each stretch of host operations between two kernel regions, run from arbitrary buffer contents `W`: what it leaves at
the buffer a later region or stretch reads, as a term over `W` at the buffers the stretch itself reads. -/

/-- A buffer none of a stretch's operations writes holds after the stretch what it held before. -/
local macro "not_written " ops:ident : term =>
  `(StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

section Stretches
variable (W : Valuation τ sig (Elt Ideal))

/-- The source row: row 0 of the index array as a vector, clamped into [0, 49999]. -/
theorem row0_raw :
    StableHlo.after hostOps1_1 (StableHlo.after hostOps1 W) (Proc.devRef .tc main_v19)
      = minsi (broadcastInDim S800000 ![] bcast_S_S800000 (constantI S_ 32 49999#32))
          (maxsi (broadcastInDim S800000 ![] bcast_S_S800000 (constantI S_ 32 0#32))
            (shapeCast S800000 (extractStridedSlice S1x800000 ![0, 0] (W (Proc.devRef .tc main_arg3)) slices_S2x800000_S1x800000_0_0) shapeCasts_S1x800000_S800000)) := by
  after_results
  rfl

/-- The destination row: row 1 likewise. -/
theorem row1_raw :
    StableHlo.after hostOps1_3 (StableHlo.after hostOps1_2 W) (Proc.devRef .tc main_v22)
      = minsi (broadcastInDim S800000 ![] bcast_S_S800000 (constantI S_ 32 49999#32))
          (maxsi (broadcastInDim S800000 ![] bcast_S_S800000 (constantI S_ 32 0#32))
            (shapeCast S800000 (extractStridedSlice S1x800000 ![1, 0] (W (Proc.devRef .tc main_arg3)) slices_S2x800000_S1x800000_1_0) shapeCasts_S1x800000_S800000)) := by
  after_results
  rfl

/-- A stretch run in two parts: the first `k` operations, then the rest from what they leave. -/
theorem after_split (k : Nat) : ∀ (l : List (HloOp τ sig (Elt Ideal))) (V : Valuation τ sig (Elt Ideal)),
    StableHlo.after l V = StableHlo.after (l.drop k) (StableHlo.after (l.take k) V) := by
  induction k with
  | zero => intro l V; rfl
  | succ k ih =>
    intro l V
    cases l with
    | nil => rfl
    | cons a l => exact ih l _

/-! The take in three parts: the wrapped index column (operations 1 … 8), the range mask (9 … 18), the gather and the
    select (19 … 23). -/

theorem take1_v5 :
    StableHlo.after (List.take 8 (List.take 18 hostOps1_4)) W (Proc.devRef .tc main_call2_v5) = broadcastInDim S800000x1 ![0] bcast_S800000_S800000x1_0 (select (cmpi .slt (W (Proc.devRef .tc main_v19) : IVec S800000 32) (broadcastInDim S800000 ![] bcast_S_S800000 (constantI S_ 32 0#32)))
              (addi (W (Proc.devRef .tc main_v19) : IVec S800000 32) (broadcastInDim S800000 ![] bcast_S_S800000 (constantI S_ 32 50000#32))) (W (Proc.devRef .tc main_v19) : IVec S800000 32)) := by
  simp only [hostOps1_4, List.take_succ_cons, List.take_zero, List.drop_succ_cons, List.drop_zero]
  after_results
  rfl

theorem take1_v16 :
    StableHlo.after (List.take 8 (List.take 18 hostOps1_4)) W (Proc.devRef .tc main_v16_0) = W (Proc.devRef .tc main_v16_0) := by
  simp only [hostOps1_4, List.take_succ_cons, List.take_zero, List.drop_succ_cons, List.drop_zero]
  after_results

attribute [local irreducible] Host.reduce in
theorem take2_v12 :
    StableHlo.after (List.drop 8 (List.take 18 hostOps1_4)) W (Proc.devRef .tc main_call2_v12) = Host.reduce IntOp.andi
            (andi (cmpi .sge ((W (Proc.devRef .tc main_call2_v5) : IVec S800000x1 32)) (broadcastInDim S800000x1 ![] bcast_S_S800000x1 (constantI S_ 32 0#32)))
              (cmpi .sle ((W (Proc.devRef .tc main_call2_v5) : IVec S800000x1 32))
                (broadcastInDim S800000x1 ![0, 1] bcast_S1x1_S800000x1_0_1 (broadcastInDim S1x1 ![1] bcast_S1_S1x1_1 (constantI S1 32 49999#32)))))
            (constantI S_ 1 1#1) reducesTo_S800000x1_S800000_d1 h_S_ := by
  simp only [hostOps1_4, List.take_succ_cons, List.take_zero, List.drop_succ_cons, List.drop_zero]
  after_results
  rfl

theorem take2_v5 :
    StableHlo.after (List.drop 8 (List.take 18 hostOps1_4)) W (Proc.devRef .tc main_call2_v5) = W (Proc.devRef .tc main_call2_v5) := by
  simp only [hostOps1_4, List.take_succ_cons, List.take_zero, List.drop_succ_cons, List.drop_zero]
  after_results

theorem take2_v16 :
    StableHlo.after (List.drop 8 (List.take 18 hostOps1_4)) W (Proc.devRef .tc main_v16_0) = W (Proc.devRef .tc main_v16_0) := by
  simp only [hostOps1_4, List.take_succ_cons, List.take_zero, List.drop_succ_cons, List.drop_zero]
  after_results

theorem take3_v23 :
    StableHlo.after (List.drop 18 hostOps1_4) W (Proc.devRef .tc main_v23)
      = select (broadcastInDim S800000x128 ![0] bcast_S800000_S800000x128_0 (W (Proc.devRef .tc main_call2_v12) : IVec S800000 1))
          (Host.gather gather_S50000x128_S800000x1_S800000x128_1_0_n_n_0_1_1128 (W (Proc.devRef .tc main_v16_0) : FVec Ideal S50000x128 .f32) (W (Proc.devRef .tc main_call2_v5) : IVec S800000x1 32))
          (broadcastInDim S800000x128 ![] bcast_S_S800000x128 (constant (F := Ideal) S_ .f32 0x7FC00000#32)) := by
  simp only [hostOps1_4, List.take_succ_cons, List.take_zero, List.drop_succ_cons, List.drop_zero]
  after_results
  rfl

/-- The take: negative indices wrapped, the rows gathered, and a row whose index falls outside [0, 49999] replaced by
    the not-a-number pattern. -/
theorem take_raw :
    StableHlo.after hostOps1_4 W (Proc.devRef .tc main_v23)
      = select (broadcastInDim S800000x128 ![0] bcast_S800000_S800000x128_0
          (Host.reduce IntOp.andi
            (andi (cmpi .sge (broadcastInDim S800000x1 ![0] bcast_S800000_S800000x1_0 (select (cmpi .slt (W (Proc.devRef .tc main_v19) : IVec S800000 32) (broadcastInDim S800000 ![] bcast_S_S800000 (constantI S_ 32 0#32)))
              (addi (W (Proc.devRef .tc main_v19) : IVec S800000 32) (broadcastInDim S800000 ![] bcast_S_S800000 (constantI S_ 32 50000#32))) (W (Proc.devRef .tc main_v19) : IVec S800000 32))) (broadcastInDim S800000x1 ![] bcast_S_S800000x1 (constantI S_ 32 0#32)))
              (cmpi .sle (broadcastInDim S800000x1 ![0] bcast_S800000_S800000x1_0 (select (cmpi .slt (W (Proc.devRef .tc main_v19) : IVec S800000 32) (broadcastInDim S800000 ![] bcast_S_S800000 (constantI S_ 32 0#32)))
              (addi (W (Proc.devRef .tc main_v19) : IVec S800000 32) (broadcastInDim S800000 ![] bcast_S_S800000 (constantI S_ 32 50000#32))) (W (Proc.devRef .tc main_v19) : IVec S800000 32)))
                (broadcastInDim S800000x1 ![0, 1] bcast_S1x1_S800000x1_0_1 (broadcastInDim S1x1 ![1] bcast_S1_S1x1_1 (constantI S1 32 49999#32)))))
            (constantI S_ 1 1#1) reducesTo_S800000x1_S800000_d1 h_S_))
        (Host.gather gather_S50000x128_S800000x1_S800000x128_1_0_n_n_0_1_1128 (W (Proc.devRef .tc main_v16_0))
          (broadcastInDim S800000x1 ![0] bcast_S800000_S800000x1_0 (select (cmpi .slt (W (Proc.devRef .tc main_v19) : IVec S800000 32) (broadcastInDim S800000 ![] bcast_S_S800000 (constantI S_ 32 0#32)))
              (addi (W (Proc.devRef .tc main_v19) : IVec S800000 32) (broadcastInDim S800000 ![] bcast_S_S800000 (constantI S_ 32 50000#32))) (W (Proc.devRef .tc main_v19) : IVec S800000 32))))
        (broadcastInDim S800000x128 ![] bcast_S_S800000x128 (constant (F := Ideal) S_ .f32 0x7FC00000#32)) := by
  rw [after_split 18 hostOps1_4 W, after_split 8 (List.take 18 hostOps1_4) W]
  rw [take3_v23, take2_v12, take2_v16, take2_v5, take1_v5, take1_v16]

/-- Where every index is a node number the take is the plain gather along the indices as they are. -/
theorem take_of_range (hr : ∀ i, 0 ≤ ((W (Proc.devRef .tc main_v19) : IVec S800000 32) i).toInt ∧ ((W (Proc.devRef .tc main_v19) : IVec S800000 32) i).toInt < 50000) :
    StableHlo.after hostOps1_4 W (Proc.devRef .tc main_v23)
      = Host.gather gather_S50000x128_S800000x1_S800000x128_1_0_n_n_0_1_1128 (W (Proc.devRef .tc main_v16_0))
          (broadcastInDim S800000x1 ![0] bcast_S800000_S800000x1_0 (W (Proc.devRef .tc main_v19) : IVec S800000 32)) := by
  rw [take_raw, wrap_vec _ hr, mask_vec _ hr, select_ones]

/-- The two halves of the sum of the edge messages over the edges of each destination row. -/
theorem scatter28_raw :
    StableHlo.after hostOps2 W (Proc.devRef .tc main_v28)
      = extractStridedSlice S50000x128 ![0, 0]
          (Host.scatterAdd scatter_S50000x256_S800000x1_S800000x256_1_0_0_1
            (broadcastInDim S50000x256 ![] bcast_S_S50000x256 (constant (F := Ideal) S_ .f32 0x00000000#32))
            (broadcastInDim S800000x1 ![0] bcast_S800000_S800000x1_0 (W (Proc.devRef .tc main_v22)))
            (W (Proc.devRef .tc main_v24))) slices_S50000x256_S50000x128_0_0 := by
  after_results

theorem scatter29_raw :
    StableHlo.after hostOps2 W (Proc.devRef .tc main_v29)
      = extractStridedSlice S50000x128 ![0, 128]
          (Host.scatterAdd scatter_S50000x256_S800000x1_S800000x256_1_0_0_1
            (broadcastInDim S50000x256 ![] bcast_S_S50000x256 (constant (F := Ideal) S_ .f32 0x00000000#32))
            (broadcastInDim S800000x1 ![0] bcast_S800000_S800000x1_0 (W (Proc.devRef .tc main_v22)))
            (W (Proc.devRef .tc main_v24))) slices_S50000x256_S50000x128_0_128 := by
  after_results

end Stretches

/-! ## The program's dimension records and constants are the network's -/

theorem gather_spec (x : FVec Ideal S50000x128 .f32) (r : IVec S800000 32) :
    Host.gather gather_S50000x128_S800000x1_S800000x128_1_0_n_n_0_1_1128 x
        (broadcastInDim S800000x1 ![0] bcast_S800000_S800000x1_0 r)
      = Host.gather Cert.Spec.gatherDims x (Cert.Spec.idxCol Cert.Spec.layout.bc r) := rfl

theorem scatter_spec (off : Nat) (hsl : S50000x256.Slices ![0, off] S50000x128)
    (wf : ScatterDims.WF (RowLayers.M2 50000 256) (RowLayers.M2 800000 1) (RowLayers.M2 800000 256) [1] [0] [0] 1)
    (hz : RowLayers.S0.BroadcastsInDim (RowLayers.M2 50000 256) ![])
    (hs : (RowLayers.M2 50000 256).Slices ![0, off] (RowLayers.M2 50000 128))
    (r : IVec S800000 32) (u : FVec Ideal S800000x256 .f32) :
    extractStridedSlice S50000x128 ![0, off]
        (Host.scatterAdd scatter_S50000x256_S800000x1_S800000x256_1_0_0_1
          (broadcastInDim S50000x256 ![] bcast_S_S50000x256 (constant (F := Ideal) S_ .f32 0x00000000#32))
          (broadcastInDim S800000x1 ![0] bcast_S800000_S800000x1_0 r) u) hsl
      = extractStridedSlice (RowLayers.M2 50000 128) ![0, off]
          (Host.scatterAdd (Cert.Spec.scatterDims 256 wf) (Cert.Spec.zeros 256 hz)
            (Cert.Spec.idxCol Cert.Spec.layout.bc r) u) hs := rfl

/-! ## The index array through the run -/

variable (m : (ℓ : Loc nD τ sig) → Buf (Elt Ideal) ℓ) (ρ : Dev nD → PrngReg)

/-- No host operation and no region before the second kernel writes the index array. -/
theorem W2_arg3 (c : Dev nD) : W2 m ρ c (Proc.devRef .tc main_arg3) = (m ((c.tc : Thread nD τ).loc main_arg3)) :=
  calc W2 m ρ c (Proc.devRef .tc main_arg3)
    _ = W1 m ρ c (Proc.devRef .tc main_arg3) := W2_of_ne m ρ c main_arg3 (by decide)
    _ = W0 m ρ c (Proc.devRef .tc main_arg3) := not_written hostOps0
    _ = (m ((c.tc : Thread nD τ).loc main_arg3)) := rfl

theorem W4_arg3 (c : Dev nD) : W4 m ρ c (Proc.devRef .tc main_arg3) = (m ((c.tc : Thread nD τ).loc main_arg3)) :=
  calc W4 m ρ c (Proc.devRef .tc main_arg3)
    _ = W3 m ρ c (Proc.devRef .tc main_arg3) := not_written hostOps1_1
    _ = W2 m ρ c (Proc.devRef .tc main_arg3) := not_written hostOps1
    _ = (m ((c.tc : Thread nD τ).loc main_arg3)) := W2_arg3 m ρ c

variable (hidx : ∀ (c : Dev Cert.KernelIdeal.nD) (i : (RowLayers.M2 2 800000).Idx), 0 ≤ ((m ((c.tc : Thread Cert.KernelIdeal.nD Cert.KernelIdeal.τ).loc Cert.KernelIdeal.main_arg3) : IVec (RowLayers.M2 2 800000) 32) i).toInt ∧ ((m ((c.tc : Thread Cert.KernelIdeal.nD Cert.KernelIdeal.τ).loc Cert.KernelIdeal.main_arg3) : IVec (RowLayers.M2 2 800000) 32) i).toInt < 50000)
include hidx

/-- Every entry of a row of the index array is an entry of the array: a node number. -/
theorem idxRow_range (c : Dev nD) (r : Nat) (hs : (RowLayers.M2 2 800000).Slices ![r, 0] (RowLayers.M2 1 800000))
    (hc : (RowLayers.M2 1 800000).ShapeCasts (RowLayers.V1 800000)) (i : (RowLayers.V1 800000).Idx) :
    0 ≤ (Cert.Spec.idxRow r hs hc (m ((c.tc : Thread nD τ).loc main_arg3)) i).toInt ∧ (Cert.Spec.idxRow r hs hc (m ((c.tc : Thread nD τ).loc main_arg3)) i).toInt < 50000 :=
  hidx c _

/-- The clamped source row is the source row. -/
theorem W4_v19 (c : Dev nD) : W4 m ρ c (Proc.devRef .tc main_v19) = Cert.Spec.idxRow 0 Cert.Spec.layout.s0 Cert.Spec.layout.sc (m ((c.tc : Thread nD τ).loc main_arg3)) := by
  refine (row0_raw (W2 m ρ c)).trans ?_
  rw [W2_arg3 m ρ c]
  exact clip_vec _ (idxRow_range m hidx c 0 _ _) _

/-- The clamped destination row is the destination row. -/
theorem W6_v22 (c : Dev nD) : W6 m ρ c (Proc.devRef .tc main_v22) = Cert.Spec.idxRow 1 Cert.Spec.layout.s1 Cert.Spec.layout.sc (m ((c.tc : Thread nD τ).loc main_arg3)) := by
  refine (row1_raw (W4 m ρ c)).trans ?_
  rw [W4_arg3 m ρ c]
  exact clip_vec _ (idxRow_range m hidx c 1 _ _) _

/-- The gathered node rows the second kernel finds: the first kernel's first output gathered along the source row. -/
theorem V7_v23 (c : Dev nD) :
    V7 m ρ c main_v23 = Host.gather Cert.Spec.gatherDims ((dat0 (V1 m ρ) c).arrAt 5 cfg0.N)
      (Cert.Spec.idxCol Cert.Spec.layout.bc (Cert.Spec.idxRow 0 Cert.Spec.layout.s0 Cert.Spec.layout.sc (m ((c.tc : Thread nD τ).loc main_arg3)))) := by
  have e19 : W6 m ρ c (Proc.devRef .tc main_v19) = Cert.Spec.idxRow 0 Cert.Spec.layout.s0 Cert.Spec.layout.sc (m ((c.tc : Thread nD τ).loc main_arg3)) :=
    calc W6 m ρ c (Proc.devRef .tc main_v19)
      _ = W5 m ρ c (Proc.devRef .tc main_v19) := not_written hostOps1_3
      _ = W4 m ρ c (Proc.devRef .tc main_v19) := not_written hostOps1_2
      _ = Cert.Spec.idxRow 0 Cert.Spec.layout.s0 Cert.Spec.layout.sc (m ((c.tc : Thread nD τ).loc main_arg3)) := W4_v19 m ρ hidx c
  have e16 : W6 m ρ c (Proc.devRef .tc main_v16_0) = (dat0 (V1 m ρ) c).arrAt 5 cfg0.N :=
    calc W6 m ρ c (Proc.devRef .tc main_v16_0)
      _ = W5 m ρ c (Proc.devRef .tc main_v16_0) := not_written hostOps1_3
      _ = W4 m ρ c (Proc.devRef .tc main_v16_0) := not_written hostOps1_2
      _ = W3 m ρ c (Proc.devRef .tc main_v16_0) := not_written hostOps1_1
      _ = W2 m ρ c (Proc.devRef .tc main_v16_0) := not_written hostOps1
      _ = (dat0 (V1 m ρ) c).arrAt 5 cfg0.N := W2_arr m ρ c 5
  have hr : ∀ i, 0 ≤ ((W6 m ρ c (Proc.devRef .tc main_v19) : IVec S800000 32) i).toInt ∧ ((W6 m ρ c (Proc.devRef .tc main_v19) : IVec S800000 32) i).toInt < 50000 := by
    rw [e19]; exact idxRow_range m hidx c 0 _ _
  refine (take_of_range (W6 m ρ c) hr).trans ?_
  rw [e16, e19]
  exact gather_spec _ _

/-- The first aggregated message the third kernel finds: columns 0 … 127 of the second kernel's output summed over the
    edges by destination row. -/
theorem V9_v28 (c : Dev nD) (wf : ScatterDims.WF (M2 50000 256) (M2 800000 1) (M2 800000 256) [1] [0] [0] 1)
    (hz : S0.BroadcastsInDim (M2 50000 256) ![]) (hs : (M2 50000 256).Slices ![0, 0] (M2 50000 128)) :
    V9 m ρ c main_v28 = extractStridedSlice (M2 50000 128) ![0, 0]
      (Host.scatterAdd (Cert.Spec.scatterDims 256 wf) (Cert.Spec.zeros 256 hz)
        (Cert.Spec.idxCol Cert.Spec.layout.bc (Cert.Spec.idxRow 1 Cert.Spec.layout.s1 Cert.Spec.layout.sc (m ((c.tc : Thread nD τ).loc main_arg3))))
        ((dat1 (V7 m ρ) c).arrAt 7 cfg1.N)) hs := by
  have e22 : W8 m ρ c (Proc.devRef .tc main_v22) = Cert.Spec.idxRow 1 Cert.Spec.layout.s1 Cert.Spec.layout.sc (m ((c.tc : Thread nD τ).loc main_arg3)) :=
    calc W8 m ρ c (Proc.devRef .tc main_v22)
      _ = W7 m ρ c (Proc.devRef .tc main_v22) := W8_of_ne m ρ c main_v22 (by decide)
      _ = W6 m ρ c (Proc.devRef .tc main_v22) := not_written hostOps1_4
      _ = Cert.Spec.idxRow 1 Cert.Spec.layout.s1 Cert.Spec.layout.sc (m ((c.tc : Thread nD τ).loc main_arg3)) := W6_v22 m ρ hidx c
  have e24 : W8 m ρ c (Proc.devRef .tc main_v24) = (dat1 (V7 m ρ) c).arrAt 7 cfg1.N := W8_arr m ρ c 7
  refine (scatter28_raw (W8 m ρ c)).trans ?_
  rw [e22, e24]
  exact scatter_spec 0 _ wf hz hs _ _

/-- The second aggregated message: columns 128 … 255. -/
theorem V9_v29 (c : Dev nD) (wf : ScatterDims.WF (M2 50000 256) (M2 800000 1) (M2 800000 256) [1] [0] [0] 1)
    (hz : S0.BroadcastsInDim (M2 50000 256) ![]) (hs : (M2 50000 256).Slices ![0, 128] (M2 50000 128)) :
    V9 m ρ c main_v29 = extractStridedSlice (M2 50000 128) ![0, 128]
      (Host.scatterAdd (Cert.Spec.scatterDims 256 wf) (Cert.Spec.zeros 256 hz)
        (Cert.Spec.idxCol Cert.Spec.layout.bc (Cert.Spec.idxRow 1 Cert.Spec.layout.s1 Cert.Spec.layout.sc (m ((c.tc : Thread nD τ).loc main_arg3))))
        ((dat1 (V7 m ρ) c).arrAt 7 cfg1.N)) hs := by
  have e22 : W8 m ρ c (Proc.devRef .tc main_v22) = Cert.Spec.idxRow 1 Cert.Spec.layout.s1 Cert.Spec.layout.sc (m ((c.tc : Thread nD τ).loc main_arg3)) :=
    calc W8 m ρ c (Proc.devRef .tc main_v22)
      _ = W7 m ρ c (Proc.devRef .tc main_v22) := W8_of_ne m ρ c main_v22 (by decide)
      _ = W6 m ρ c (Proc.devRef .tc main_v22) := not_written hostOps1_4
      _ = Cert.Spec.idxRow 1 Cert.Spec.layout.s1 Cert.Spec.layout.sc (m ((c.tc : Thread nD τ).loc main_arg3)) := W6_v22 m ρ hidx c
  have e24 : W8 m ρ c (Proc.devRef .tc main_v24) = (dat1 (V7 m ρ) c).arrAt 7 cfg1.N := W8_arr m ρ c 7
  refine (scatter29_raw (W8 m ρ c)).trans ?_
  rw [e22, e24]
  exact scatter_spec 128 _ wf hz hs _ _

end Cert.KernelIdeal.KHost

end
-- ==== Proof.LibScatterCols.lean ====
/-
  The host's accumulating scatter of whole rows, at the ideal values. An operand of N rows and C columns, E scatter
  indices (one signed word each) and E update rows of C columns: update entry (e, q) is added to operand entry
  (idx[e], q) when 0 ≤ idx[e] < N and is dropped otherwise. So entry (r, q) of the result is the operand's entry plus
  the sum of the update entries (e, q) over the e whose index is r, and column q of the result depends only on column q
  of the operand and of the updates: scattering two update matrices laid side by side into a zero matrix and then
  taking the left (right) columns is scattering the left (right) matrix alone.
-/
import Idealize.ShloMosaic.Lib.ValueIdx
import Idealize.ShloMosaic.Lib.Pipeline.Value
import Idealize.ShloMosaic.Lib.IdealHost
import Idealize.ShloMosaic.PureOps.Ideal.Laws
import proofs.«405302_j4922032521429_3_alg».proof.Proof.LibRowLayers

noncomputable section

namespace RowLayers

open Idealize.ShloMosaic Idealize.ShloMosaic.ValueIdx

/-- The dimension numbers of a scatter of whole rows: the updates' axis 1 is the window axis and goes to the operand's
    axis 1, the operand's axis 0 is inserted and is addressed by the one component of each index vector. -/
abbrev rowScatter (N E C : Nat) (wf : ScatterDims.WF (M2 N C) (M2 E 1) (M2 E C) [1] [0] [0] 1) :
    ScatterDims (M2 N C) (M2 E 1) (M2 E C) := ⟨[1], [0], [0], 1, wf⟩

section Coordinates
variable {N E C : Nat} (wf : ScatterDims.WF (M2 N C) (M2 E 1) (M2 E C) [1] [0] [0] 1)

/-- On the row axis the window of update entry (e, q) starts at the signed index idx[e, 0]. -/
theorem rowScatter_start_zero (j : (M2 E C).Idx) (idx : IVec (M2 E 1) 32) :
    (rowScatter N E C wf).start j idx 0 = (idx (ix2 (j 0) (0 : Fin 1))).toInt := by
  unfold ScatterDims.start
  rw [dif_pos (show (0 : Fin 2) ∈ (rowScatter N E C wf).scatterDimsToOperandDims from List.mem_singleton.mpr rfl)]
  have hsi : (rowScatter N E C wf).siIdx j ⟨List.idxOf (0 : Fin 2) (rowScatter N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at 0. -/
theorem rowScatter_start_one (j : (M2 E C).Idx) (idx : IVec (M2 E 1) 32) :
    (rowScatter N E C wf).start j idx 1 = 0 := by
  unfold ScatterDims.start
  rw [dif_neg (show ¬ (1 : Fin 2) ∈ (rowScatter N E C wf).scatterDimsToOperandDims from
    (by decide : ¬ (1 : Fin 2) ∈ [(0 : Fin 2)]))]

/-- The row axis is inserted: its window coordinate is 0. -/
theorem rowScatter_window_zero (j : (M2 E C).Idx) : (rowScatter N E C wf).window j 0 = 0 := by
  unfold ScatterDims.window
  rw [dif_neg (show ¬ (0 : Fin 2) ∈ (rowScatter N E C wf).sKept from
    (by decide : ¬ (0 : Fin 2) ∈ (List.finRange 2).filter (· ∉ [(0 : Fin 2)])))]

/-- On the column axis the window coordinate of update entry (e, q) is q. -/
theorem rowScatter_window_one (j : (M2 E C).Idx) : (rowScatter N E C wf).window j 1 = (j 1).val := by
  unfold ScatterDims.window
  rw [dif_pos (show (1 : Fin 2) ∈ (rowScatter N E C wf).sKept from
    (by decide : (1 : Fin 2) ∈ (List.finRange 2).filter (· ∉ [(0 : Fin 2)])))]
  rfl

end Coordinates

section Landing
variable {N E C : Nat} (wf : ScatterDims.WF (M2 N C) (M2 E 1) (M2 E C) [1] [0] [0] 1)

/-- Update entry (e, q) lands on operand entry (r, q') exactly when idx[e, 0], read signed, is r and q is q'
    (the row condition 0 ≤ idx[e, 0] < N is then part of "is r"; an index outside that range lands nowhere). -/
theorem rowScatter_resultIdx?_eq_some_iff (j : (M2 E C).Idx) (idx : IVec (M2 E 1) 32) (i : (M2 N C).Idx) :
    (rowScatter N E C wf).resultIdx? j idx = some i ↔
      (idx (ix2 (j 0) (0 : Fin 1))).toInt = ((i 0).val : Int) ∧ (j 1).val = (i 1).val := by
  have hs0 := rowScatter_start_zero wf j idx
  have hs1 := rowScatter_start_one wf j idx
  have hw0 := rowScatter_window_zero wf j
  have hw1 := rowScatter_window_one wf j
  have hi0 : (i 0).val < N := idx2_lt0 i
  have hi1 : (i 1).val < C := idx2_lt1 i
  have hj1 : (j 1).val < C := idx2_lt1 j
  unfold ScatterDims.resultIdx?
  constructor
  · intro h
    split at h
    · rename_i hall
      have hi := Option.some.inj h
      have h0 : ((rowScatter N E C wf).start j idx 0 + ((rowScatter N E C wf).window j 0 : Nat)).toNat = (i 0).val := by
        rw [← hi]
      have h1 : ((rowScatter N E C wf).start j idx 1 + ((rowScatter N E C wf).window j 1 : Nat)).toNat = (i 1).val := by
        rw [← hi]
      have a0 := hall 0
      have a1 := hall 1
      rw [hs0, hw0] at h0 a0
      rw [hs1, hw1] at h1 a1
      constructor <;> omega
    · exact absurd h (by simp)
  · rintro ⟨h0, h1⟩
    have hall : ∀ a, 0 ≤ (rowScatter N E C wf).start j idx a + ((rowScatter N E C wf).window j a : Nat) ∧
        (rowScatter N E C wf).start j idx a + ((rowScatter N E C wf).window j a : Nat) < ((M2 N C).size a : Nat) := by
      intro a
      match a with
      | ⟨0, _⟩ =>
        show 0 ≤ (rowScatter N E C wf).start j idx 0 + ((rowScatter N E C wf).window j 0 : Nat) ∧
          (rowScatter N E C wf).start j idx 0 + ((rowScatter N E C wf).window j 0 : Nat) < (N : Nat)
        rw [hs0, hw0, h0]; omega
      | ⟨1, _⟩ =>
        show 0 ≤ (rowScatter N E C wf).start j idx 1 + ((rowScatter N E C wf).window j 1 : Nat) ∧
          (rowScatter N E C wf).start j idx 1 + ((rowScatter N E C wf).window j 1 : Nat) < (C : Nat)
        rw [hs1, hw1]; omega
    rw [dif_pos hall]
    congr 1
    funext a
    refine Fin.ext ?_
    match a with
    | ⟨0, _⟩ =>
      show ((rowScatter N E C wf).start j idx 0 + ((rowScatter N E C wf).window j 0 : Nat)).toNat = (i 0).val
      rw [hs0, hw0, h0]; omega
    | ⟨1, _⟩ =>
      show ((rowScatter N E C wf).start j idx 1 + ((rowScatter N E C wf).window j 1 : Nat)).toNat = (i 1).val
      rw [hs1, hw1]; omega

end Landing

/-- THE SCATTER READ AT (r, q): the operand's entry plus the update entries (e, q) of the rows e whose index, read
    signed, is r. -/
theorem scatterAdd_apply {N E C : Nat} (wf : ScatterDims.WF (M2 N C) (M2 E 1) (M2 E C) [1] [0] [0] 1)
    (x : FVec Ideal (M2 N C) .f32) (idx : IVec (M2 E 1) 32) (upd : FVec Ideal (M2 E C) .f32) (r : Fin N) (q : Fin C) :
    Host.scatterAdd (rowScatter N E C wf) x idx upd (ix2 r q) =
      x (ix2 r q) + ∑ e ∈ Finset.univ.filter (fun e : Fin E => (idx (ix2 e (0 : Fin 1))).toInt = (r.val : Int)),
        upd (ix2 e q) := by
  show x (ix2 r q) + ∑ j ∈ Finset.univ.filter (fun j => (rowScatter N E C wf).resultIdx? j idx = some (ix2 r q)), upd j = _
  congr 1
  rw [Finset.filter_congr (fun j _ => rowScatter_resultIdx?_eq_some_iff wf j idx (ix2 r q))]
  rw [Finset.sum_filter, Finset.sum_filter, sum_idx2]
  refine Finset.sum_congr rfl fun e _ => ?_
  show (∑ c : Fin C, if (idx (ix2 e (0 : Fin 1))).toInt = (r.val : Int) ∧ c.val = q.val then upd (ix2 e c) else 0) = _
  by_cases h : (idx (ix2 e (0 : Fin 1))).toInt = (r.val : Int)
  · rw [if_pos h, Finset.sum_eq_single q]
    · rw [if_pos ⟨h, rfl⟩]
    · intro c _ hc
      rw [if_neg (fun h' => hc (Fin.ext h'.2))]
    · intro h'
      exact absurd (Finset.mem_univ q) h'
  · rw [if_neg h]
    exact Finset.sum_eq_zero fun c _ => if_neg (fun h' => h h'.1)

/-- The N-by-C matrix of zeros as the host builds it: the scalar zero word laid over every entry. -/
def zerosM (N C : Nat) (h : S0.BroadcastsInDim (M2 N C) ![]) : FVec Ideal (M2 N C) .f32 :=
  broadcastInDim (M2 N C) ![] h (constant (F := Ideal) S0 .f32 0x00000000#32)

/-- Every entry of the zero matrix is 0. -/
theorem zerosM_apply {N C : Nat} (h : S0.BroadcastsInDim (M2 N C) ![]) (i : (M2 N C).Idx) : zerosM N C h i = 0 := by
  unfold zerosM
  rw [broadcastInDim_scalar_apply h _ i]
  exact Ideal.ofBits_zero_f32

/-- Entry (e, q) of two matrices side by side, for q among the left one's columns, is the left one's entry (e, q). -/
theorem hcat_apply_left {n a b c : Nat} (hc : a + b = c) (x : FVec Ideal (M2 n a) .f32) (y : FVec Ideal (M2 n b) .f32)
    (e : Fin n) (q : Fin a) : hcat hc x y (ix2 e (⟨q.val, by have := q.isLt; omega⟩ : Fin c)) = x (ix2 e q) := by
  unfold hcat
  rw [dif_pos (show ((ix2 e (⟨q.val, by have := q.isLt; omega⟩ : Fin c)) 1).val < a from q.isLt)]
  rfl

/-- Entry (e, a + q) of two matrices side by side, the left one of a columns, is the right one's entry (e, q). -/
theorem hcat_apply_right {n a b c : Nat} (hc : a + b = c) (x : FVec Ideal (M2 n a) .f32) (y : FVec Ideal (M2 n b) .f32)
    (e : Fin n) (q : Fin b) : hcat hc x y (ix2 e (⟨a + q.val, by have := q.isLt; omega⟩ : Fin c)) = y (ix2 e q) := by
  unfold hcat
  rw [dif_neg (show ¬ ((ix2 e (⟨a + q.val, by have := q.isLt; omega⟩ : Fin c)) 1).val < a from Nat.not_lt.2 (Nat.le_add_right a q.val))]
  congr 1
  funext d
  refine Fin.ext ?_
  match d with
  | ⟨0, _⟩ => rfl
  | ⟨1, _⟩ => show a + q.val - a = q.val; omega

/-- Scatter two update matrices laid side by side into the zero matrix, then keep the left columns: that is the
    scatter of the left update matrix alone into the zero matrix, since a column of the result is made of the same
    column of the updates only. -/
theorem slice_scatterAdd_hcat_left {N E a b c : Nat} (hc : a + b = c)
    (wfc : ScatterDims.WF (M2 N c) (M2 E 1) (M2 E c) [1] [0] [0] 1)
    (wfa : ScatterDims.WF (M2 N a) (M2 E 1) (M2 E a) [1] [0] [0] 1)
    (hzc : S0.BroadcastsInDim (M2 N c) ![]) (hza : S0.BroadcastsInDim (M2 N a) ![])
    (idx : IVec (M2 E 1) 32) (u1 : FVec Ideal (M2 E a) .f32) (u2 : FVec Ideal (M2 E b) .f32)
    (hs : (M2 N c).Slices ![0, 0] (M2 N a)) :
    extractStridedSlice (M2 N a) ![0, 0]
      (Host.scatterAdd (rowScatter N E c wfc) (zerosM N c hzc) idx (hcat hc u1 u2)) hs =
      Host.scatterAdd (rowScatter N E a wfa) (zerosM N a hza) idx u1 := by
  funext j
  obtain ⟨r, q, rfl⟩ : ∃ (r : Fin N) (q : Fin a), j = ix2 r q := ⟨j 0, j 1, eq_ix2 j⟩
  rw [extractStridedSlice_apply ![0, 0] _ hs (ix2 r q) (ix2 r (⟨q.val, by have := q.isLt; omega⟩ : Fin c)) (by
    intro d
    match d with
    | ⟨0, _⟩ => show r.val = 0 + r.val; omega
    | ⟨1, _⟩ => show q.val = 0 + q.val; omega)]
  rw [scatterAdd_apply, scatterAdd_apply, zerosM_apply, zerosM_apply]
  congr 1
  exact Finset.sum_congr rfl fun e _ => hcat_apply_left hc u1 u2 e q

/-- Scatter two update matrices laid side by side into the zero matrix, then keep the right columns: that is the
    scatter of the right update matrix alone into the zero matrix. -/
theorem slice_scatterAdd_hcat_right {N E a b c : Nat} (hc : a + b = c)
    (wfc : ScatterDims.WF (M2 N c) (M2 E 1) (M2 E c) [1] [0] [0] 1)
    (wfb : ScatterDims.WF (M2 N b) (M2 E 1) (M2 E b) [1] [0] [0] 1)
    (hzc : S0.BroadcastsInDim (M2 N c) ![]) (hzb : S0.BroadcastsInDim (M2 N b) ![])
    (idx : IVec (M2 E 1) 32) (u1 : FVec Ideal (M2 E a) .f32) (u2 : FVec Ideal (M2 E b) .f32)
    (hs : (M2 N c).Slices ![0, a] (M2 N b)) :
    extractStridedSlice (M2 N b) ![0, a]
      (Host.scatterAdd (rowScatter N E c wfc) (zerosM N c hzc) idx (hcat hc u1 u2)) hs =
      Host.scatterAdd (rowScatter N E b wfb) (zerosM N b hzb) idx u2 := by
  funext j
  obtain ⟨r, q, rfl⟩ : ∃ (r : Fin N) (q : Fin b), j = ix2 r q := ⟨j 0, j 1, eq_ix2 j⟩
  rw [extractStridedSlice_apply ![0, a] _ hs (ix2 r q) (ix2 r (⟨a + q.val, by have := q.isLt; omega⟩ : Fin c)) (by
    intro d
    match d with
    | ⟨0, _⟩ => show r.val = 0 + r.val; omega
    | ⟨1, _⟩ => rfl)]
  rw [scatterAdd_apply, scatterAdd_apply, zerosM_apply, zerosM_apply]
  congr 1
  exact Finset.sum_congr rfl fun e _ => hcat_apply_right hc u1 u2 e q

end RowLayers

end
-- ==== Proof.KValue.lean ====
/-
  The kernel program's run, read: its result array is the network of its argument arrays, where every edge index is a
  node number. The third kernel's output is the final combine of what it finds; what it finds are the first kernel's two
  projections of the node features, and the two halves of the sum over the edges, by destination node, of the second
  kernel's messages, which are the edge features' projections times the first projection gathered along the source nodes.
  Summing the two messages side by side and cutting the sum in halves is summing each message by itself.
-/
import proofs.«405302_j4922032521429_3_alg».proof.Proof.KRun
import proofs.«405302_j4922032521429_3_alg».proof.Proof.K0
import proofs.«405302_j4922032521429_3_alg».proof.Proof.K1
import proofs.«405302_j4922032521429_3_alg».proof.Proof.K2
import proofs.«405302_j4922032521429_3_alg».proof.Proof.KHostPlain
import proofs.«405302_j4922032521429_3_alg».proof.Proof.KHostIdx
import proofs.«405302_j4922032521429_3_alg».proof.Proof.LibScatterCols
import proofs.«405302_j4922032521429_3_alg».proof.Proof.Net

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen RowLayers Cert.Spec

variable (m : (ℓ : Loc nD τ sig) → Buf (Elt Ideal) ℓ) (ρ : Dev nD → PrngReg)

theorem wf256 : ScatterDims.WF (M2 50000 256) (M2 800000 1) (M2 800000 256) [1] [0] [0] 1 := by decide
theorem hz256 : S0.BroadcastsInDim (M2 50000 256) ![] := by decide
theorem hs0 : (M2 50000 256).Slices ![0, 0] (M2 50000 128) := by decide
theorem hs128 : (M2 50000 256).Slices ![0, 128] (M2 50000 128) := by decide

/-- The two spellings of the row scatter's dimension numbers and of the zero matrix. -/
theorem scatterDims_eq (C : Nat) (wf : ScatterDims.WF (M2 50000 C) (M2 800000 1) (M2 800000 C) [1] [0] [0] 1) :
    scatterDims C wf = rowScatter 50000 800000 C wf := rfl
theorem zeros_eq (C : Nat) (h : S0.BroadcastsInDim (M2 50000 C) ![]) : zeros C h = zerosM 50000 C h := rfl

/-- Summing two messages side by side over the edges and keeping the left half is summing the first message. -/
theorem slice_left (idx : IVec (M2 800000 1) 32) (u1 u2 : FVec Ideal (M2 800000 128) .f32) :
    extractStridedSlice (M2 50000 128) ![0, 0]
        (Host.scatterAdd (scatterDims 256 wf256) (zeros 256 hz256) idx (hcat (a := 128) (b := 128) rfl u1 u2)) hs0
      = Host.scatterAdd (scatterDims 128 layout.w128) (zeros 128 layout.z128) idx u1 := by
  rw [scatterDims_eq 256, zeros_eq 256, scatterDims_eq 128, zeros_eq 128]
  exact slice_scatterAdd_hcat_left (a := 128) (b := 128) rfl wf256 layout.w128 hz256 layout.z128 idx u1 u2 hs0

/-- Keeping the right half is summing the second message. -/
theorem slice_right (idx : IVec (M2 800000 1) 32) (u1 u2 : FVec Ideal (M2 800000 128) .f32) :
    extractStridedSlice (M2 50000 128) ![0, 128]
        (Host.scatterAdd (scatterDims 256 wf256) (zeros 256 hz256) idx (hcat (a := 128) (b := 128) rfl u1 u2)) hs128
      = Host.scatterAdd (scatterDims 128 layout.w128) (zeros 128 layout.z128) idx u2 := by
  rw [scatterDims_eq 256, zeros_eq 256, scatterDims_eq 128, zeros_eq 128]
  exact slice_scatterAdd_hcat_right (a := 128) (b := 128) rfl wf256 layout.w128 hz256 layout.z128 idx u1 u2 hs128

/-- The first node projection of the launch contents. -/
abbrev XL1 (c : Dev nD) : FVec Ideal (M2 50000 128) .f32 := xlin (m ((c.tc : Thread nD τ).loc main_arg0)) (tr layout.t128 (m ((c.tc : Thread nD τ).loc main_arg5))) (m ((c.tc : Thread nD τ).loc main_arg6))
/-- The second node projection. -/
abbrev XL2 (c : Dev nD) : FVec Ideal (M2 50000 128) .f32 := xlin (m ((c.tc : Thread nD τ).loc main_arg0)) (tr layout.t128 (m ((c.tc : Thread nD τ).loc main_arg7))) (m ((c.tc : Thread nD τ).loc main_arg8))
/-- The source and destination rows of the edge index array as index columns. -/
abbrev srcCol (c : Dev nD) : IVec (M2 800000 1) 32 := idxCol layout.bc (idxRow 0 layout.s0 layout.sc (m ((c.tc : Thread nD τ).loc main_arg3)))
abbrev dstCol (c : Dev nD) : IVec (M2 800000 1) 32 := idxCol layout.bc (idxRow 1 layout.s1 layout.sc (m ((c.tc : Thread nD τ).loc main_arg3)))
/-- The first projection gathered along the source nodes. -/
abbrev XS (c : Dev nD) : FVec Ideal (M2 800000 128) .f32 := Host.gather gatherDims (XL1 m c) (srcCol m c)
/-- The two edge messages. -/
abbrev MS1 (c : Dev nD) : FVec Ideal (M2 800000 128) .f32 := mulf (edgeF (m ((c.tc : Thread nD τ).loc main_arg1)) (tr layout.t64x36 (m ((c.tc : Thread nD τ).loc main_arg9))) (tr layout.t128x64 (m ((c.tc : Thread nD τ).loc main_arg10)))) (XS m c)
abbrev MS2 (c : Dev nD) : FVec Ideal (M2 800000 128) .f32 := mulf (edgeF (m ((c.tc : Thread nD τ).loc main_arg2)) (tr layout.t64x16 (m ((c.tc : Thread nD τ).loc main_arg11))) (tr layout.t128x64 (m ((c.tc : Thread nD τ).loc main_arg12)))) (XS m c)

/-- The first kernel's first output array is the first projection of the launch contents. -/
theorem xl1_eq (c : Dev nD) : (dat0 (V1 m ρ) c).arrAt 5 cfg0.N = XL1 m c := by
  rw [Region0.arr5 (V1 m ρ) c, KHost.V1_arg0, KHost.V1_v0, KHost.V1_arg6]

/-- The first kernel's second output array is the second projection. -/
theorem xl2_eq (c : Dev nD) : (dat0 (V1 m ρ) c).arrAt 6 cfg0.N = XL2 m c := by
  rw [Region0.arr6 (V1 m ρ) c, KHost.V1_arg0, KHost.V1_v1, KHost.V1_arg8]

/-- The gathered rows the second kernel finds are the first projection gathered along the source nodes. -/
theorem xs_eq (hidx : ∀ (c : Dev nD) (i : (RowLayers.M2 2 800000).Idx), 0 ≤ ((m ((c.tc : Thread nD τ).loc main_arg3) : IVec (RowLayers.M2 2 800000) 32) i).toInt ∧ ((m ((c.tc : Thread nD τ).loc main_arg3) : IVec (RowLayers.M2 2 800000) 32) i).toInt < 50000) (c : Dev nD) : V7 m ρ c main_v23 = XS m c :=
  (KHost.V7_v23 m ρ hidx c).trans (congrArg (fun u : FVec Ideal (M2 50000 128) .f32 => Host.gather gatherDims u (srcCol m c)) (xl1_eq m ρ c))

/-- The second kernel's output array: the two messages side by side. -/
theorem msg_eq (hidx : ∀ (c : Dev nD) (i : (RowLayers.M2 2 800000).Idx), 0 ≤ ((m ((c.tc : Thread nD τ).loc main_arg3) : IVec (RowLayers.M2 2 800000) 32) i).toInt ∧ ((m ((c.tc : Thread nD τ).loc main_arg3) : IVec (RowLayers.M2 2 800000) 32) i).toInt < 50000) (c : Dev nD) :
    (dat1 (V7 m ρ) c).arrAt 7 cfg1.N = hcat (a := 128) (b := 128) rfl (MS1 m c) (MS2 m c) := by
  rw [Region1.arr7 (V7 m ρ) c, KHost.V7_arg1, KHost.V7_arg2, xs_eq m ρ hidx c, KHost.V7_v2, KHost.V7_v3, KHost.V7_v4, KHost.V7_v5]
  rfl

/-- The two messages summed over the edges by destination node. -/
abbrev AGG1 (c : Dev nD) : FVec Ideal (M2 50000 128) .f32 :=
  Host.scatterAdd (scatterDims 128 layout.w128) (zeros 128 layout.z128) (dstCol m c) (MS1 m c)
abbrev AGG2 (c : Dev nD) : FVec Ideal (M2 50000 128) .f32 :=
  Host.scatterAdd (scatterDims 128 layout.w128) (zeros 128 layout.z128) (dstCol m c) (MS2 m c)

/-- The first aggregated message the third kernel finds: the left half of the sum of the two messages side by side is
    the sum of the first message. -/
theorem agg1_eq (hidx : ∀ (c : Dev nD) (i : (RowLayers.M2 2 800000).Idx), 0 ≤ ((m ((c.tc : Thread nD τ).loc main_arg3) : IVec (RowLayers.M2 2 800000) 32) i).toInt ∧ ((m ((c.tc : Thread nD τ).loc main_arg3) : IVec (RowLayers.M2 2 800000) 32) i).toInt < 50000) (c : Dev nD) : V9 m ρ c main_v28 = AGG1 m c := by
  rw [KHost.V9_v28 m ρ hidx c wf256 hz256 hs0, msg_eq m ρ hidx c]
  exact slice_left (dstCol m c) (MS1 m c) (MS2 m c)

/-- The second aggregated message: the right half. -/
theorem agg2_eq (hidx : ∀ (c : Dev nD) (i : (RowLayers.M2 2 800000).Idx), 0 ≤ ((m ((c.tc : Thread nD τ).loc main_arg3) : IVec (RowLayers.M2 2 800000) 32) i).toInt ∧ ((m ((c.tc : Thread nD τ).loc main_arg3) : IVec (RowLayers.M2 2 800000) 32) i).toInt < 50000) (c : Dev nD) : V9 m ρ c main_v29 = AGG2 m c := by
  rw [KHost.V9_v29 m ρ hidx c wf256 hz256 hs128, msg_eq m ρ hidx c]
  exact slice_right (dstCol m c) (MS1 m c) (MS2 m c)

/-- The network of the launch contents, unfolded: the final combine of the two projections and the two aggregated
    messages. -/
theorem net_unfold (c : Dev nD) :
    net layout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))
      = fin (XL1 m c) (XL2 m c) (AGG1 m c) (AGG2 m c) (tr layout.t128 (m ((c.tc : Thread nD τ).loc main_arg13))) (m ((c.tc : Thread nD τ).loc main_arg14)) (tr layout.t128 (m ((c.tc : Thread nD τ).loc main_arg15))) (tr layout.t128 (m ((c.tc : Thread nD τ).loc main_arg16))) (m ((c.tc : Thread nD τ).loc main_arg17)) (tr layout.t128 (m ((c.tc : Thread nD τ).loc main_arg18))) (tr layout.t128 (m ((c.tc : Thread nD τ).loc main_arg19))) (m ((c.tc : Thread nD τ).loc main_arg20)) (tr layout.t128 (m ((c.tc : Thread nD τ).loc main_arg21))) (m ((c.tc : Thread nD τ).loc main_arg22)) (tr layout.t128x256 (m ((c.tc : Thread nD τ).loc main_arg23))) (m ((c.tc : Thread nD τ).loc main_arg24)) (tr layout.t128 (m ((c.tc : Thread nD τ).loc main_arg25))) (m ((c.tc : Thread nD τ).loc main_arg26)) (tr layout.t128 (m ((c.tc : Thread nD τ).loc main_arg27))) (m ((c.tc : Thread nD τ).loc main_arg28)) (tr layout.t128 (m ((c.tc : Thread nD τ).loc main_arg29))) (m ((c.tc : Thread nD τ).loc main_arg30)) := rfl

/-- The result array at the last boundary is the network of the launch contents of the arguments. -/
theorem value (hidx : ∀ (c : Dev nD) (i : (RowLayers.M2 2 800000).Idx), 0 ≤ ((m ((c.tc : Thread nD τ).loc main_arg3) : IVec (RowLayers.M2 2 800000) 32) i).toInt ∧ ((m ((c.tc : Thread nD τ).loc main_arg3) : IVec (RowLayers.M2 2 800000) 32) i).toInt < 50000) (c : Dev nD) :
    W10 m ρ c (Proc.devRef .tc main_v30) = net layout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) := by
  have h22 : W10 m ρ c (Proc.devRef .tc main_v30) = (dat2 (V9 m ρ) c).arrAt 22 cfg2.N := W10_arr m ρ c 22
  refine h22.trans ((Region2.arr22 (V9 m ρ) c).trans (Eq.trans ?_ (net_unfold m c).symm))
  exact Region2.fin_congr
    ((KHost.V9_v16_0 m ρ c).trans (xl1_eq m ρ c)) ((KHost.V9_v16_1 m ρ c).trans (xl2_eq m ρ c))
    (agg1_eq m ρ hidx c) (agg2_eq m ρ hidx c)
    (KHost.V9_v6 m ρ c) (KHost.V9_arg14 m ρ c) (KHost.V9_v7 m ρ c) (KHost.V9_v8 m ρ c) (KHost.V9_arg17 m ρ c)
    (KHost.V9_v9 m ρ c) (KHost.V9_v10 m ρ c) (KHost.V9_arg20 m ρ c) (KHost.V9_v11 m ρ c) (KHost.V9_arg22 m ρ c)
    (KHost.V9_v12 m ρ c) (KHost.V9_arg24 m ρ c) (KHost.V9_v13 m ρ c) (KHost.V9_arg26 m ρ c) (KHost.V9_v14 m ρ c)
    (KHost.V9_arg28 m ρ c) (KHost.V9_v15 m ρ c) (KHost.V9_arg30 m ρ c)

/-- The kernel program's run with its result array named as the network of the arguments. -/
theorem run_net (hidx : ∀ (c : Dev nD) (i : (RowLayers.M2 2 800000).Idx), 0 ≤ ((m ((c.tc : Thread nD τ).loc main_arg3) : IVec (RowLayers.M2 2 800000) 32) i).toInt ∧ ((m ((c.tc : Thread nD τ).loc main_arg3) : IVec (RowLayers.M2 2 800000) 32) i).toInt < 50000) : θ_run defs (onTc (τ := τ) (main (F := Ideal))) ⟨m, fun _ => 0, ρ⟩ fun r => ∀ c : Dev nD,
      r.2.mem ((c.tc : Thread nD τ).loc main_v30) = net layout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30) :=
  (θ_run defs _ _).mono (fun _ h c => ⟨(h c).1.trans (value m ρ hidx c), (h c).2⟩) (Cert.KernelIdeal.RunValue.run_value (F := Ideal) m ρ)

end Cert.KernelIdeal.KValue

end
-- ==== Proof.PreDecode.lean ====
/-
  The certificate's precondition is one chain of i1 conjunctions; its last two conjuncts say that every entry of the
  int32[2, 800000] edge index array is at least 0 and below 50000, read as a signed integer. Here those two conjuncts are
  read back: from "the precondition evaluates to true" to the elementwise fact 0 ≤ edge_index[i] < 50000. The chain
  associates to the left, ((… ∧ all(0 ≤ e)) ∧ all(e < 50000)), so the two range conjuncts are the outermost ones and
  everything before them (the finiteness of the float arrays) is one opaque word that is split off and dropped.
  Each all(p) is a reduction of the i1 array p by "and" from the constant true into a single word; that word being true
  gives p true at every index. At an index, p is a signed word comparison against a broadcast constant, whose truth is
  the corresponding inequality of signed readings.
-/
import proofs.«405302_j4922032521429_3_alg».proof.Defs
import proofs.«405302_j4922032521429_3_alg».proof.Proof.Gen.Pre_finite_inputs
import Idealize.ShloMosaic.Lib.ReduceAll
import Idealize.ShloMosaic.Lib.StableHlo.Predicate
import Idealize.ShloMosaic.Lib.ValueIdx

noncomputable section

namespace Cert.Proof.PreDecode

open Idealize.ShloMosaic Idealize.SL.Sem Cert.Pre_finite_inputs

/-- The result shape of a reduction over all axes has exactly one index. -/
instance : Subsingleton S_.Idx := ⟨fun a b => funext fun d => d.elim0⟩

/-- The signed readings of the two constants the range conjuncts compare against. -/
theorem toInt_zero : (0#32 : BitVec 32).toInt = 0 := by decide
theorem toInt_bound : (50000#32 : BitVec 32).toInt = 50000 := by decide

/-- The tail of the chain, over any value of the conjuncts before it: if
    ((v ∧ all(…) ∧ all(…)) ∧ all(0 ≤ e)) ∧ all(e < 50000) is true then both range conjuncts are true, each is an "and"
    over the whole array, and at index i its element is the signed comparison of e[i] with the constant. -/
theorem range_of_tail [Facts] (a3 : IVec S2x800000 32) (a30 : FVec Ideal S128 .f32) (v133 : IVec S_ 1) (v136 : IVec S128x128 1)
    (h : fn_part8 (F := Ideal) a3 a30 v133 v136 = fun _ => 1#1) :
    ∀ i : S2x800000.Idx, 0 ≤ (a3 i).toInt ∧ (a3 i).toInt < 50000 := by
  intro i
  have e := congrFun h ValueIdx.ix0
  dsimp only [fn_part8] at e
  -- the outermost "and": the upper bound's conjunct on the right, the rest on the left
  obtain ⟨e1, hlt⟩ := IntOp.andi_eq_one.1 e
  -- the next "and": the lower bound's conjunct on the right; the finiteness conjuncts on the left are dropped
  obtain ⟨-, hge⟩ := IntOp.andi_eq_one.1 e1
  have hge' := Host.reduce_andi_all _ _ _ _ _ hge i
  have hlt' := Host.reduce_andi_all _ _ _ _ _ hlt i
  have h0 : (0#32 : BitVec 32).toInt ≤ (a3 i).toInt := IntOp.cmpi_sge.1 hge'
  have h1 : (a3 i).toInt < (50000#32 : BitVec 32).toInt := IntOp.cmpi_slt.1 hlt'
  rw [toInt_zero] at h0
  rw [toInt_bound] at h1
  exact ⟨h0, h1⟩

/-- The precondition as a function of the 31 argument arrays: the chain's parts unfold to its tail at the edge index
    array, whatever the finiteness conjuncts evaluate to. -/
theorem edge_index_range_of_fn [Facts] (a0 : FVec Ideal S50000x128 .f32) (a1 : FVec Ideal S800000x36 .f32) (a2 : FVec Ideal S800000x16 .f32) (a3 : IVec S2x800000 32) (a4 : IVec S50000 32) (a5 : FVec Ideal S128x128 .f32) (a6 : FVec Ideal S128 .f32) (a7 : FVec Ideal S128x128 .f32) (a8 : FVec Ideal S128 .f32) (a9 : FVec Ideal S64x36 .f32) (a10 : FVec Ideal S128x64 .f32) (a11 : FVec Ideal S64x16 .f32) (a12 : FVec Ideal S128x64 .f32) (a13 : FVec Ideal S128x128 .f32) (a14 : FVec Ideal S128 .f32) (a15 : FVec Ideal S128x128 .f32) (a16 : FVec Ideal S128x128 .f32) (a17 : FVec Ideal S128 .f32) (a18 : FVec Ideal S128x128 .f32) (a19 : FVec Ideal S128x128 .f32) (a20 : FVec Ideal S128 .f32) (a21 : FVec Ideal S128x128 .f32) (a22 : FVec Ideal S128 .f32) (a23 : FVec Ideal S128x256 .f32) (a24 : FVec Ideal S128 .f32) (a25 : FVec Ideal S128x128 .f32) (a26 : FVec Ideal S128 .f32) (a27 : FVec Ideal S128x128 .f32) (a28 : FVec Ideal S128 .f32) (a29 : FVec Ideal S128x128 .f32) (a30 : FVec Ideal S128 .f32)
    (h : fn (F := Ideal) a0 a1 a2 a3 a4 a5 a6 a7 a8 a9 a10 a11 a12 a13 a14 a15 a16 a17 a18 a19 a20 a21 a22 a23 a24 a25 a26 a27 a28 a29 a30 = fun _ => 1#1) :
    ∀ i : S2x800000.Idx, 0 ≤ (a3 i).toInt ∧ (a3 i).toInt < 50000 :=
  range_of_tail a3 a30 _ _ h

/-- At the launch memory: on every device the edge index array the kernel is given has all entries in [0, 50000). -/
theorem edge_index_range [Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, 0 ≤ ((m ((c.tc : Thread Cert.KernelIdeal.nD Cert.KernelIdeal.τ).loc Cert.KernelIdeal.main_arg3) : IVec S2x800000 32) i).toInt
      ∧ ((m ((c.tc : Thread Cert.KernelIdeal.nD Cert.KernelIdeal.τ).loc Cert.KernelIdeal.main_arg3) : IVec S2x800000 32) i).toInt < 50000 :=
  edge_index_range_of_fn _ _ _ _ _ _ _ _ _ _ _ _ _ _ _ _ _ _ _ _ _ _ _ _ _ _ _ _ _ _ _ (h c)

end Cert.Proof.PreDecode

end
-- ==== Proof.lean ====
/- The proof of the certificate's claim: the kernel program and the reference, run from memories that agree on the
   arguments, both end with the network of the arguments in their result arrays, where the float inputs are finite and
   every entry of the edge index array is a node number (the precondition; only its index part is used: at the ideal
   values the two programs are the same function on all extended reals). The three frames are the generated ones, and the
   idealization applied no rewrite, so there is nothing to preserve. -/
import proofs.«405302_j4922032521429_3_alg».proof.Defs
import proofs.«405302_j4922032521429_3_alg».proof.Proof.Gen.Kernel
import proofs.«405302_j4922032521429_3_alg».proof.Proof.Gen.Kernel.Skeleton
import proofs.«405302_j4922032521429_3_alg».proof.Proof.Gen.Kernel.Launch
import proofs.«405302_j4922032521429_3_alg».proof.Proof.Gen.Kernel.Points
import proofs.«405302_j4922032521429_3_alg».proof.Proof.Gen.Kernel.Frame
import proofs.«405302_j4922032521429_3_alg».proof.Proof.Gen.KernelIdeal
import proofs.«405302_j4922032521429_3_alg».proof.Proof.Gen.KernelIdeal.Skeleton
import proofs.«405302_j4922032521429_3_alg».proof.Proof.Gen.KernelIdeal.Launch
import proofs.«405302_j4922032521429_3_alg».proof.Proof.Gen.KernelIdeal.Points
import proofs.«405302_j4922032521429_3_alg».proof.Proof.Gen.KernelIdeal.Frame
import proofs.«405302_j4922032521429_3_alg».proof.Proof.Gen.ReferenceIdeal
import proofs.«405302_j4922032521429_3_alg».proof.Proof.Gen.Pre_finite_inputs
import proofs.«405302_j4922032521429_3_alg».proof.Proof.RefFrame
import proofs.«405302_j4922032521429_3_alg».proof.Proof.RefValue
import proofs.«405302_j4922032521429_3_alg».proof.Proof.KValue
import proofs.«405302_j4922032521429_3_alg».proof.Proof.PreDecode
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The network of equal argument arrays. -/
theorem net_congr {x0 y0 : FVec Ideal (RowLayers.M2 50000 128) .f32} {x1 y1 : FVec Ideal (RowLayers.M2 800000 36) .f32} {x2 y2 : FVec Ideal (RowLayers.M2 800000 16) .f32} {x3 y3 : IVec (RowLayers.M2 2 800000) 32} {x5 y5 : FVec Ideal (RowLayers.M2 128 128) .f32} {x6 y6 : FVec Ideal (RowLayers.V1 128) .f32} {x7 y7 : FVec Ideal (RowLayers.M2 128 128) .f32} {x8 y8 : FVec Ideal (RowLayers.V1 128) .f32} {x9 y9 : FVec Ideal (RowLayers.M2 64 36) .f32} {x10 y10 : FVec Ideal (RowLayers.M2 128 64) .f32} {x11 y11 : FVec Ideal (RowLayers.M2 64 16) .f32} {x12 y12 : FVec Ideal (RowLayers.M2 128 64) .f32} {x13 y13 : FVec Ideal (RowLayers.M2 128 128) .f32} {x14 y14 : FVec Ideal (RowLayers.V1 128) .f32} {x15 y15 : FVec Ideal (RowLayers.M2 128 128) .f32} {x16 y16 : FVec Ideal (RowLayers.M2 128 128) .f32} {x17 y17 : FVec Ideal (RowLayers.V1 128) .f32} {x18 y18 : FVec Ideal (RowLayers.M2 128 128) .f32} {x19 y19 : FVec Ideal (RowLayers.M2 128 128) .f32} {x20 y20 : FVec Ideal (RowLayers.V1 128) .f32} {x21 y21 : FVec Ideal (RowLayers.M2 128 128) .f32} {x22 y22 : FVec Ideal (RowLayers.V1 128) .f32} {x23 y23 : FVec Ideal (RowLayers.M2 128 256) .f32} {x24 y24 : FVec Ideal (RowLayers.V1 128) .f32} {x25 y25 : FVec Ideal (RowLayers.M2 128 128) .f32} {x26 y26 : FVec Ideal (RowLayers.V1 128) .f32} {x27 y27 : FVec Ideal (RowLayers.M2 128 128) .f32} {x28 y28 : FVec Ideal (RowLayers.V1 128) .f32} {x29 y29 : FVec Ideal (RowLayers.M2 128 128) .f32} {x30 y30 : FVec Ideal (RowLayers.V1 128) .f32}
    (h0 : x0 = y0) (h1 : x1 = y1) (h2 : x2 = y2) (h3 : x3 = y3) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) (h26 : x26 = y26) (h27 : x27 = y27) (h28 : x28 = y28) (h29 : x29 = y29) (h30 : x30 = y30) :
    Cert.Spec.net Cert.Spec.layout x0 x1 x2 x3 x5 x6 x7 x8 x9 x10 x11 x12 x13 x14 x15 x16 x17 x18 x19 x20 x21 x22 x23 x24 x25 x26 x27 x28 x29 x30 = Cert.Spec.net Cert.Spec.layout y0 y1 y2 y3 y5 y6 y7 y8 y9 y10 y11 y12 y13 y14 y15 y16 y17 y18 y19 y20 y21 y22 y23 y24 y25 y26 y27 y28 y29 y30 := by
  subst h0 h1 h2 h3 h5 h6 h7 h8 h9 h10 h11 h12 h13 h14 h15 h16 h17 h18 h19 h20 h21 h22 h23 h24 h25 h26 h27 h28 h29 h30
  rfl

/-- The edge index array's range carries over to a memory that agrees on the arguments. -/
theorem range_ref (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30))
    (hidx : ∀ (c : Dev Cert.KernelIdeal.nD) (i : (RowLayers.M2 2 800000).Idx), 0 ≤ ((m ((c.tc : Thread Cert.KernelIdeal.nD Cert.KernelIdeal.τ).loc Cert.KernelIdeal.main_arg3) : IVec (RowLayers.M2 2 800000) 32) i).toInt ∧ ((m ((c.tc : Thread Cert.KernelIdeal.nD Cert.KernelIdeal.τ).loc Cert.KernelIdeal.main_arg3) : IVec (RowLayers.M2 2 800000) 32) i).toInt < 50000) :
    ∀ (c : Dev Cert.ReferenceIdeal.nD) (i : (RowLayers.M2 2 800000).Idx), 0 ≤ ((m' ((c.tc : Thread Cert.ReferenceIdeal.nD Cert.ReferenceIdeal.τ).loc Cert.ReferenceIdeal.main_arg3) : IVec (RowLayers.M2 2 800000) 32) i).toInt ∧ ((m' ((c.tc : Thread Cert.ReferenceIdeal.nD Cert.ReferenceIdeal.τ).loc Cert.ReferenceIdeal.main_arg3) : IVec (RowLayers.M2 2 800000) 32) i).toInt < 50000 := by
  intro c i
  have e3 := (hagree c).2.2.2.1
  rw [e3]
  exact hidx c i

/-- The networks of two memories that agree on the arguments are equal. -/
theorem net_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) (c : Dev Cert.KernelIdeal.nD) :
    Cert.Spec.net Cert.Spec.layout (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) (m' ((c.tc : Thread Cert.ReferenceIdeal.nD Cert.ReferenceIdeal.τ).loc Cert.ReferenceIdeal.main_arg30))
      = Cert.Spec.net Cert.Spec.layout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) := by
  obtain ⟨e0, e1, e2, e3, e4, e5, e6, e7, e8, e9, e10, e11, e12, e13, e14, e15, e16, e17, e18, e19, e20, e21, e22, e23, e24, e25, e26, e27, e28, e29, e30⟩ := hagree c
  exact net_congr e0 e1 e2 e3 e5 e6 e7 e8 e9 e10 e11 e12 e13 e14 e15 e16 e17 e18 e19 e20 e21 e22 e23 e24 e25 e26 e27 e28 e29 e30

/-- Both runs end with the network of the arguments: the kernel program's by its three regions read back, the
    reference's by its operations read back, at memories that agree on the arguments. -/
theorem algebraic : Cert.algebraic_KernelIdeal_ReferenceIdeal := by
  intro m ρ m' ρ' hpre hagree
  have hidx : ∀ (c : Dev Cert.KernelIdeal.nD) (i : (RowLayers.M2 2 800000).Idx), 0 ≤ ((m ((c.tc : Thread Cert.KernelIdeal.nD Cert.KernelIdeal.τ).loc Cert.KernelIdeal.main_arg3) : IVec (RowLayers.M2 2 800000) 32) i).toInt ∧ ((m ((c.tc : Thread Cert.KernelIdeal.nD Cert.KernelIdeal.τ).loc Cert.KernelIdeal.main_arg3) : IVec (RowLayers.M2 2 800000) 32) i).toInt < 50000 := fun c => Cert.Proof.PreDecode.edge_index_range m hpre c
  refine ⟨fun c => Cert.Spec.net Cert.Spec.layout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)),
    Cert.KernelIdeal.KValue.run_net m ρ hidx, ?_⟩
  exact (θ_run Cert.ReferenceIdeal.defs _ _).mono (fun _ h c => ⟨(h c).1.trans (net_agree m m' hagree c), (h c).2⟩)
    (Cert.ReferenceIdeal.RefValue.run_net m' ρ' (range_ref m m' hagree hidx))

theorem claim : Cert.Claim := ⟨Cert.Kernel.Gen.facts, Cert.KernelIdeal.Gen.facts, Cert.ReferenceIdeal.Gen.facts, Cert.Pre_finite_inputs.Gen.facts,
  frame_k, frame_ki, Cert.Proof.RefClaims.frame_ri, trivial, algebraic⟩

end Cert.Proof

end
